-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  IdealRules.truncf_extf.Statement Cert.KernelIdeal.S5000x256 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_arg13 : FVec F S64 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  main_v58

def fn_part2 {F : FTy → Type} [FloatOps F] (main_arg9 : FVec F S64x64 .f32) (main_arg10 : FVec F S64 .f32) (main_arg11 : FVec F S64x64 .f32) (main_arg12 : FVec F S64x64 .f32) (main_arg13 : FVec F S64 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64x64 .f32 := Host.absf main_arg12
  let main_cst_18 : FVec F S_ .f32 := constant S_ .f32 0x7F800000#32
  let main_v50 : FVec F S64x64 .f32 := broadcastInDim S64x64 ![] bcast_S_S64x64 main_cst_18
  fn_part3 (F := F) main_arg13 main_v48 main_v49 main_v50

def fn_part1 {F : FTy → Type} [FloatOps F] (main_arg6 : FVec F S64x64 .f32) (main_arg7 : FVec F S64 .f32) (main_arg8 : FVec F S64x64 .f32) (main_arg9 : FVec F S64x64 .f32) (main_arg10 : FVec F S64 .f32) (main_arg11 : FVec F S64x64 .f32) (main_arg12 : FVec F S64x64 .f32) (main_arg13 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S100000x64 .f32) (main_arg1 : IVec S2x1600000 32) (main_arg2 : IVec S100000 32) (main_arg3 : FVec F S64x64 .f32) (main_arg4 : FVec F S64 .f32) (main_arg5 : FVec F S64x64 .f32) (main_arg6 : FVec F S64x64 .f32) (main_arg7 : FVec F S64 .f32) (main_arg8 : FVec F S64x64 .f32) (main_arg9 : FVec F S64x64 .f32) (main_arg10 : FVec F S64 .f32) (main_arg11 : FVec F S64x64 .f32) (main_arg12 : FVec F S64x64 .f32) (main_arg13 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_arg13 main_v13 main_v16
-- ==== Kernel.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S128x64 : Shape := ⟨2, ![128, 64]⟩
abbrev S1x64 : Shape := ⟨2, ![1, 64]⟩
abbrev S_ : Shape := ⟨0, ![]⟩
abbrev S1600000x1 : Shape := ⟨2, ![1600000, 1]⟩
abbrev S1600000x64 : Shape := ⟨2, ![1600000, 64]⟩
abbrev S5000x64 : Shape := ⟨2, ![5000, 64]⟩
abbrev S5000x128 : Shape := ⟨2, ![5000, 128]⟩
abbrev S100000x1 : Shape := ⟨2, ![100000, 1]⟩
abbrev S256x64 : Shape := ⟨2, ![256, 64]⟩
abbrev S5000x1 : Shape := ⟨2, ![5000, 1]⟩
abbrev S1x256 : Shape := ⟨2, ![1, 256]⟩
abbrev S5000x256 : Shape := ⟨2, ![5000, 256]⟩
abbrev S256 : Shape := ⟨1, ![256]⟩
abbrev S256x1 : Shape := ⟨2, ![256, 1]⟩

abbrev nBuf : Space → Nat
  | .hbm => 70
  | .vmem => 29
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S100000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64x64, .f32⟩
  | .hbm, ⟨13, _⟩ => ⟨S64, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S128x64, .f32⟩
  | .hbm, ⟨19, _⟩ => ⟨S128x64, .f32⟩
  | .hbm, ⟨20, _⟩ => ⟨S128x64, .f32⟩
  | .hbm, ⟨21, _⟩ => ⟨S1x64, .f32⟩
  | .hbm, ⟨22, _⟩ => ⟨S1x64, .f32⟩
  | .hbm, ⟨23, _⟩ => ⟨S1x64, .f32⟩
  | .hbm, ⟨24, _⟩ => ⟨S1x64, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x64, .f32⟩
  | .hbm, ⟨34, _⟩ => ⟨S_, .f32⟩
  | .hbm, ⟨35, _⟩ => ⟨S100000x64, .f32⟩
  | .hbm, ⟨36, _⟩ => ⟨S1600000x1, .i32⟩
  | .hbm, ⟨37, _⟩ => ⟨S100000x64, .f32⟩
  | .hbm, ⟨38, _⟩ => ⟨S100000x64, .bf16⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x64, .bf16⟩
  | .hbm, ⟨48, _⟩ => ⟨S1600000x64, .f32⟩
  | .hbm, ⟨49, _⟩ => ⟨S_, .f32⟩
  | .hbm, ⟨50, _⟩ => ⟨S100000x64, .f32⟩
  | .hbm, ⟨51, _⟩ => ⟨S1600000x1, .i32⟩
  | .hbm, ⟨52, _⟩ => ⟨S100000x64, .f32⟩
  | .hbm, ⟨53, _⟩ => ⟨S100000x64, .bf16⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1600000x64, .bf16⟩
  | .hbm, ⟨63, _⟩ => ⟨S1600000x64, .f32⟩
  | .hbm, ⟨64, _⟩ => ⟨S_, .f32⟩
  | .hbm, ⟨65, _⟩ => ⟨S100000x64, .f32⟩
  | .hbm, ⟨66, _⟩ => ⟨S1600000x1, .i32⟩
  | .hbm, ⟨67, _⟩ => ⟨S100000x64, .f32⟩
  | .hbm, ⟨68, _⟩ => ⟨S100000x1, .i32⟩
  | .hbm, ⟨69, _⟩ => ⟨S256x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S128x64, .f32⟩
  | .local _ .vmem, ⟨5, _⟩ => ⟨S1x64, .f32⟩
  | .local _ .vmem, ⟨6, _⟩ => ⟨S5000x64, .bf16⟩
  | .local _ .vmem, ⟨7, _⟩ => ⟨S5000x64, .bf16⟩
  | .local _ .vmem, ⟨8, _⟩ => ⟨S5000x64, .f32⟩
  | .local _ .vmem, ⟨9, _⟩ => ⟨S5000x64, .f32⟩
  | .local _ .vmem, ⟨10, _⟩ => ⟨S5000x64, .bf16⟩
  | .local _ .vmem, ⟨11, _⟩ => ⟨S5000x64, .bf16⟩
  | .local _ .vmem, ⟨12, _⟩ => ⟨S128x64, .f32⟩
  | .local _ .vmem, ⟨13, _⟩ => ⟨S1x64, .f32⟩
  | .local _ .vmem, ⟨14, _⟩ => ⟨S5000x64, .bf16⟩
  | .local _ .vmem, ⟨15, _⟩ => ⟨S5000x64, .bf16⟩
  | .local _ .vmem, ⟨16, _⟩ => ⟨S5000x64, .f32⟩
  | .local _ .vmem, ⟨17, _⟩ => ⟨S5000x64, .f32⟩
  | .local _ .vmem, ⟨18, _⟩ => ⟨S5000x64, .bf16⟩
  | .local _ .vmem, ⟨19, _⟩ => ⟨S5000x64, .bf16⟩
  | .local _ .vmem, ⟨20, _⟩ => ⟨S5000x1, .i32⟩
  | .local _ .vmem, ⟨21, _⟩ => ⟨S5000x1, .i32⟩
  | .local _ .vmem, ⟨22, _⟩ => ⟨S128x64, .f32⟩
  | .local _ .vmem, ⟨23, _⟩ => ⟨S1x64, .f32⟩
  | .local _ .vmem, ⟨24, _⟩ => ⟨S64x64, .f32⟩
  | .local _ .vmem, ⟨25, _⟩ => ⟨S1x64, .f32⟩
  | .local _ .vmem, ⟨26, _⟩ => ⟨S256x64, .f32⟩
  | .local _ .vmem, ⟨27, _⟩ => ⟨S256x64, .f32⟩
  | .local _ .vmem, ⟨28, _⟩ => ⟨S1x256, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_v11 : Ref sig .tc := ⟨.hbm, 26, rfl⟩
abbrev main_v12 : Ref sig .tc := ⟨.hbm, 27, rfl⟩
abbrev main_c_0 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_1 : Ref sig .tc := ⟨.hbm, 39, rfl⟩
abbrev main_v22 : Ref sig .tc := ⟨.hbm, 40, rfl⟩
abbrev main_v23 : Ref sig .tc := ⟨.hbm, 41, rfl⟩
abbrev main_c_2 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_3 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_4 : Ref sig .tc := ⟨.hbm, 54, rfl⟩
abbrev main_v34 : Ref sig .tc := ⟨.hbm, 55, rfl⟩
abbrev main_v35 : Ref sig .tc := ⟨.hbm, 56, rfl⟩
abbrev main_c_5 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_6 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg7_0 : Ref sig .tc := ⟨.vmem, 26, rfl⟩
abbrev cc2_scratch0 : Ref sig .tc := ⟨.vmem, 27, rfl⟩
abbrev cc2_scratch1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem7_0 : DmaSem sig := 26

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def k2_cond2 (i : grid2.Coords) : BitVec 1 :=
  let arg0 : BitVec 32 := BitVec.ofNat 32 (i 0).val
  let c19_i32 : BitVec 32 := 19#32
  let v42 : BitVec 1 := Scalar.cmpi .eq arg0 c19_i32
  let v43 : BitVec 32 := Scalar.extui v42
  let c0_i32_20 : BitVec 32 := 0#32
  let v44 : BitVec 1 := Scalar.cmpi .ne v43 c0_i32_20
  v44

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S256x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S64x64_S64x64_S128x64_d0 : Shape.Concatenates [S64x64, S64x64] S128x64 0
  shapeCasts_S64_S1x64 : S64.ShapeCasts S1x64
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  concatenates_S5000x64_S5000x64_S5000x128_d1 : Shape.Concatenates [S5000x64, S5000x64] S5000x128 1
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  packedbf16_S5000x64_S5000x64_0_0 : (Rect.unit (s := S5000x64) ![0, 0] S5000x64.size inb_S5000x64_S5000x64_0_0).PackedRows (EltTy.packing .bf16)
  shapeCasts_S100000_S100000x1 : S100000.ShapeCasts S100000x1
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S1x256_d1_w32 : S1x256.Iotas .tc 32 [1]
  broadcasts_S5000x1_S5000x256 : S5000x1.Broadcasts S5000x256
  broadcasts_S1x256_S5000x256 : S1x256.Broadcasts S5000x256
  natLt_1_32 : 1 < 32
  reduces_S5000x256_S256 : S5000x256.Reduces [0] S256
  shapeCasts_S256_S1x256 : S256.ShapeCasts S1x256
  transposes_S1x256_p1_0_S256x1 : S1x256.Transposes [1, 0] S256x1
  broadcasts_S256x1_S256x64 : S256x1.Broadcasts S256x64
  inb_S64x64_S64x64_0_0 : ∀ a, (![0, 0] : Fin 2 → Nat) a + S64x64.size a ≤ S64x64.size a
  h_S64x64 : 0 < S64x64.numel
  broadcasts_S1x64_S256x64 : S1x64.Broadcasts S256x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x128_S128x64_S5000x64_1_0_0_1_n_n_wf : DotDims.WF S5000x128 S128x64 S5000x64 [1] [0] [0] [1] [] []
  dot_S5000x256_S5000x64_S256x64_0_0_1_1_n_n_wf : DotDims.WF S5000x256 S5000x64 S256x64 [0] [0] [1] [1] [] []
  dot_S256x64_S64x64_S256x64_1_0_0_1_n_n_wf : DotDims.WF S256x64 S64x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S100000x64.size a
  hwx0_4 : ∀ i : grid0.Coords, EltTy.bits .bf16 = 32 ∨ (Rect.block (s := S100000x64) S5000x64.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .bf16 = 32 ∨ (Rect.block (s := S100000x64) S5000x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .bf16 = 32 ∨ (Rect.block (s := S100000x64) S5000x64.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .bf16 = 32 ∨ (Rect.block (s := S100000x64) S5000x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .i32 = 32 ∨ (Rect.block (s := S100000x1) S5000x1.size (cc2_transform_2 i) (hinb2_2 i)).WholeWords (EltTy.packing .i32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S256x64.size a ≤ S256x64.size a
  hwx2_7 : ∀ i : grid2.Coords, EltTy.bits .f32 = 32 ∨ (Rect.block (s := S256x64) S256x64.size (cc2_transform_7 i) (hinb2_7 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x256_S5000x64_S256x64_0_0_1_1_n_n : DotDims S5000x256 S5000x64 S256x64 where
  lhsContracting := [0]
  rhsContracting := [0]
  lhsNonContracting := [1]
  rhsNonContracting := [1]
  lhsBatch := []
  rhsBatch := []
  wf := dot_S5000x256_S5000x64_S256x64_0_0_1_1_n_n_wf
def dot_S256x64_S64x64_S256x64_1_0_0_1_n_n : DotDims S256x64 S64x64 S256x64 where
  lhsContracting := [1]
  rhsContracting := [0]
  lhsNonContracting := [0]
  rhsNonContracting := [1]
  lhsBatch := []
  rhsBatch := []
  wf := dot_S256x64_S64x64_S256x64_1_0_0_1_n_n_wf

abbrev win0_0 : Pipeline.Window sig grid0 :=
  Pipeline.Window.ofSpec (Memref.whole main_v20) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v32) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v33) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v44) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v45) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v6) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v9) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg12) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v10) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v46) S256x64.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev idle2 : Fin 8 → grid2.Coords → Bool := fun | 0 => fun _ => false | 1 => fun _ => false | 2 => fun _ => false | 3 => fun _ => false | 4 => fun _ => false | 5 => fun _ => false | 6 => fun _ => false | 7 => fun i => !(k2_cond2 i == 1#1) | ⟨_ + 8, h⟩ => absurd h (Nat.not_lt.2 (Nat.le_add_left _ _))

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S256x64 : Shape := ⟨2, ![256, 64]⟩
abbrev S100000x1 : Shape := ⟨2, ![100000, 1]⟩
abbrev S256 : Shape := ⟨1, ![256]⟩
abbrev S256x1 : Shape := ⟨2, ![256, 1]⟩

abbrev nBuf : Space → Nat
  | .hbm => 101
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S100000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64x64, .f32⟩
  | .hbm, ⟨13, _⟩ => ⟨S64, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x64, .f32⟩
  | .hbm, ⟨27, _⟩ => ⟨S_, .f32⟩
  | .hbm, ⟨28, _⟩ => ⟨S100000x64, .f32⟩
  | .hbm, ⟨29, _⟩ => ⟨S1600000x1, .i32⟩
  | .hbm, ⟨30, _⟩ => ⟨S100000x64, .f32⟩
  | .hbm, ⟨31, _⟩ => ⟨S100000x64, .f32⟩
  | .hbm, ⟨32, _⟩ => ⟨S1x64, .f32⟩
  | .hbm, ⟨33, _⟩ => ⟨S100000x64, .f32⟩
  | .hbm, ⟨34, _⟩ => ⟨S100000x64, .f32⟩
  | .hbm, ⟨35, _⟩ => ⟨S100000x64, .f32⟩
  | .hbm, ⟨36, _⟩ => ⟨S100000x64, .f32⟩
  | .hbm, ⟨37, _⟩ => ⟨S_, .f32⟩
  | .hbm, ⟨38, _⟩ => ⟨S100000x64, .f32⟩
  | .hbm, ⟨39, _⟩ => ⟨S100000x64, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x64, .f32⟩
  | .hbm, ⟨49, _⟩ => ⟨S_, .f32⟩
  | .hbm, ⟨50, _⟩ => ⟨S100000x64, .f32⟩
  | .hbm, ⟨51, _⟩ => ⟨S1600000x1, .i32⟩
  | .hbm, ⟨52, _⟩ => ⟨S100000x64, .f32⟩
  | .hbm, ⟨53, _⟩ => ⟨S100000x64, .f32⟩
  | .hbm, ⟨54, _⟩ => ⟨S1x64, .f32⟩
  | .hbm, ⟨55, _⟩ => ⟨S100000x64, .f32⟩
  | .hbm, ⟨56, _⟩ => ⟨S100000x64, .f32⟩
  | .hbm, ⟨57, _⟩ => ⟨S100000x64, .f32⟩
  | .hbm, ⟨58, _⟩ => ⟨S100000x64, .f32⟩
  | .hbm, ⟨59, _⟩ => ⟨S_, .f32⟩
  | .hbm, ⟨60, _⟩ => ⟨S100000x64, .f32⟩
  | .hbm, ⟨61, _⟩ => ⟨S100000x64, .f32⟩
  | .hbm, ⟨62, _⟩ => ⟨S_, .i32⟩
  | .hbm, ⟨63, _⟩ => ⟨S1600000, .i32⟩
  | .hbm, ⟨64, _⟩ => ⟨S1600000, .i1⟩
  | .hbm, ⟨65, _⟩ => ⟨S_, .i32⟩
  | .hbm, ⟨66, _⟩ => ⟨S1600000, .i32⟩
  | .hbm, ⟨67, _⟩ => ⟨S1600000, .i32⟩
  | .hbm, ⟨68, _⟩ => ⟨S1600000, .i32⟩
  | .hbm, ⟨69, _⟩ => ⟨S1600000x1, .i32⟩
  | .hbm, ⟨70, _⟩ => ⟨S1600000x64, .f32⟩
  | .hbm, ⟨71, _⟩ => ⟨S_, .f32⟩
  | .hbm, ⟨72, _⟩ => ⟨S100000x64, .f32⟩
  | .hbm, ⟨73, _⟩ => ⟨S1600000x1, .i32⟩
  | .hbm, ⟨74, _⟩ => ⟨S100000x64, .f32⟩
  | .hbm, ⟨75, _⟩ => ⟨S100000x64, .f32⟩
  | .hbm, ⟨76, _⟩ => ⟨S1x64, .f32⟩
  | .hbm, ⟨77, _⟩ => ⟨S100000x64, .f32⟩
  | .hbm, ⟨78, _⟩ => ⟨S100000x64, .f32⟩
  | .hbm, ⟨79, _⟩ => ⟨S100000x64, .f32⟩
  | .hbm, ⟨80, _⟩ => ⟨S100000x64, .f32⟩
  | .hbm, ⟨81, _⟩ => ⟨S_, .f32⟩
  | .hbm, ⟨82, _⟩ => ⟨S256x64, .f32⟩
  | .hbm, ⟨83, _⟩ => ⟨S100000x1, .i32⟩
  | .hbm, ⟨84, _⟩ => ⟨S256x64, .f32⟩
  | .hbm, ⟨85, _⟩ => ⟨S_, .f32⟩
  | .hbm, ⟨86, _⟩ => ⟨S100000, .f32⟩
  | .hbm, ⟨87, _⟩ => ⟨S_, .f32⟩
  | .hbm, ⟨88, _⟩ => ⟨S256, .f32⟩
  | .hbm, ⟨89, _⟩ => ⟨S100000x1, .i32⟩
  | .hbm, ⟨90, _⟩ => ⟨S256, .f32⟩
  | .hbm, ⟨91, _⟩ => ⟨S_, .f32⟩
  | .hbm, ⟨92, _⟩ => ⟨S256, .f32⟩
  | .hbm, ⟨93, _⟩ => ⟨S256, .f32⟩
  | .hbm, ⟨94, _⟩ => ⟨S256x1, .f32⟩
  | .hbm, ⟨95, _⟩ => ⟨S256x64, .f32⟩
  | .hbm, ⟨96, _⟩ => ⟨S256x64, .f32⟩
  | .hbm, ⟨97, _⟩ => ⟨S256x64, .f32⟩
  | .hbm, ⟨98, _⟩ => ⟨S1x64, .f32⟩
  | .hbm, ⟨99, _⟩ => ⟨S256x64, .f32⟩
  | .hbm, ⟨100, _⟩ => ⟨S256x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_call0_cst : Ref sig .tc := ⟨.hbm, 37, rfl⟩
abbrev main_call0_v0 : Ref sig .tc := ⟨.hbm, 38, rfl⟩
abbrev main_v20 : Ref sig .tc := ⟨.hbm, 39, rfl⟩
abbrev main_c_1 : Ref sig .tc := ⟨.hbm, 40, rfl⟩
abbrev main_v21 : Ref sig .tc := ⟨.hbm, 41, rfl⟩
abbrev main_v22 : Ref sig .tc := ⟨.hbm, 42, rfl⟩
abbrev main_c_2 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_3 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_call1_cst : Ref sig .tc := ⟨.hbm, 59, rfl⟩
abbrev main_call1_v0 : Ref sig .tc := ⟨.hbm, 60, rfl⟩
abbrev main_v37 : Ref sig .tc := ⟨.hbm, 61, rfl⟩
abbrev main_c_4 : Ref sig .tc := ⟨.hbm, 62, rfl⟩
abbrev main_v38 : Ref sig .tc := ⟨.hbm, 63, rfl⟩
abbrev main_v39 : Ref sig .tc := ⟨.hbm, 64, rfl⟩
abbrev main_c_5 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_6 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_7 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_8 : Ref sig .tc := ⟨.hbm, 85, rfl⟩
abbrev main_v57 : Ref sig .tc := ⟨.hbm, 86, rfl⟩
abbrev main_cst_9 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_10 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S256x64 : S_.BroadcastsInDim S256x64 (![] : Fin 0 → Fin S256x64.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S256 : S_.BroadcastsInDim S256 (![] : Fin 0 → Fin S256.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  bcast_S1x64_S256x64_0_1 : S1x64.BroadcastsInDim S256x64 (![0, 1] : Fin 2 → Fin S256x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  scatter_S256x64_S100000x1_S100000x64_1_0_0_1_wf : ScatterDims.WF S256x64 S100000x1 S100000x64 [1] [0] [0] 1
  scatter_S256_S100000x1_S100000_n_0_0_1_wf : ScatterDims.WF S256 S100000x1 S100000 [] [0] [0] 1
  dot_S256x64_S64x64_S256x64_1_0_0_1_n_n_wf : DotDims.WF S256x64 S64x64 S256x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x64_S64x64_S256x64_1_0_0_1_n_n : DotDims S256x64 S64x64 S256x64 where
  lhsContracting := [1]
  rhsContracting := [0]
  lhsNonContracting := [0]
  rhsNonContracting := [1]
  lhsBatch := []
  rhsBatch := []
  wf := dot_S256x64_S64x64_S256x64_1_0_0_1_n_n_wf

class Facts : Prop extends Facts₀ where

variable [Facts]
-- ==== Proof.K.R0.lean ====
/-
  Region 0 of @main (the dense stage of layer 1), at the contents `V` the region is entered with.

  The grid has 20 points; point `t` sees rows 5000·t … 5000·t+4999 of the aggregated array (window 0) and of the
  layer's input (window 1), the whole stacked weight matrix (window 2) and the bias row (window 3), and stores
  into its block of the result (window 4) one value: the payload of the body's single store, a function of the
  four blocks it loaded.  Nothing is carried from point to point, so the region's invariant is the plain one
  (the scoped buffers no window stages, at some contents, and the generator register at some state).
-/
import proofs.«428750_j8675833938328_3_alg».proof.Proof.Gen.Kernel.Launch
import proofs.«428750_j8675833938328_3_alg».proof.Proof.Gen.Kernel.Skeleton
import proofs.«428750_j8675833938328_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses: each load and the store take a whole buffer -/

abbrev r0A : Rect S5000x64 := Rect.unit (s := S5000x64) ![0, 0] S5000x64.size inb_S5000x64_S5000x64_0_0
abbrev r0W : Rect S128x64 := Rect.unit (s := S128x64) ![0, 0] S128x64.size inb_S128x64_S128x64_0_0
abbrev r0B : Rect S1x64 := Rect.unit (s := S1x64) ![0, 0] S1x64.size inb_S1x64_S1x64_0_0

/-- What the body leaves in the result window's staging buffer, from the four input blocks: its one store. -/
def out0_4 (x0 : Vec F S5000x64 .f32) (x1 : Vec F S5000x64 .f32) (x2 : Vec F S128x64 .f32) (x3 : Vec F S1x64 .f32) : Vec F S5000x64 .bf16 :=
  View.canon [⟨r0A, k0_pay1 (View.ld x0 r0A) (View.ld x1 r0A) (View.ld x2 r0W) (View.ld x3 r0B)⟩]

/-! ## The pipeline's proof data -/

/-- The proof data of pipeline 0 on core `c`: the arrays as the region finds them; after the body at point `t`
    each input's buffer at its block and the result's at `out0_4` of the input blocks; the plain invariant;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

/-! ## What the body finds in each input window's buffer -/

/-- Input window 0's current staging buffer holds its block at every point, fetched there or not, for any proof
    data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 likewise. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the stacked weights: one block, fetched at the first point only) likewise: where it is not
    fetched its block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3 (the bias row: one block, fetched at the first point only) likewise. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body's triple -/

/-- The body's one store takes the whole result buffer, so it covers it. -/
theorem cover0_4 (p0 : Vec F S5000x64 .bf16) (y : S5000x64.Idx) :
    ∃ pc ∈ ([⟨r0A, p0⟩] : List (View.Piece (Elt F) S5000x64 .bf16)), y ∈ pc.1.set :=
  View.cover_of_tiled [⟨r0A, p0⟩] S5000x64.size (by rfl) y

set_option maxHeartbeats 1000000 in
/-- The kernel body on whole staging memrefs, the inputs' at read contents `x0 … x3` and the result's at anything,
    runs to the continuation holding the inputs' as they were and the result's at `out0_4` of the inputs': four
    loads of whole buffers, a load of the result buffer whose value is not used, and one store over the whole
    result buffer. -/
theorem sound_kernel0 (c : Dev nD) (E : Set ℕ) (i : grid0.Coords)
    (arg1 : Memref sig .tc .vmem S5000x64 .f32) (harg1 : arg1.IsWhole) (arg2 : Memref sig .tc .vmem S5000x64 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S5000x64 .bf16) (harg5 : arg5.IsWhole)
    (x0 : Vec F S5000x64 .f32) (x1 : Vec F S5000x64 .f32) (x2 : Vec F S128x64 .f32) (x3 : Vec F S1x64 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1 x2 x3)) -∗ K ⟨⟩))
      ⊢ wp frame (wpE (defs₀ (F := F)) Variants.none c none) E (cc0_kernel i arg1 harg1 arg2 harg2 arg3 harg3 arg4 harg4 arg5 harg5) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-! ## The body obligation -/

/-- At every point the body, handed the invariant, the core's dues and each window's current staging buffer at
    what it then holds, runs to the same with each buffer at what the proof data says it leaves. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1.lean ====
/-
  Region 1 of @main (the dense stage of layer 2), at the contents `V` the region is entered with.

  The grid has 20 points; point `t` sees rows 5000·t … 5000·t+4999 of the aggregated array (window 0) and of the
  layer's input (window 1), the whole stacked weight matrix (window 2) and the bias row (window 3), and stores
  into its block of the result (window 4) one value: the payload of the body's single store, a function of the
  four blocks it loaded.  Nothing is carried from point to point, so the region's invariant is the plain one
  (the scoped buffers no window stages, at some contents, and the generator register at some state).
-/
import proofs.«428750_j8675833938328_3_alg».proof.Proof.Gen.Kernel.Launch
import proofs.«428750_j8675833938328_3_alg».proof.Proof.Gen.Kernel.Skeleton
import proofs.«428750_j8675833938328_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses: each load and the store take a whole buffer -/

abbrev r1A : Rect S5000x64 := Rect.unit (s := S5000x64) ![0, 0] S5000x64.size inb_S5000x64_S5000x64_0_0
abbrev r1W : Rect S128x64 := Rect.unit (s := S128x64) ![0, 0] S128x64.size inb_S128x64_S128x64_0_0
abbrev r1B : Rect S1x64 := Rect.unit (s := S1x64) ![0, 0] S1x64.size inb_S1x64_S1x64_0_0

/-- What the body leaves in the result window's staging buffer, from the four input blocks: its one store. -/
def out1_4 (x0 : Vec F S5000x64 .f32) (x1 : Vec F S5000x64 .bf16) (x2 : Vec F S128x64 .f32) (x3 : Vec F S1x64 .f32) : Vec F S5000x64 .bf16 :=
  View.canon [⟨r1A, k1_pay1 (View.ld x0 r1A) (View.ld x1 r1A) (View.ld x2 r1W) (View.ld x3 r1B)⟩]

/-! ## The pipeline's proof data -/

/-- The proof data of pipeline 1 on core `c`: the arrays as the region finds them; after the body at point `t`
    each input's buffer at its block and the result's at `out1_4` of the input blocks; the plain invariant;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-! ## What the body finds in each input window's buffer -/

/-- Input window 0's current staging buffer holds its block at every point, fetched there or not, for any proof
    data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the previous layer's result, in half precision) likewise. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the stacked weights: one block, fetched at the first point only) likewise: where it is not
    fetched its block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3 (the bias row: one block, fetched at the first point only) likewise. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body's triple -/

/-- The body's one store takes the whole result buffer, so it covers it. -/
theorem cover1_4 (p0 : Vec F S5000x64 .bf16) (y : S5000x64.Idx) :
    ∃ pc ∈ ([⟨r1A, p0⟩] : List (View.Piece (Elt F) S5000x64 .bf16)), y ∈ pc.1.set :=
  View.cover_of_tiled [⟨r1A, p0⟩] S5000x64.size (by rfl) y

set_option maxHeartbeats 1000000 in
/-- The kernel body on whole staging memrefs, the inputs' at read contents `x0 … x3` (the second in half
    precision) and the result's at anything, runs to the continuation holding the inputs' as they were and the
    result's at `out1_4` of the inputs': four loads of whole buffers, a load of the result buffer whose value is not
    used, and one store over the whole result buffer. -/
theorem sound_kernel1 (c : Dev nD) (E : Set ℕ) (i : grid1.Coords)
    (arg1 : Memref sig .tc .vmem S5000x64 .f32) (harg1 : arg1.IsWhole) (arg2 : Memref sig .tc .vmem S5000x64 .bf16) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S5000x64 .bf16) (harg5 : arg5.IsWhole)
    (x0 : Vec F S5000x64 .f32) (x1 : Vec F S5000x64 .bf16) (x2 : Vec F S128x64 .f32) (x3 : Vec F S1x64 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out1_4 x0 x1 x2 x3)) -∗ K ⟨⟩))
      ⊢ wp frame (wpE (defs₀ (F := F)) Variants.none c none) E (cc1_kernel i arg1 harg1 arg2 harg2 arg3 harg3 arg4 harg4 arg5 harg5) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-! ## The body obligation -/

/-- At every point the body, handed the invariant, the core's dues and each window's current staging buffer at
    what it then holds, runs to the same with each buffer at what the proof data says it leaves. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.R2Defs.lean ====
/-
  Region 2 of @main (layer 3 fused with the mean pool and the last linear map), at the contents `V` the region is
  entered with.

  The grid has 20 points and runs in order.  Point `t` sees rows 5000·t … 5000·t+4999 of the aggregated array
  (window 0), of the layer's input (window 1) and of the graph ids (window 2), and the whole of the stacked weights
  (3), the bias row (4), the last linear map's matrix (5) and bias row (6).  Two scratch buffers are carried from
  point to point: the pooled sums (256×64) and the node counts (1×256).  The first point resets both to zero before
  it adds its block's contribution; every point adds its block's contribution; the last point alone stores into the
  result window (7), which is written back only there: the pooled sums divided by `max count 1`, through the linear
  map.

  `S2 n` and `C2 n` are what the two scratch buffers hold after the first `n` points.  The region's invariant
  before point `t` holds the two scratch buffers at `S2 t` and `C2 t` (at anything before the first point), beside
  the other scoped buffers at some contents and the generator register at some state.
-/
import proofs.«428750_j8675833938328_3_alg».proof.Proof.Gen.Kernel.Launch
import proofs.«428750_j8675833938328_3_alg».proof.Proof.Gen.Kernel.Skeleton
import proofs.«428750_j8675833938328_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The scratch buffers from point to point -/

/-- The pooled-sum scratch after the first `n` points: zero, then each point's block folded in by the body's
    own store payload (the previous contents plus the block's one-hot product). -/
def S2 (c : Dev nD) : ℕ → Vec F S256x64 .f32
  | 0 => k2_pay3
  | n + 1 =>
    if h : n < cfg2.N then
      k2_pay7 (iblk2 V c 0 ⟨n, h⟩) (iblk2 V c 1 ⟨n, h⟩) (iblk2 V c 3 ⟨n, h⟩) (iblk2 V c 4 ⟨n, h⟩) (iblk2 V c 2 ⟨n, h⟩) (S2 c n)
    else S2 c n

/-- The count scratch after the first `n` points: zero, then each point's column sums of its one-hot block added. -/
def C2 (c : Dev nD) : ℕ → Vec F S1x256 .f32
  | 0 => k2_pay4
  | n + 1 =>
    if h : n < cfg2.N then k2_pay1 (k2_pay6 (iblk2 V c 2 ⟨n, h⟩)) (C2 c n) else C2 c n

/-- What the last point stores into the result window: the head applied to the scratch buffers as that point
    leaves them. (Stated at every point; only the last one writes it back.) -/
def out2_7 (c : Dev nD) (t : Fin cfg2.N) : Vec F S256x64 .f32 :=
  k2_pay2 (C2 V c (t.val + 1)) (S2 V c (t.val + 1)) (iblk2 V c 5 t) (iblk2 V c 6 t)

/-! ## The invariant -/

/-- Before point `t`: the two scratch buffers at what the first `t` points left (anything before the first), the
    other scoped buffers no window stages at some contents, the generator register at some state. -/
def Φ2 (c : Dev nD) (t : Fin (cfg2.N + 1)) : sProp 𝕄 :=
  iprop(Pipeline.scopedRestBut (Ix := Unit) (Name := ℕ) (U := UR sig nD τ) (Lvl := ℕ) (Val := Elt F) spec2 c [cc2_scratch0, cc2_scratch1]
    ∗ (∃ r, prngReg c r)
    ∗ ∃ (f0 : Buf (Elt F) ((c : Thread nD τ).loc cc2_scratch0)) (f1 : Buf (Elt F) ((c : Thread nD τ).loc cc2_scratch1)),
        (((c : Thread nD τ).loc cc2_scratch0) ↦{fullShare} f0) ∗ (((c : Thread nD τ).loc cc2_scratch1) ↦{fullShare} f1)
        ∗ ⌜t.val ≠ 0 → f0 = S2 V c t.val ∧ f1 = C2 V c t.val⌝)

/-! ## The pipeline's proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 V c t
  Φ t := Φ2 V c t
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 V c t := by dsimp only [dat2]

end Cert.Kernel.Hand

end
-- ==== Proof.K.Fold.lean ====
/-
  The contents of the TensorCore's unscoped buffers at each boundary between @main's items, as a fold from the
  launch memory: after a stretch of host operations, the operations applied; after a region, the region's arrays
  at what its write-backs leave and every other buffer as the region found it.
-/
import proofs.«428750_j8675833938328_3_alg».proof.Proof.K.R0
import proofs.«428750_j8675833938328_3_alg».proof.Proof.K.R1
import proofs.«428750_j8675833938328_3_alg».proof.Proof.K.R2Defs

set_option maxRecDepth 16384

noncomputable section

namespace Cert.Kernel.Hand

open Cert.Kernel Cert.Kernel.Gen
open Idealize.ShloMosaic Idealize.ShloMosaic.TcCoe
open Idealize.SL Idealize.SL.Sem
open Idealize.ShloMosaic.Pipeline (Dat Cfg)

variable {F : FTy → Type} [FloatOps F]

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch (region 2's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit: what the run ends with. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

end Cert.Kernel.Hand

end
-- ==== Proof.K.R2.lean ====
/-
  Region 2 of @main (layer 3 fused with the mean pool and the last linear map), at the contents `V` the region is
  entered with.

  The grid has 20 points and runs in order.  Point `t` sees rows 5000·t … 5000·t+4999 of the aggregated array
  (window 0), of the layer's input (window 1) and of the graph ids (window 2), and the whole of the stacked weights
  (3), the bias row (4), the last linear map's matrix (5) and bias row (6).  Two scratch buffers are carried from
  point to point: the pooled sums (256×64) and the node counts (1×256).  The first point resets both to zero before
  it adds its block's contribution; every point adds its block's contribution; the last point alone stores into the
  result window (7), which is written back only there: the pooled sums divided by `max count 1`, through the linear
  map.

  `S2 n` and `C2 n` are what the two scratch buffers hold after the first `n` points.  The region's invariant
  before point `t` holds the two scratch buffers at `S2 t` and `C2 t` (at anything before the first point), beside
  the other scoped buffers at some contents and the generator register at some state.
-/
import proofs.«428750_j8675833938328_3_alg».proof.Proof.Gen.Kernel.Launch
import proofs.«428750_j8675833938328_3_alg».proof.Proof.Gen.Kernel.Skeleton
import proofs.«428750_j8675833938328_3_alg».proof.Proof.Gen.Kernel.Points
import proofs.«428750_j8675833938328_3_alg».proof.Proof.K.R2Defs
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The invariant's two ends -/

/-- The region's scoped rest split at its two scratch buffers, each whole at some contents, the remainder unopened. -/
theorem scopedRest2_split (c : Dev nD) :
    (Pipeline.scopedRest (Ix := Unit) (Name := ℕ) (U := UR sig nD τ) (Lvl := ℕ) (Val := Elt F) spec2 c : sProp 𝕄)
      = iprop(iprop((∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f))
          ∗ Pipeline.scopedRestBut (Ix := Unit) (Name := ℕ) (U := UR sig nD τ) (Lvl := ℕ) (Val := Elt F) spec2 c [cc2_scratch0, cc2_scratch1]) :=
  Pipeline.scopedRest_split_of_list spec2 c [cc2_scratch0, cc2_scratch1] (by decide) (by decide)

/-- The plain invariant yields the tracking one before the first point: there the scratch buffers hold anything. -/
theorem hin2 (c : Dev nD) : (Pipeline.ΦA (U := UR sig nD τ) (Val := Elt F) spec2 c : sProp 𝕄) ⊢ (dat2 V c).Φ 0 := by
  show (Pipeline.ΦA (U := UR sig nD τ) (Val := Elt F) spec2 c : sProp 𝕄) ⊢ Φ2 V c 0
  unfold Pipeline.ΦA Φ2
  rw [scopedRest2_split]
  iintro ⟨⟨⟨⟨%f0, H0⟩, ⟨%f1, H1⟩⟩, Hrest⟩, Hg⟩
  isplitl [Hrest]; · iexact Hrest
  isplitl [Hg]; · iexact Hg
  iexists f0; iexists f1
  isplitl [H0]; · iexact H0
  isplitl [H1]; · iexact H1
  ipureintro
  intro h; exact absurd rfl h

/-- After the last point the scratch buffers are forgotten again. -/
theorem hout2 (c : Dev nD) : (dat2 V c).Φ (Fin.last cfg2.N) ⊢ (Pipeline.ΦA (U := UR sig nD τ) (Val := Elt F) spec2 c : sProp 𝕄) := by
  show Φ2 V c (Fin.last cfg2.N) ⊢ (Pipeline.ΦA (U := UR sig nD τ) (Val := Elt F) spec2 c : sProp 𝕄)
  unfold Pipeline.ΦA Φ2
  rw [scopedRest2_split]
  iintro ⟨Hrest, Hg, ⟨%f0, %f1, H0, H1, -⟩⟩
  isplitl [Hrest H0 H1]
  · isplitl [H0 H1]
    · isplitl [H0]
      · iexists f0; iexact H0
      · iexists f1; iexact H1
    · iexact Hrest
  · iexact Hg

/-! ## The body's two conditionals -/

/-- The first conditional's condition, as the body computes it from the grid coordinate: the point is the first. -/
abbrev cond2_0 (i : grid2.Coords) : Prop :=
  (Scalar.cmpi .ne (Scalar.extui (Scalar.cmpi .eq (BitVec.ofNat 32 (i 0).val) 0#32)) 0#32) = 1#1
/-- The second conditional's condition: the point is the last. -/
abbrev cond2_1 (i : grid2.Coords) : Prop := k2_cond2 i = 1#1

/-- The offsets of every access of the body are zero. -/
theorem hz2 : (![0, 0] : Fin 2 → Nat) = fun _ => 0 := funext fun a => by fin_cases a <;> rfl

/-! ## The body's accesses: every load and every store takes a whole buffer -/

abbrev r2S : Rect S256x64 := Rect.unit (s := S256x64) ![0, 0] S256x64.size inb_S256x64_S256x64_0_0
abbrev r2C : Rect S1x256 := Rect.unit (s := S1x256) ![0, 0] S1x256.size inb_S1x256_S1x256_0_0

/-- One store over a whole 256×64 buffer covers it; -/
theorem cover2_S (p0 : Vec F S256x64 .f32) (y : S256x64.Idx) :
    ∃ pc ∈ ([⟨r2S, p0⟩] : List (View.Piece (Elt F) S256x64 .f32)), y ∈ pc.1.set :=
  ⟨⟨r2S, p0⟩, List.mem_singleton_self _, View.mem_set_unit_zero hz2 inb_S256x64_S256x64_0_0 y⟩
/-- so does the later of two. -/
theorem cover2_SS (p0 p1 : Vec F S256x64 .f32) (y : S256x64.Idx) :
    ∃ pc ∈ ([⟨r2S, p0⟩, ⟨r2S, p1⟩] : List (View.Piece (Elt F) S256x64 .f32)), y ∈ pc.1.set :=
  ⟨⟨r2S, p0⟩, List.mem_cons.mpr (Or.inl rfl), View.mem_set_unit_zero hz2 inb_S256x64_S256x64_0_0 y⟩
/-- The same of the 1×256 buffer. -/
theorem cover2_C (p0 : Vec F S1x256 .f32) (y : S1x256.Idx) :
    ∃ pc ∈ ([⟨r2C, p0⟩] : List (View.Piece (Elt F) S1x256 .f32)), y ∈ pc.1.set :=
  ⟨⟨r2C, p0⟩, List.mem_singleton_self _, View.mem_set_unit_zero hz2 inb_S1x256_S1x256_0_0 y⟩
theorem cover2_CC (p0 p1 : Vec F S1x256 .f32) (y : S1x256.Idx) :
    ∃ pc ∈ ([⟨r2C, p0⟩, ⟨r2C, p1⟩] : List (View.Piece (Elt F) S1x256 .f32)), y ∈ pc.1.set :=
  ⟨⟨r2C, p0⟩, List.mem_cons.mpr (Or.inl rfl), View.mem_set_unit_zero hz2 inb_S1x256_S1x256_0_0 y⟩

/-! ## The body's triple, case by case -/

set_option maxHeartbeats 4000000 in
/-- The body at a point that is neither the first nor the last, on whole memrefs: the input windows' at their
    contents, the result window's at `d7`, the two scratch buffers at `s0`, `s1`. It leaves the inputs' and the result
    window's as they were and each scratch at its one store's payload over what it held. -/
theorem sound_kernel2_M (c : Dev nD) (E : Set ℕ) (i : grid2.Coords) (arg1 : Memref sig .tc .vmem S5000x64 .f32) (harg1 : arg1.IsWhole) (arg2 : Memref sig .tc .vmem S5000x64 .bf16) (harg2 : arg2.IsWhole) (arg3 : Memref sig .tc .vmem S5000x1 .i32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S256x64 .f32) (harg8 : arg8.IsWhole) (arg9 : Memref sig .tc .vmem S256x64 .f32) (harg9 : arg9.IsWhole) (arg10 : Memref sig .tc .vmem S1x256 .f32) (harg10 : arg10.IsWhole)
    (hc0 : ¬cond2_0 i) (hc1 : ¬cond2_1 i)
    (x0 : Vec F S5000x64 .f32) (x1 : Vec F S5000x64 .bf16) (x2 : Vec F S5000x1 .i32) (x3 : Vec F S128x64 .f32) (x4 : Vec F S1x64 .f32) (x5 : Vec F S64x64 .f32) (x6 : Vec F S1x64 .f32) (d7 : Vec F S256x64 .f32) (s0 : Vec F S256x64 .f32) (s1 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare d7 ∗ owns (c : Thread nD τ) arg9 fullShare s0 ∗ owns (c : Thread nD τ) arg10 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare d7
            ∗ owns (c : Thread nD τ) arg9 fullShare (k2_pay7 x0 x1 x3 x4 x2 s0) ∗ owns (c : Thread nD τ) arg10 fullShare (k2_pay1 (k2_pay6 x2) s1)) -∗ K ⟨⟩))
      ⊢ wp frame (wpE (defs₀ (F := F)) Variants.none c none) E (cc2__fused_layer3_pool_kernel i arg1 harg1 arg2 harg2 arg3 harg3 arg4 harg4 arg5 harg5 arg6 harg6 arg7 harg7 arg8 harg8 arg9 harg9 arg10 harg10) K := by
  simp only [cc2__fused_layer3_pool_kernel_eq_skeleton]; unfold cc2__fused_layer3_pool_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6
  obtain rfl := harg8.eq_unread hf7; obtain rfl := harg9.eq_unread hfs0; obtain rfl := harg10.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [HS0]
  · iexists _; isplitr
    swap; · iexact HS0
    ipureintro
    sl_unfold_words
    rw [View.read_writes_eq_canon _ _ _ (cover2_S _)]
    rw [View.canon_unit_zero hz2]
    simp only [View.readAt_eq_ld, harg1.read_unread, harg2.read_unread, harg3.read_unread, harg4.read_unread, harg5.read_unread, harg6.read_unread, harg7.read_unread, harg8.read_unread, harg9.read_unread, harg10.read_unread, View.ld_unit_zero (S := S5000x64) hz2, View.ld_unit_zero (S := S5000x1) hz2, View.ld_unit_zero (S := S128x64) hz2, View.ld_unit_zero (S := S1x64) hz2, View.ld_unit_zero (S := S64x64) hz2, View.ld_unit_zero (S := S256x64) hz2, View.ld_unit_zero (S := S1x256) hz2, View.readCov_unit_zero (S := S256x64) _ hz2, View.readCov_unit_zero (S := S1x256) _ hz2]
  · iexists _; isplitr
    swap; · iexact HS1
    ipureintro
    sl_unfold_words
    rw [View.read_writes_eq_canon _ _ _ (cover2_C _)]
    rw [View.canon_unit_zero hz2]
    simp only [View.readAt_eq_ld, harg1.read_unread, harg2.read_unread, harg3.read_unread, harg4.read_unread, harg5.read_unread, harg6.read_unread, harg7.read_unread, harg8.read_unread, harg9.read_unread, harg10.read_unread, View.ld_unit_zero (S := S5000x64) hz2, View.ld_unit_zero (S := S5000x1) hz2, View.ld_unit_zero (S := S128x64) hz2, View.ld_unit_zero (S := S1x64) hz2, View.ld_unit_zero (S := S64x64) hz2, View.ld_unit_zero (S := S256x64) hz2, View.ld_unit_zero (S := S1x256) hz2, View.readCov_unit_zero (S := S256x64) _ hz2, View.readCov_unit_zero (S := S1x256) _ hz2]

set_option maxHeartbeats 4000000 in
/-- The body at the first point: both scratch buffers, at anything, are first stored with zeros, then updated from
    what was just stored. -/
theorem sound_kernel2_Z (c : Dev nD) (E : Set ℕ) (i : grid2.Coords) (arg1 : Memref sig .tc .vmem S5000x64 .f32) (harg1 : arg1.IsWhole) (arg2 : Memref sig .tc .vmem S5000x64 .bf16) (harg2 : arg2.IsWhole) (arg3 : Memref sig .tc .vmem S5000x1 .i32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S256x64 .f32) (harg8 : arg8.IsWhole) (arg9 : Memref sig .tc .vmem S256x64 .f32) (harg9 : arg9.IsWhole) (arg10 : Memref sig .tc .vmem S1x256 .f32) (harg10 : arg10.IsWhole)
    (hc0 : cond2_0 i) (hc1 : ¬cond2_1 i)
    (x0 : Vec F S5000x64 .f32) (x1 : Vec F S5000x64 .bf16) (x2 : Vec F S5000x1 .i32) (x3 : Vec F S128x64 .f32) (x4 : Vec F S1x64 .f32) (x5 : Vec F S64x64 .f32) (x6 : Vec F S1x64 .f32) (d7 : Vec F S256x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare d7 ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare d7
            ∗ owns (c : Thread nD τ) arg9 fullShare (k2_pay7 x0 x1 x3 x4 x2 k2_pay3) ∗ owns (c : Thread nD τ) arg10 fullShare (k2_pay1 (k2_pay6 x2) k2_pay4)) -∗ K ⟨⟩))
      ⊢ wp frame (wpE (defs₀ (F := F)) Variants.none c none) E (cc2__fused_layer3_pool_kernel i arg1 harg1 arg2 harg2 arg3 harg3 arg4 harg4 arg5 harg5 arg6 harg6 arg7 harg7 arg8 harg8 arg9 harg9 arg10 harg10) K := by
  simp only [cc2__fused_layer3_pool_kernel_eq_skeleton]; unfold cc2__fused_layer3_pool_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6
  obtain rfl := harg8.eq_unread hf7
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [HS0]
  · iexists _; isplitr
    swap; · iexact HS0
    ipureintro
    sl_unfold_words
    rw [View.read_writes_eq_canon _ _ _ (cover2_SS _ _)]
    rw [View.canon_cons_unit_zero (S := S256x64) hz2]
    simp only [View.readAt_eq_ld, harg1.read_unread, harg2.read_unread, harg3.read_unread, harg4.read_unread, harg5.read_unread, harg6.read_unread, harg7.read_unread, harg8.read_unread, harg9.read_unread, harg10.read_unread, View.ld_unit_zero (S := S5000x64) hz2, View.ld_unit_zero (S := S5000x1) hz2, View.ld_unit_zero (S := S128x64) hz2, View.ld_unit_zero (S := S1x64) hz2, View.ld_unit_zero (S := S64x64) hz2, View.ld_unit_zero (S := S256x64) hz2, View.ld_unit_zero (S := S1x256) hz2, View.readCov_unit_zero (S := S256x64) _ hz2, View.readCov_unit_zero (S := S1x256) _ hz2]
  · iexists _; isplitr
    swap; · iexact HS1
    ipureintro
    sl_unfold_words
    rw [View.read_writes_eq_canon _ _ _ (cover2_CC _ _)]
    rw [View.canon_cons_unit_zero (S := S1x256) hz2]
    simp only [View.readAt_eq_ld, harg1.read_unread, harg2.read_unread, harg3.read_unread, harg4.read_unread, harg5.read_unread, harg6.read_unread, harg7.read_unread, harg8.read_unread, harg9.read_unread, harg10.read_unread, View.ld_unit_zero (S := S5000x64) hz2, View.ld_unit_zero (S := S5000x1) hz2, View.ld_unit_zero (S := S128x64) hz2, View.ld_unit_zero (S := S1x64) hz2, View.ld_unit_zero (S := S64x64) hz2, View.ld_unit_zero (S := S256x64) hz2, View.ld_unit_zero (S := S1x256) hz2, View.readCov_unit_zero (S := S256x64) _ hz2, View.readCov_unit_zero (S := S1x256) _ hz2]

set_option maxHeartbeats 4000000 in
/-- The body at the last point: after the two updates, the result window's buffer, at anything, is stored with the
    head of the two scratch buffers as just updated and the two head blocks. -/
theorem sound_kernel2_L (c : Dev nD) (E : Set ℕ) (i : grid2.Coords) (arg1 : Memref sig .tc .vmem S5000x64 .f32) (harg1 : arg1.IsWhole) (arg2 : Memref sig .tc .vmem S5000x64 .bf16) (harg2 : arg2.IsWhole) (arg3 : Memref sig .tc .vmem S5000x1 .i32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S256x64 .f32) (harg8 : arg8.IsWhole) (arg9 : Memref sig .tc .vmem S256x64 .f32) (harg9 : arg9.IsWhole) (arg10 : Memref sig .tc .vmem S1x256 .f32) (harg10 : arg10.IsWhole)
    (hc0 : ¬cond2_0 i) (hc1 : cond2_1 i)
    (x0 : Vec F S5000x64 .f32) (x1 : Vec F S5000x64 .bf16) (x2 : Vec F S5000x1 .i32) (x3 : Vec F S128x64 .f32) (x4 : Vec F S1x64 .f32) (x5 : Vec F S64x64 .f32) (x6 : Vec F S1x64 .f32) (s0 : Vec F S256x64 .f32) (s1 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare s0 ∗ owns (c : Thread nD τ) arg10 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (k2_pay2 (k2_pay1 (k2_pay6 x2) s1) (k2_pay7 x0 x1 x3 x4 x2 s0) x5 x6)
            ∗ owns (c : Thread nD τ) arg9 fullShare (k2_pay7 x0 x1 x3 x4 x2 s0) ∗ owns (c : Thread nD τ) arg10 fullShare (k2_pay1 (k2_pay6 x2) s1)) -∗ K ⟨⟩))
      ⊢ wp frame (wpE (defs₀ (F := F)) Variants.none c none) E (cc2__fused_layer3_pool_kernel i arg1 harg1 arg2 harg2 arg3 harg3 arg4 harg4 arg5 harg5 arg6 harg6 arg7 harg7 arg8 harg8 arg9 harg9 arg10 harg10) K := by
  simp only [cc2__fused_layer3_pool_kernel_eq_skeleton]; unfold cc2__fused_layer3_pool_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6
  obtain rfl := harg9.eq_unread hfs0; obtain rfl := harg10.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr
    swap; · iexact H7
    ipureintro
    sl_unfold_words
    rw [View.read_writes_eq_canon _ _ _ (cover2_S _)]
    rw [View.canon_unit_zero hz2]
    simp only [View.readAt_eq_ld, harg1.read_unread, harg2.read_unread, harg3.read_unread, harg4.read_unread, harg5.read_unread, harg6.read_unread, harg7.read_unread, harg8.read_unread, harg9.read_unread, harg10.read_unread, View.ld_unit_zero (S := S5000x64) hz2, View.ld_unit_zero (S := S5000x1) hz2, View.ld_unit_zero (S := S128x64) hz2, View.ld_unit_zero (S := S1x64) hz2, View.ld_unit_zero (S := S64x64) hz2, View.ld_unit_zero (S := S256x64) hz2, View.ld_unit_zero (S := S1x256) hz2, View.readCov_unit_zero (S := S256x64) _ hz2, View.readCov_unit_zero (S := S1x256) _ hz2]
  isplitl [HS0]
  · iexists _; isplitr
    swap; · iexact HS0
    ipureintro
    sl_unfold_words
    rw [View.read_writes_eq_canon _ _ _ (cover2_S _)]
    rw [View.canon_unit_zero hz2]
    simp only [View.readAt_eq_ld, harg1.read_unread, harg2.read_unread, harg3.read_unread, harg4.read_unread, harg5.read_unread, harg6.read_unread, harg7.read_unread, harg8.read_unread, harg9.read_unread, harg10.read_unread, View.ld_unit_zero (S := S5000x64) hz2, View.ld_unit_zero (S := S5000x1) hz2, View.ld_unit_zero (S := S128x64) hz2, View.ld_unit_zero (S := S1x64) hz2, View.ld_unit_zero (S := S64x64) hz2, View.ld_unit_zero (S := S256x64) hz2, View.ld_unit_zero (S := S1x256) hz2, View.readCov_unit_zero (S := S256x64) _ hz2, View.readCov_unit_zero (S := S1x256) _ hz2]
  · iexists _; isplitr
    swap; · iexact HS1
    ipureintro
    sl_unfold_words
    rw [View.read_writes_eq_canon _ _ _ (cover2_C _)]
    rw [View.canon_unit_zero hz2]
    simp only [View.readAt_eq_ld, harg1.read_unread, harg2.read_unread, harg3.read_unread, harg4.read_unread, harg5.read_unread, harg6.read_unread, harg7.read_unread, harg8.read_unread, harg9.read_unread, harg10.read_unread, View.ld_unit_zero (S := S5000x64) hz2, View.ld_unit_zero (S := S5000x1) hz2, View.ld_unit_zero (S := S128x64) hz2, View.ld_unit_zero (S := S1x64) hz2, View.ld_unit_zero (S := S64x64) hz2, View.ld_unit_zero (S := S256x64) hz2, View.ld_unit_zero (S := S1x256) hz2, View.readCov_unit_zero (S := S256x64) _ hz2, View.readCov_unit_zero (S := S1x256) _ hz2]

/-! ## The conditions in closed form, and where the result window is idle -/

/-- The first conditional is taken at the first point only, -/
theorem hcond2_0 : ∀ t : Fin cfg2.N, cond2_0 (grid2.coords t) ↔ t.val = 0 :=
  (by decide +kernel : ∀ t : Fin grid2.N, cond2_0 (grid2.coords t) ↔ t.val = 0)
/-- the second at the last only. -/
theorem hcond2_1 : ∀ t : Fin cfg2.N, cond2_1 (grid2.coords t) ↔ t.val = 19 :=
  (by decide +kernel : ∀ t : Fin grid2.N, cond2_1 (grid2.coords t) ↔ t.val = 19)

/-- No input window is ever idle. -/
theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl
theorem liveAt2_4 : ∀ t : Fin cfg2.N, cfg2.idle 4 (grid2.coords t) = false := fun _ => rfl
theorem liveAt2_5 : ∀ t : Fin cfg2.N, cfg2.idle 5 (grid2.coords t) = false := fun _ => rfl
theorem liveAt2_6 : ∀ t : Fin cfg2.N, cfg2.idle 6 (grid2.coords t) = false := fun _ => rfl
/-- The result window is idle wherever the second conditional is not taken, and is not written back there; -/
theorem idleAt2_7 : ∀ t : Fin cfg2.N, ¬cond2_1 (grid2.coords t) → cfg2.idle 7 (grid2.coords t) = true := by decide +kernel
theorem noFlush2_7 : ∀ t : Fin cfg2.N, ¬cond2_1 (grid2.coords t) → (cfg2.win 7).flush t = false := by decide +kernel
/-- where it is taken the window is live. -/
theorem liveAt2_7 : ∀ t : Fin cfg2.N, cond2_1 (grid2.coords t) → cfg2.idle 7 (grid2.coords t) = false := by decide +kernel

/-! ## The scratch buffers one point on -/

theorem S2_zero (c : Dev nD) : S2 V c 0 = k2_pay3 := by rw [S2]
theorem C2_zero (c : Dev nD) : C2 V c 0 = k2_pay4 := by rw [C2]

/-- The pooled sums after point `t`: the body's update of what they were before it, over the point's blocks. -/
theorem S2_succ (c : Dev nD) (t : Fin cfg2.N) :
    S2 V c (t.val + 1) = k2_pay7 (iblk2 V c 0 t) (iblk2 V c 1 t) (iblk2 V c 3 t) (iblk2 V c 4 t) (iblk2 V c 2 t) (S2 V c t.val) := by
  rw [S2, dif_pos t.isLt]

/-- The counts after point `t` likewise. -/
theorem C2_succ (c : Dev nD) (t : Fin cfg2.N) :
    C2 V c (t.val + 1) = k2_pay1 (k2_pay6 (iblk2 V c 2 t)) (C2 V c t.val) := by
  rw [C2, dif_pos t.isLt]

/-- After the first point: the update of the zeros. -/
theorem S2_first (c : Dev nD) (t : Fin cfg2.N) (h0 : t.val = 0) :
    k2_pay7 (iblk2 V c 0 t) (iblk2 V c 1 t) (iblk2 V c 3 t) (iblk2 V c 4 t) (iblk2 V c 2 t) k2_pay3 = S2 V c (t.val + 1) := by
  rw [S2_succ, h0, S2_zero]
theorem C2_first (c : Dev nD) (t : Fin cfg2.N) (h0 : t.val = 0) :
    k2_pay1 (k2_pay6 (iblk2 V c 2 t)) k2_pay4 = C2 V c (t.val + 1) := by
  rw [C2_succ, h0, C2_zero]

/-! ## What the body finds in each input window's buffer: its block, fetched there or not -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_0 (c : Dev nD) (t : Fin cfg2.N) (d) : (dat2 V c).before 0 t d = iblk2 V c 0 t :=
  before2_0_of V (dat2 V c) (A_eq2 V c 0) (after2_0 V c) t d
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_1 (c : Dev nD) (t : Fin cfg2.N) (d) : (dat2 V c).before 1 t d = iblk2 V c 1 t :=
  before2_1_of V (dat2 V c) (A_eq2 V c 1) (after2_1 V c) t d
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_2 (c : Dev nD) (t : Fin cfg2.N) (d) : (dat2 V c).before 2 t d = iblk2 V c 2 t :=
  before2_2_of V (dat2 V c) (A_eq2 V c 2) (after2_2 V c) t d
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_3 (c : Dev nD) (t : Fin cfg2.N) (d) : (dat2 V c).before 3 t d = iblk2 V c 3 t :=
  before2_3_of V (dat2 V c) (A_eq2 V c 3) (after2_3 V c) t d
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_4 (c : Dev nD) (t : Fin cfg2.N) (d) : (dat2 V c).before 4 t d = iblk2 V c 4 t :=
  before2_4_of V (dat2 V c) (A_eq2 V c 4) (after2_4 V c) t d
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_5 (c : Dev nD) (t : Fin cfg2.N) (d) : (dat2 V c).before 5 t d = iblk2 V c 5 t :=
  before2_5_of V (dat2 V c) (A_eq2 V c 5) (after2_5 V c) t d
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_6 (c : Dev nD) (t : Fin cfg2.N) (d) : (dat2 V c).before 6 t d = iblk2 V c 6 t :=
  before2_6_of V (dat2 V c) (A_eq2 V c 6) (after2_6 V c) t d

/-- What the body leaves in each input window's buffer: the block, in place. -/
theorem leaves2_0 (c : Dev nD) (t : Fin cfg2.N) :
    (dat2 V c).leavesExact 0 t = owns (c : Thread nD τ) (st2_0 t) fullShare (iblk2 V c 0 t) := by
  unfold Dat.leavesExact; rw [liveAt2_0 t, after2_0]
theorem leaves2_1 (c : Dev nD) (t : Fin cfg2.N) :
    (dat2 V c).leavesExact 1 t = owns (c : Thread nD τ) (st2_1 t) fullShare (iblk2 V c 1 t) := by
  unfold Dat.leavesExact; rw [liveAt2_1 t, after2_1]
theorem leaves2_2 (c : Dev nD) (t : Fin cfg2.N) :
    (dat2 V c).leavesExact 2 t = owns (c : Thread nD τ) (st2_2 t) fullShare (iblk2 V c 2 t) := by
  unfold Dat.leavesExact; rw [liveAt2_2 t, after2_2]
theorem leaves2_3 (c : Dev nD) (t : Fin cfg2.N) :
    (dat2 V c).leavesExact 3 t = owns (c : Thread nD τ) (st2_3 t) fullShare (iblk2 V c 3 t) := by
  unfold Dat.leavesExact; rw [liveAt2_3 t, after2_3]
theorem leaves2_4 (c : Dev nD) (t : Fin cfg2.N) :
    (dat2 V c).leavesExact 4 t = owns (c : Thread nD τ) (st2_4 t) fullShare (iblk2 V c 4 t) := by
  unfold Dat.leavesExact; rw [liveAt2_4 t, after2_4]
theorem leaves2_5 (c : Dev nD) (t : Fin cfg2.N) :
    (dat2 V c).leavesExact 5 t = owns (c : Thread nD τ) (st2_5 t) fullShare (iblk2 V c 5 t) := by
  unfold Dat.leavesExact; rw [liveAt2_5 t, after2_5]
theorem leaves2_6 (c : Dev nD) (t : Fin cfg2.N) :
    (dat2 V c).leavesExact 6 t = owns (c : Thread nD τ) (st2_6 t) fullShare (iblk2 V c 6 t) := by
  unfold Dat.leavesExact; rw [liveAt2_6 t, after2_6]

/-! ## The body's triple on the memrefs the pipeline passes -/

/-- The body as the pipeline calls it at a point that is neither the first nor the last. -/
theorem run2_M (c : Dev nD) (t : Fin cfg2.N) (hc0 : ¬cond2_0 (grid2.coords t)) (hc1 : ¬cond2_1 (grid2.coords t))
    (x0 : Vec F S5000x64 .f32) (x1 : Vec F S5000x64 .bf16) (x2 : Vec F S5000x1 .i32) (x3 : Vec F S128x64 .f32) (x4 : Vec F S1x64 .f32) (x5 : Vec F S64x64 .f32) (x6 : Vec F S1x64 .f32) (d7 : Vec F S256x64 .f32) (s0 : Vec F S256x64 .f32) (s1 : Vec F S1x256 .f32) (K : PUnit → sProp 𝕄) :
    iprop(owns (c : Thread nD τ) (st2_0 t) fullShare x0 ∗ owns (c : Thread nD τ) (st2_1 t) fullShare x1 ∗ owns (c : Thread nD τ) (st2_2 t) fullShare x2 ∗ owns (c : Thread nD τ) (st2_3 t) fullShare x3 ∗ owns (c : Thread nD τ) (st2_4 t) fullShare x4 ∗ owns (c : Thread nD τ) (st2_5 t) fullShare x5 ∗ owns (c : Thread nD τ) (st2_6 t) fullShare x6 ∗ owns (c : Thread nD τ) (st2_7 t) fullShare d7 ∗ (((c : Thread nD τ).loc cc2_scratch0) ↦{fullShare} s0) ∗ (((c : Thread nD τ).loc cc2_scratch1) ↦{fullShare} s1)
        ∗ (iprop(owns (c : Thread nD τ) (st2_0 t) fullShare x0 ∗ owns (c : Thread nD τ) (st2_1 t) fullShare x1 ∗ owns (c : Thread nD τ) (st2_2 t) fullShare x2 ∗ owns (c : Thread nD τ) (st2_3 t) fullShare x3 ∗ owns (c : Thread nD τ) (st2_4 t) fullShare x4 ∗ owns (c : Thread nD τ) (st2_5 t) fullShare x5 ∗ owns (c : Thread nD τ) (st2_6 t) fullShare x6 ∗ owns (c : Thread nD τ) (st2_7 t) fullShare d7
            ∗ (((c : Thread nD τ).loc cc2_scratch0) ↦{fullShare} (k2_pay7 x0 x1 x3 x4 x2 s0 : Vec F S256x64 .f32)) ∗ (((c : Thread nD τ).loc cc2_scratch1) ↦{fullShare} (k2_pay1 (k2_pay6 x2) s1 : Vec F S1x256 .f32))) -∗ K ⟨⟩))
      ⊢ wp frame (wpE (defs₀ (F := F)) Variants.none c none) Set.univ (bodyAt2 (F := F) t) K := by
  have h := sound_kernel2_M (F := F) c Set.univ (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (Memref.whole cc2_scratch0) (Memref.isWhole_whole _) (Memref.whole cc2_scratch1) (Memref.isWhole_whole _) hc0 hc1 x0 x1 x2 x3 x4 x5 x6 d7 s0 s1 K
  simp only [owns_whole] at h
  exact h

/-- The body as the pipeline calls it at the first point. -/
theorem run2_Z (c : Dev nD) (t : Fin cfg2.N) (hc0 : cond2_0 (grid2.coords t)) (hc1 : ¬cond2_1 (grid2.coords t))
    (x0 : Vec F S5000x64 .f32) (x1 : Vec F S5000x64 .bf16) (x2 : Vec F S5000x1 .i32) (x3 : Vec F S128x64 .f32) (x4 : Vec F S1x64 .f32) (x5 : Vec F S64x64 .f32) (x6 : Vec F S1x64 .f32) (d7 : Vec F S256x64 .f32) (K : PUnit → sProp 𝕄) :
    iprop(owns (c : Thread nD τ) (st2_0 t) fullShare x0 ∗ owns (c : Thread nD τ) (st2_1 t) fullShare x1 ∗ owns (c : Thread nD τ) (st2_2 t) fullShare x2 ∗ owns (c : Thread nD τ) (st2_3 t) fullShare x3 ∗ owns (c : Thread nD τ) (st2_4 t) fullShare x4 ∗ owns (c : Thread nD τ) (st2_5 t) fullShare x5 ∗ owns (c : Thread nD τ) (st2_6 t) fullShare x6 ∗ owns (c : Thread nD τ) (st2_7 t) fullShare d7 ∗ (∃ d : Vec F S256x64 .f32, (((c : Thread nD τ).loc cc2_scratch0) ↦{fullShare} d)) ∗ (∃ d : Vec F S1x256 .f32, (((c : Thread nD τ).loc cc2_scratch1) ↦{fullShare} d))
        ∗ (iprop(owns (c : Thread nD τ) (st2_0 t) fullShare x0 ∗ owns (c : Thread nD τ) (st2_1 t) fullShare x1 ∗ owns (c : Thread nD τ) (st2_2 t) fullShare x2 ∗ owns (c : Thread nD τ) (st2_3 t) fullShare x3 ∗ owns (c : Thread nD τ) (st2_4 t) fullShare x4 ∗ owns (c : Thread nD τ) (st2_5 t) fullShare x5 ∗ owns (c : Thread nD τ) (st2_6 t) fullShare x6 ∗ owns (c : Thread nD τ) (st2_7 t) fullShare d7
            ∗ (((c : Thread nD τ).loc cc2_scratch0) ↦{fullShare} (k2_pay7 x0 x1 x3 x4 x2 k2_pay3 : Vec F S256x64 .f32)) ∗ (((c : Thread nD τ).loc cc2_scratch1) ↦{fullShare} (k2_pay1 (k2_pay6 x2) k2_pay4 : Vec F S1x256 .f32))) -∗ K ⟨⟩))
      ⊢ wp frame (wpE (defs₀ (F := F)) Variants.none c none) Set.univ (bodyAt2 (F := F) t) K := by
  have h := sound_kernel2_Z (F := F) c Set.univ (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (Memref.whole cc2_scratch0) (Memref.isWhole_whole _) (Memref.whole cc2_scratch1) (Memref.isWhole_whole _) hc0 hc1 x0 x1 x2 x3 x4 x5 x6 d7 K
  simp only [owns_whole] at h
  exact h

/-- The body as the pipeline calls it at the last point. -/
theorem run2_L (c : Dev nD) (t : Fin cfg2.N) (hc0 : ¬cond2_0 (grid2.coords t)) (hc1 : cond2_1 (grid2.coords t))
    (x0 : Vec F S5000x64 .f32) (x1 : Vec F S5000x64 .bf16) (x2 : Vec F S5000x1 .i32) (x3 : Vec F S128x64 .f32) (x4 : Vec F S1x64 .f32) (x5 : Vec F S64x64 .f32) (x6 : Vec F S1x64 .f32) (s0 : Vec F S256x64 .f32) (s1 : Vec F S1x256 .f32) (K : PUnit → sProp 𝕄) :
    iprop(owns (c : Thread nD τ) (st2_0 t) fullShare x0 ∗ owns (c : Thread nD τ) (st2_1 t) fullShare x1 ∗ owns (c : Thread nD τ) (st2_2 t) fullShare x2 ∗ owns (c : Thread nD τ) (st2_3 t) fullShare x3 ∗ owns (c : Thread nD τ) (st2_4 t) fullShare x4 ∗ owns (c : Thread nD τ) (st2_5 t) fullShare x5 ∗ owns (c : Thread nD τ) (st2_6 t) fullShare x6 ∗ (∃ d, owns (c : Thread nD τ) (st2_7 t) fullShare d) ∗ (((c : Thread nD τ).loc cc2_scratch0) ↦{fullShare} s0) ∗ (((c : Thread nD τ).loc cc2_scratch1) ↦{fullShare} s1)
        ∗ (iprop(owns (c : Thread nD τ) (st2_0 t) fullShare x0 ∗ owns (c : Thread nD τ) (st2_1 t) fullShare x1 ∗ owns (c : Thread nD τ) (st2_2 t) fullShare x2 ∗ owns (c : Thread nD τ) (st2_3 t) fullShare x3 ∗ owns (c : Thread nD τ) (st2_4 t) fullShare x4 ∗ owns (c : Thread nD τ) (st2_5 t) fullShare x5 ∗ owns (c : Thread nD τ) (st2_6 t) fullShare x6 ∗ owns (c : Thread nD τ) (st2_7 t) fullShare (k2_pay2 (k2_pay1 (k2_pay6 x2) s1) (k2_pay7 x0 x1 x3 x4 x2 s0) x5 x6)
            ∗ (((c : Thread nD τ).loc cc2_scratch0) ↦{fullShare} (k2_pay7 x0 x1 x3 x4 x2 s0 : Vec F S256x64 .f32)) ∗ (((c : Thread nD τ).loc cc2_scratch1) ↦{fullShare} (k2_pay1 (k2_pay6 x2) s1 : Vec F S1x256 .f32))) -∗ K ⟨⟩))
      ⊢ wp frame (wpE (defs₀ (F := F)) Variants.none c none) Set.univ (bodyAt2 (F := F) t) K := by
  have h := sound_kernel2_L (F := F) c Set.univ (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (Memref.whole cc2_scratch0) (Memref.isWhole_whole _) (Memref.whole cc2_scratch1) (Memref.isWhole_whole _) hc0 hc1 x0 x1 x2 x3 x4 x5 x6 s0 s1 K
  simp only [owns_whole] at h
  exact h

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t)

set_option maxHeartbeats 4000000 in
/-- The body at any point. The inputs' buffers hold their blocks. At the first point the scratch buffers, at anything,
    are reset and updated: they end at `S2 1`, `C2 1`; the result window is idle and is handed back as found. At a
    point between, the invariant gives the scratch buffers at `S2 t`, `C2 t` and the update leaves `S2 (t + 1)`,
    `C2 (t + 1)`; the result window is idle. At the last point the same, and the result window, live there, is stored
    with the head of the updated scratch buffers. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2
  simp only [before2_0, before2_1, before2_2, before2_3, before2_4, before2_5, before2_6]
  rw [show (dat2 V c).owesAt () t.succ = (dat2 V c).owesAt () t.castSucc from rfl,
    show (dat2 V c).Φ t.castSucc = Φ2 V c t.castSucc from rfl, show (dat2 V c).Φ t.succ = Φ2 V c t.succ from rfl,
    leaves2_0, leaves2_1, leaves2_2, leaves2_3, leaves2_4, leaves2_5, leaves2_6]
  unfold Φ2
  simp only [Fin.coe_castSucc, Fin.val_succ]
  have hN : t.val < 20 := lt_of_lt_of_eq t.isLt (show cfg2.N = 20 from N_2)
  by_cases h0 : t.val = 0
  · have hc0 : cond2_0 (grid2.coords t) := (hcond2_0 t).mpr h0
    have hc1 : ¬cond2_1 (grid2.coords t) := fun h => by have := (hcond2_1 t).mp h; omega
    rw [Dat.leavesExact_idle (dat2 V c) 7 t (idleAt2_7 t hc1) (noFlush2_7 t hc1)]
    iintro ⟨⟨Hrest, Hg, ⟨%f0, %f1, HS0, HS1, %hS⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run2_Z c t hc0 hc1 (iblk2 V c 0 t) (iblk2 V c 1 t) (iblk2 V c 2 t) (iblk2 V c 3 t) (iblk2 V c 4 t) (iblk2 V c 5 t) (iblk2 V c 6 t) ((dat2 V c).before 7 t d7) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexists f0; iexact HS0
    isplitl [HS1]; · iexists f1; iexact HS1
    iintro ⟨H0, H1, H2, H3, H4, H5, H6, H7, HS0, HS1⟩
    isplitl [Hrest Hg HS0 HS1]
    · isplitl [Hrest]; · iexact Hrest
      isplitl [Hg]; · iexact Hg
      iexists _; iexists _
      isplitl [HS0]; · iexact HS0
      isplitl [HS1]; · iexact HS1
      ipureintro; intro _; exact ⟨S2_first V c t h0, C2_first V c t h0⟩
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists d7; iexact H7
  · by_cases h1 : t.val = 19
    · have hc0 : ¬cond2_0 (grid2.coords t) := fun h => h0 ((hcond2_0 t).mp h)
      have hc1 : cond2_1 (grid2.coords t) := (hcond2_1 t).mpr h1
      rw [show (dat2 V c).leavesExact 7 t = owns (c : Thread nD τ) (st2_7 t) fullShare ((dat2 V c).after 7 t) from by
        unfold Dat.leavesExact; rw [liveAt2_7 t hc1], after2_7]
      unfold out2_7
      rw [S2_succ, C2_succ]
      iintro ⟨⟨Hrest, Hg, ⟨%f0, %f1, HS0, HS1, %hS⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
      obtain ⟨rfl, rfl⟩ := hS h0
      iapply (run2_L c t hc0 hc1 (iblk2 V c 0 t) (iblk2 V c 1 t) (iblk2 V c 2 t) (iblk2 V c 3 t) (iblk2 V c 4 t) (iblk2 V c 5 t) (iblk2 V c 6 t) (S2 V c t.val) (C2 V c t.val) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      iintro ⟨H0, H1, H2, H3, H4, H5, H6, H7, HS0, HS1⟩
      isplitl [Hrest Hg HS0 HS1]
      · isplitl [Hrest]; · iexact Hrest
        isplitl [Hg]; · iexact Hg
        iexists _; iexists _
        isplitl [HS0]; · iexact HS0
        isplitl [HS1]; · iexact HS1
        ipureintro; intro _; exact ⟨rfl, rfl⟩
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hc0 : ¬cond2_0 (grid2.coords t) := fun h => h0 ((hcond2_0 t).mp h)
      have hc1 : ¬cond2_1 (grid2.coords t) := fun h => h1 ((hcond2_1 t).mp h)
      rw [Dat.leavesExact_idle (dat2 V c) 7 t (idleAt2_7 t hc1) (noFlush2_7 t hc1)]
      rw [S2_succ, C2_succ]
      iintro ⟨⟨Hrest, Hg, ⟨%f0, %f1, HS0, HS1, %hS⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
      obtain ⟨rfl, rfl⟩ := hS h0
      iapply (run2_M c t hc0 hc1 (iblk2 V c 0 t) (iblk2 V c 1 t) (iblk2 V c 2 t) (iblk2 V c 3 t) (iblk2 V c 4 t) (iblk2 V c 5 t) (iblk2 V c 6 t) ((dat2 V c).before 7 t d7) (S2 V c t.val) (C2 V c t.val) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [Hrest Hg HS0 HS1]
      · isplitl [Hrest]; · iexact Hrest
        isplitl [Hg]; · iexact Hg
        iexists _; iexists _
        isplitl [HS0]; · iexact HS0
        isplitl [HS1]; · iexact HS1
        ipureintro; intro _; exact ⟨rfl, rfl⟩
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists d7; iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Run.lean ====
/-
  The run of @main: its six items — three stretches of host operations and the three kernel regions between
  them — as segments over one thread state, "every unscoped buffer of the core at the boundary's contents, the
  generator register at some state, nothing owed", and the launch over them.  The contents at each boundary are
  the fold of the previous file; here each region is entered from its boundary's contents (its arrays split out
  of the unscoped buffers, put back at the exit contents), each host stretch advances the contents by its own
  operations, and at the end every unscoped buffer of the final memory is read at the last boundary's contents.
  No item writes an argument array, so the fold walks each argument back to the launch memory.
-/
import proofs.«428750_j8675833938328_3_alg».proof.Proof.K.Fold
import proofs.«428750_j8675833938328_3_alg».proof.Proof.K.R0
import proofs.«428750_j8675833938328_3_alg».proof.Proof.K.R1
import proofs.«428750_j8675833938328_3_alg».proof.Proof.K.R2
import proofs.«428750_j8675833938328_3_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it leaves
    those references at the stretch's operations applied to `W c`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W6 m ρ c) ∗ ∃ r, prngReg c r)

/-! ## The regions as segments -/

-- applying a library lemma stated over the pinned configuration unifies with the printed one only when unification
-- may unfold plain definitions in a metavariable's type
set_option backward.isDefEq.respectTransparency.types false in
/-- REGION 0 over the thread state: entered from every unscoped buffer at `W1`, left at `W2`. Its arrays are
    split out of the unscoped buffers and put back at the exit contents; the generator register goes into the plain
    invariant and comes out of it; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification
-- may unfold plain definitions in a metavariable's type
set_option backward.isDefEq.respectTransparency.types false in
/-- REGION 1 over the thread state: entered from every unscoped buffer at `W3`, left at `W4`. Its arrays are
    split out of the unscoped buffers and put back at the exit contents; the generator register goes into the plain
    invariant and comes out of it; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification
-- may unfold plain definitions in a metavariable's type
set_option backward.isDefEq.respectTransparency.types false in
/-- REGION 2 over the thread state: entered from every unscoped buffer at `W5`, left at `W6`. Its arrays are
    split out of the unscoped buffers and put back at the exit contents; the generator register and the scoped
    buffers no window stages make the plain invariant, from which the tracking one starts and to which it returns;
    nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (V5 m ρ) c).Φ 0 from rfl]
    have hA : iprop((∃ r, prngReg c r) ∗ Pipeline.prefHeld (pcfgs (F := F) 2).pre c (fun _ => fullShare) (adm (F := F) 2).1
          ∗ Pipeline.scopedRest (Pipeline.pin (pcfgs (F := F)) adm 2).spec c)
        ⊢ (Pipeline.ΦA (U := UR sig nD τ) (Val := Elt F) spec2 c : sProp 𝕄) := by
      unfold Pipeline.ΦA
      iintro ⟨Hp, -, Hr⟩
      isplitl [Hr]; · iexact Hr
      iexact Hp
    exact hA.trans (hin2 (V5 m ρ) c)
  hout c := by
    rw [Pipeline.ownSems0_none, show (pdats m ρ 2 c).Φ (Fin.last _) = (dat2 (V5 m ρ) c).Φ (Fin.last cfg2.N) from rfl]
    refine (hout2 (V5 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's six segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
/-- @main IS the run of the segments: it is the chain of its six items, and so is the segments' run. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN: at the compiled mesh, from any memory with zero counters, every weakly fair execution of @main on the
    TensorCores terminates, nothing faulting, and every final memory holds each unscoped buffer of each core at the
    last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun _ h => h)

/-! ## The arguments end as launched

No host operation writes an argument and no region has one as an output window's array, so the fold at an argument's
buffer walks back, boundary by boundary, to the launch memory. -/

/-- `main_arg0` ends as launched: region 0 reads it through an input window, which ends as it was entered; nothing else touches it. -/
theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 1).trans (((dat0 (V1 m ρ) c).arrAt_in 1 rfl _).trans (A_eq0 (V1 m ρ) c 1))
    _ = W0 m ρ c (Proc.devRef .tc main_arg0) := StableHlo.after_of_writes_sub hostOps0 _ hostOps0_writes (by decide)
    _ = m ((c : Thread nD τ).loc main_arg0) := rfl

/-- `main_arg1` ends as launched: no host operation writes it and it is no array of any region. -/
theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

/-- `main_arg2` ends as launched: no host operation writes it and it is no array of any region. -/
theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

/-- `main_arg3` ends as launched: no host operation writes it and it is no array of any region. -/
theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

/-- `main_arg4` ends as launched: no host operation writes it and it is no array of any region. -/
theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

/-- `main_arg5` ends as launched: no host operation writes it and it is no array of any region. -/
theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

/-- `main_arg6` ends as launched: no host operation writes it and it is no array of any region. -/
theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

/-- `main_arg7` ends as launched: no host operation writes it and it is no array of any region. -/
theorem W6_main_arg7 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

/-- `main_arg8` ends as launched: no host operation writes it and it is no array of any region. -/
theorem W6_main_arg8 (c : Dev nD) : W6 m ρ c (Proc.devRef .tc main_arg8) = m ((c : Thread nD τ).loc main_arg8) :=
  calc W6 m ρ c (Proc.devRef .tc main_arg8)
    _ = W5 m ρ c (Proc.devRef .tc main_arg8) := W6_of_ne m ρ c main_arg8 (by decide)
    _ = W4 m ρ c (Proc.devRef .tc main_arg8) := StableHlo.after_of_writes_sub hostOps2 _ hostOps2_writes (by decide)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

/-- `main_arg9` ends as launched: no host operation writes it and it is no array of any region. -/
theorem W6_main_arg9 (c : Dev nD) : W6 m ρ c (Proc.devRef .tc main_arg9) = m ((c : Thread nD τ).loc main_arg9) :=
  calc W6 m ρ c (Proc.devRef .tc main_arg9)
    _ = W5 m ρ c (Proc.devRef .tc main_arg9) := W6_of_ne m ρ c main_arg9 (by decide)
    _ = W4 m ρ c (Proc.devRef .tc main_arg9) := StableHlo.after_of_writes_sub hostOps2 _ hostOps2_writes (by decide)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl

/-- `main_arg10` ends as launched: no host operation writes it and it is no array of any region. -/
theorem W6_main_arg10 (c : Dev nD) : W6 m ρ c (Proc.devRef .tc main_arg10) = m ((c : Thread nD τ).loc main_arg10) :=
  calc W6 m ρ c (Proc.devRef .tc main_arg10)
    _ = W5 m ρ c (Proc.devRef .tc main_arg10) := W6_of_ne m ρ c main_arg10 (by decide)
    _ = W4 m ρ c (Proc.devRef .tc main_arg10) := StableHlo.after_of_writes_sub hostOps2 _ hostOps2_writes (by decide)
    _ = W3 m ρ c (Proc.devRef .tc main_arg10) := W4_of_ne m ρ c main_arg10 (by decide)
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl

/-- `main_arg11` ends as launched: no host operation writes it and it is no array of any region. -/
theorem W6_main_arg11 (c : Dev nD) : W6 m ρ c (Proc.devRef .tc main_arg11) = m ((c : Thread nD τ).loc main_arg11) :=
  calc W6 m ρ c (Proc.devRef .tc main_arg11)
    _ = W5 m ρ c (Proc.devRef .tc main_arg11) := W6_of_ne m ρ c main_arg11 (by decide)
    _ = W4 m ρ c (Proc.devRef .tc main_arg11) := StableHlo.after_of_writes_sub hostOps2 _ hostOps2_writes (by decide)
    _ = W3 m ρ c (Proc.devRef .tc main_arg11) := W4_of_ne m ρ c main_arg11 (by decide)
    _ = W2 m ρ c (Proc.devRef .tc main_arg11) := StableHlo.after_of_writes_sub hostOps1 _ hostOps1_writes (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)
    _ = m ((c : Thread nD τ).loc main_arg11) := rfl

/-- `main_arg12` ends as launched: region 2 reads it through an input window, which ends as it was entered; nothing else touches it. -/
theorem W6_main_arg12 (c : Dev nD) : W6 m ρ c (Proc.devRef .tc main_arg12) = m ((c : Thread nD τ).loc main_arg12) :=
  calc W6 m ρ c (Proc.devRef .tc main_arg12)
    _ = W5 m ρ c (Proc.devRef .tc main_arg12) := (W6_arr m ρ c 5).trans (((dat2 (V5 m ρ) c).arrAt_in 5 rfl _).trans (A_eq2 (V5 m ρ) c 5))
    _ = W4 m ρ c (Proc.devRef .tc main_arg12) := StableHlo.after_of_writes_sub hostOps2 _ hostOps2_writes (by decide)
    _ = W3 m ρ c (Proc.devRef .tc main_arg12) := W4_of_ne m ρ c main_arg12 (by decide)
    _ = W2 m ρ c (Proc.devRef .tc main_arg12) := StableHlo.after_of_writes_sub hostOps1 _ hostOps1_writes (by decide)
    _ = W1 m ρ c (Proc.devRef .tc main_arg12) := W2_of_ne m ρ c main_arg12 (by decide)
    _ = W0 m ρ c (Proc.devRef .tc main_arg12) := StableHlo.after_of_writes_sub hostOps0 _ hostOps0_writes (by decide)
    _ = m ((c : Thread nD τ).loc main_arg12) := rfl

/-- `main_arg13` ends as launched: no host operation writes it and it is no array of any region. -/
theorem W6_main_arg13 (c : Dev nD) : W6 m ρ c (Proc.devRef .tc main_arg13) = m ((c : Thread nD τ).loc main_arg13) :=
  calc W6 m ρ c (Proc.devRef .tc main_arg13)
    _ = W5 m ρ c (Proc.devRef .tc main_arg13) := W6_of_ne m ρ c main_arg13 (by decide)
    _ = W4 m ρ c (Proc.devRef .tc main_arg13) := StableHlo.after_of_writes_sub hostOps2 _ hostOps2_writes (by decide)
    _ = W3 m ρ c (Proc.devRef .tc main_arg13) := W4_of_ne m ρ c main_arg13 (by decide)
    _ = W2 m ρ c (Proc.devRef .tc main_arg13) := StableHlo.after_of_writes_sub hostOps1 _ hostOps1_writes (by decide)
    _ = W1 m ρ c (Proc.devRef .tc main_arg13) := W2_of_ne m ρ c main_arg13 (by decide)
    _ = W0 m ρ c (Proc.devRef .tc main_arg13) := StableHlo.after_of_writes_sub hostOps0 _ hostOps0_writes (by decide)
    _ = m ((c : Thread nD τ).loc main_arg13) := rfl

/-! ## The frame -/

/-- THE FRAME: the run terminates, nothing faulting, and every final memory holds each argument array as launched:
    the run's reading of the final memory at each argument, walked back through the fold. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
   ⟨(h c _ (mem_uc main_arg0 (by decide))).trans (W6_main_arg0 m ρ c),
    (h c _ (mem_uc main_arg1 (by decide))).trans (W6_main_arg1 m ρ c),
    (h c _ (mem_uc main_arg2 (by decide))).trans (W6_main_arg2 m ρ c),
    (h c _ (mem_uc main_arg3 (by decide))).trans (W6_main_arg3 m ρ c),
    (h c _ (mem_uc main_arg4 (by decide))).trans (W6_main_arg4 m ρ c),
    (h c _ (mem_uc main_arg5 (by decide))).trans (W6_main_arg5 m ρ c),
    (h c _ (mem_uc main_arg6 (by decide))).trans (W6_main_arg6 m ρ c),
    (h c _ (mem_uc main_arg7 (by decide))).trans (W6_main_arg7 m ρ c),
    (h c _ (mem_uc main_arg8 (by decide))).trans (W6_main_arg8 m ρ c),
    (h c _ (mem_uc main_arg9 (by decide))).trans (W6_main_arg9 m ρ c),
    (h c _ (mem_uc main_arg10 (by decide))).trans (W6_main_arg10 m ρ c),
    (h c _ (mem_uc main_arg11 (by decide))).trans (W6_main_arg11 m ρ c),
    (h c _ (mem_uc main_arg12 (by decide))).trans (W6_main_arg12 m ρ c),
    (h c _ (mem_uc main_arg13 (by decide))).trans (W6_main_arg13 m ρ c)⟩) (run_main m ρ)

end Cert.Kernel.Hand

end
-- ==== Proof.KI.R0.lean ====
/-
  Region 0 of @main (the dense stage of layer 1), at the contents `V` the region is entered with.

  The grid has 20 points; point `t` sees rows 5000·t … 5000·t+4999 of the aggregated array (window 0) and of the
  layer's input (window 1), the whole stacked weight matrix (window 2) and the bias row (window 3), and stores
  into its block of the result (window 4) one value: the payload of the body's single store, a function of the
  four blocks it loaded.  Nothing is carried from point to point, so the region's invariant is the plain one
  (the scoped buffers no window stages, at some contents, and the generator register at some state).
-/
import proofs.«428750_j8675833938328_3_alg».proof.Proof.Gen.KernelIdeal.Launch
import proofs.«428750_j8675833938328_3_alg».proof.Proof.Gen.KernelIdeal.Skeleton
import proofs.«428750_j8675833938328_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses: each load and the store take a whole buffer -/

abbrev r0A : Rect S5000x64 := Rect.unit (s := S5000x64) ![0, 0] S5000x64.size inb_S5000x64_S5000x64_0_0
abbrev r0W : Rect S128x64 := Rect.unit (s := S128x64) ![0, 0] S128x64.size inb_S128x64_S128x64_0_0
abbrev r0B : Rect S1x64 := Rect.unit (s := S1x64) ![0, 0] S1x64.size inb_S1x64_S1x64_0_0

/-- What the body leaves in the result window's staging buffer, from the four input blocks: its one store. -/
def out0_4 (x0 : Vec F S5000x64 .f32) (x1 : Vec F S5000x64 .f32) (x2 : Vec F S128x64 .f32) (x3 : Vec F S1x64 .f32) : Vec F S5000x64 .bf16 :=
  View.canon [⟨r0A, k0_pay1 (View.ld x0 r0A) (View.ld x1 r0A) (View.ld x2 r0W) (View.ld x3 r0B)⟩]

/-! ## The pipeline's proof data -/

/-- The proof data of pipeline 0 on core `c`: the arrays as the region finds them; after the body at point `t`
    each input's buffer at its block and the result's at `out0_4` of the input blocks; the plain invariant;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

/-! ## What the body finds in each input window's buffer -/

/-- Input window 0's current staging buffer holds its block at every point, fetched there or not, for any proof
    data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 likewise. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the stacked weights: one block, fetched at the first point only) likewise: where it is not
    fetched its block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3 (the bias row: one block, fetched at the first point only) likewise. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body's triple -/

/-- The body's one store takes the whole result buffer, so it covers it. -/
theorem cover0_4 (p0 : Vec F S5000x64 .bf16) (y : S5000x64.Idx) :
    ∃ pc ∈ ([⟨r0A, p0⟩] : List (View.Piece (Elt F) S5000x64 .bf16)), y ∈ pc.1.set :=
  View.cover_of_tiled [⟨r0A, p0⟩] S5000x64.size (by rfl) y

set_option maxHeartbeats 1000000 in
/-- The kernel body on whole staging memrefs, the inputs' at read contents `x0 … x3` and the result's at anything,
    runs to the continuation holding the inputs' as they were and the result's at `out0_4` of the inputs': four
    loads of whole buffers, a load of the result buffer whose value is not used, and one store over the whole
    result buffer. -/
theorem sound_kernel0 (c : Dev nD) (E : Set ℕ) (i : grid0.Coords)
    (arg1 : Memref sig .tc .vmem S5000x64 .f32) (harg1 : arg1.IsWhole) (arg2 : Memref sig .tc .vmem S5000x64 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S5000x64 .bf16) (harg5 : arg5.IsWhole)
    (x0 : Vec F S5000x64 .f32) (x1 : Vec F S5000x64 .f32) (x2 : Vec F S128x64 .f32) (x3 : Vec F S1x64 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1 x2 x3)) -∗ K ⟨⟩))
      ⊢ wp frame (wpE (defs₀ (F := F)) Variants.none c none) E (cc0_kernel i arg1 harg1 arg2 harg2 arg3 harg3 arg4 harg4 arg5 harg5) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-! ## The body obligation -/

/-- At every point the body, handed the invariant, the core's dues and each window's current staging buffer at
    what it then holds, runs to the same with each buffer at what the proof data says it leaves. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.lean ====
/-
  Region 1 of @main (the dense stage of layer 2), at the contents `V` the region is entered with.

  The grid has 20 points; point `t` sees rows 5000·t … 5000·t+4999 of the aggregated array (window 0) and of the
  layer's input (window 1), the whole stacked weight matrix (window 2) and the bias row (window 3), and stores
  into its block of the result (window 4) one value: the payload of the body's single store, a function of the
  four blocks it loaded.  Nothing is carried from point to point, so the region's invariant is the plain one
  (the scoped buffers no window stages, at some contents, and the generator register at some state).
-/
import proofs.«428750_j8675833938328_3_alg».proof.Proof.Gen.KernelIdeal.Launch
import proofs.«428750_j8675833938328_3_alg».proof.Proof.Gen.KernelIdeal.Skeleton
import proofs.«428750_j8675833938328_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses: each load and the store take a whole buffer -/

abbrev r1A : Rect S5000x64 := Rect.unit (s := S5000x64) ![0, 0] S5000x64.size inb_S5000x64_S5000x64_0_0
abbrev r1W : Rect S128x64 := Rect.unit (s := S128x64) ![0, 0] S128x64.size inb_S128x64_S128x64_0_0
abbrev r1B : Rect S1x64 := Rect.unit (s := S1x64) ![0, 0] S1x64.size inb_S1x64_S1x64_0_0

/-- What the body leaves in the result window's staging buffer, from the four input blocks: its one store. -/
def out1_4 (x0 : Vec F S5000x64 .f32) (x1 : Vec F S5000x64 .bf16) (x2 : Vec F S128x64 .f32) (x3 : Vec F S1x64 .f32) : Vec F S5000x64 .bf16 :=
  View.canon [⟨r1A, k1_pay1 (View.ld x0 r1A) (View.ld x1 r1A) (View.ld x2 r1W) (View.ld x3 r1B)⟩]

/-! ## The pipeline's proof data -/

/-- The proof data of pipeline 1 on core `c`: the arrays as the region finds them; after the body at point `t`
    each input's buffer at its block and the result's at `out1_4` of the input blocks; the plain invariant;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-! ## What the body finds in each input window's buffer -/

/-- Input window 0's current staging buffer holds its block at every point, fetched there or not, for any proof
    data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the previous layer's result, in half precision) likewise. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the stacked weights: one block, fetched at the first point only) likewise: where it is not
    fetched its block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3 (the bias row: one block, fetched at the first point only) likewise. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body's triple -/

/-- The body's one store takes the whole result buffer, so it covers it. -/
theorem cover1_4 (p0 : Vec F S5000x64 .bf16) (y : S5000x64.Idx) :
    ∃ pc ∈ ([⟨r1A, p0⟩] : List (View.Piece (Elt F) S5000x64 .bf16)), y ∈ pc.1.set :=
  View.cover_of_tiled [⟨r1A, p0⟩] S5000x64.size (by rfl) y

set_option maxHeartbeats 1000000 in
/-- The kernel body on whole staging memrefs, the inputs' at read contents `x0 … x3` (the second in half
    precision) and the result's at anything, runs to the continuation holding the inputs' as they were and the
    result's at `out1_4` of the inputs': four loads of whole buffers, a load of the result buffer whose value is not
    used, and one store over the whole result buffer. -/
theorem sound_kernel1 (c : Dev nD) (E : Set ℕ) (i : grid1.Coords)
    (arg1 : Memref sig .tc .vmem S5000x64 .f32) (harg1 : arg1.IsWhole) (arg2 : Memref sig .tc .vmem S5000x64 .bf16) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S5000x64 .bf16) (harg5 : arg5.IsWhole)
    (x0 : Vec F S5000x64 .f32) (x1 : Vec F S5000x64 .bf16) (x2 : Vec F S128x64 .f32) (x3 : Vec F S1x64 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out1_4 x0 x1 x2 x3)) -∗ K ⟨⟩))
      ⊢ wp frame (wpE (defs₀ (F := F)) Variants.none c none) E (cc1_kernel i arg1 harg1 arg2 harg2 arg3 harg3 arg4 harg4 arg5 harg5) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-! ## The body obligation -/

/-- At every point the body, handed the invariant, the core's dues and each window's current staging buffer at
    what it then holds, runs to the same with each buffer at what the proof data says it leaves. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2Defs.lean ====
/-
  Region 2 of @main (layer 3 fused with the mean pool and the last linear map), at the contents `V` the region is
  entered with.

  The grid has 20 points and runs in order.  Point `t` sees rows 5000·t … 5000·t+4999 of the aggregated array
  (window 0), of the layer's input (window 1) and of the graph ids (window 2), and the whole of the stacked weights
  (3), the bias row (4), the last linear map's matrix (5) and bias row (6).  Two scratch buffers are carried from
  point to point: the pooled sums (256×64) and the node counts (1×256).  The first point resets both to zero before
  it adds its block's contribution; every point adds its block's contribution; the last point alone stores into the
  result window (7), which is written back only there: the pooled sums divided by `max count 1`, through the linear
  map.

  `S2 n` and `C2 n` are what the two scratch buffers hold after the first `n` points.  The region's invariant
  before point `t` holds the two scratch buffers at `S2 t` and `C2 t` (at anything before the first point), beside
  the other scoped buffers at some contents and the generator register at some state.
-/
import proofs.«428750_j8675833938328_3_alg».proof.Proof.Gen.KernelIdeal.Launch
import proofs.«428750_j8675833938328_3_alg».proof.Proof.Gen.KernelIdeal.Skeleton
import proofs.«428750_j8675833938328_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The scratch buffers from point to point -/

/-- The pooled-sum scratch after the first `n` points: zero, then each point's block folded in by the body's
    own store payload (the previous contents plus the block's one-hot product). -/
def S2 (c : Dev nD) : ℕ → Vec F S256x64 .f32
  | 0 => k2_pay3
  | n + 1 =>
    if h : n < cfg2.N then
      k2_pay7 (iblk2 V c 0 ⟨n, h⟩) (iblk2 V c 1 ⟨n, h⟩) (iblk2 V c 3 ⟨n, h⟩) (iblk2 V c 4 ⟨n, h⟩) (iblk2 V c 2 ⟨n, h⟩) (S2 c n)
    else S2 c n

/-- The count scratch after the first `n` points: zero, then each point's column sums of its one-hot block added. -/
def C2 (c : Dev nD) : ℕ → Vec F S1x256 .f32
  | 0 => k2_pay4
  | n + 1 =>
    if h : n < cfg2.N then k2_pay1 (k2_pay6 (iblk2 V c 2 ⟨n, h⟩)) (C2 c n) else C2 c n

/-- What the last point stores into the result window: the head applied to the scratch buffers as that point
    leaves them. (Stated at every point; only the last one writes it back.) -/
def out2_7 (c : Dev nD) (t : Fin cfg2.N) : Vec F S256x64 .f32 :=
  k2_pay2 (C2 V c (t.val + 1)) (S2 V c (t.val + 1)) (iblk2 V c 5 t) (iblk2 V c 6 t)

/-! ## The invariant -/

/-- Before point `t`: the two scratch buffers at what the first `t` points left (anything before the first), the
    other scoped buffers no window stages at some contents, the generator register at some state. -/
def Φ2 (c : Dev nD) (t : Fin (cfg2.N + 1)) : sProp 𝕄 :=
  iprop(Pipeline.scopedRestBut (Ix := Unit) (Name := ℕ) (U := UR sig nD τ) (Lvl := ℕ) (Val := Elt F) spec2 c [cc2_scratch0, cc2_scratch1]
    ∗ (∃ r, prngReg c r)
    ∗ ∃ (f0 : Buf (Elt F) ((c : Thread nD τ).loc cc2_scratch0)) (f1 : Buf (Elt F) ((c : Thread nD τ).loc cc2_scratch1)),
        (((c : Thread nD τ).loc cc2_scratch0) ↦{fullShare} f0) ∗ (((c : Thread nD τ).loc cc2_scratch1) ↦{fullShare} f1)
        ∗ ⌜t.val ≠ 0 → f0 = S2 V c t.val ∧ f1 = C2 V c t.val⌝)

/-! ## The pipeline's proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 V c t
  Φ t := Φ2 V c t
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 V c t := by dsimp only [dat2]

end Cert.KernelIdeal.Hand

end
-- ==== Proof.KI.Fold.lean ====
/-
  The contents of the TensorCore's unscoped buffers at each boundary between @main's items, as a fold from the
  launch memory: after a stretch of host operations, the operations applied; after a region, the region's arrays
  at what its write-backs leave and every other buffer as the region found it.
-/
import proofs.«428750_j8675833938328_3_alg».proof.Proof.KI.R0
import proofs.«428750_j8675833938328_3_alg».proof.Proof.KI.R1
import proofs.«428750_j8675833938328_3_alg».proof.Proof.KI.R2Defs

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg)

variable {F : FTy → Type} [FloatOps F]

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch (region 2's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit: what the run ends with. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

end Cert.KernelIdeal.Hand

end
-- ==== Proof.KI.R2.lean ====
/-
  Region 2 of @main (layer 3 fused with the mean pool and the last linear map), at the contents `V` the region is
  entered with.

  The grid has 20 points and runs in order.  Point `t` sees rows 5000·t … 5000·t+4999 of the aggregated array
  (window 0), of the layer's input (window 1) and of the graph ids (window 2), and the whole of the stacked weights
  (3), the bias row (4), the last linear map's matrix (5) and bias row (6).  Two scratch buffers are carried from
  point to point: the pooled sums (256×64) and the node counts (1×256).  The first point resets both to zero before
  it adds its block's contribution; every point adds its block's contribution; the last point alone stores into the
  result window (7), which is written back only there: the pooled sums divided by `max count 1`, through the linear
  map.

  `S2 n` and `C2 n` are what the two scratch buffers hold after the first `n` points.  The region's invariant
  before point `t` holds the two scratch buffers at `S2 t` and `C2 t` (at anything before the first point), beside
  the other scoped buffers at some contents and the generator register at some state.
-/
import proofs.«428750_j8675833938328_3_alg».proof.Proof.Gen.KernelIdeal.Launch
import proofs.«428750_j8675833938328_3_alg».proof.Proof.Gen.KernelIdeal.Skeleton
import proofs.«428750_j8675833938328_3_alg».proof.Proof.Gen.KernelIdeal.Points
import proofs.«428750_j8675833938328_3_alg».proof.Proof.KI.R2Defs
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The invariant's two ends -/

/-- The region's scoped rest split at its two scratch buffers, each whole at some contents, the remainder unopened. -/
theorem scopedRest2_split (c : Dev nD) :
    (Pipeline.scopedRest (Ix := Unit) (Name := ℕ) (U := UR sig nD τ) (Lvl := ℕ) (Val := Elt F) spec2 c : sProp 𝕄)
      = iprop(iprop((∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f))
          ∗ Pipeline.scopedRestBut (Ix := Unit) (Name := ℕ) (U := UR sig nD τ) (Lvl := ℕ) (Val := Elt F) spec2 c [cc2_scratch0, cc2_scratch1]) :=
  Pipeline.scopedRest_split_of_list spec2 c [cc2_scratch0, cc2_scratch1] (by decide) (by decide)

/-- The plain invariant yields the tracking one before the first point: there the scratch buffers hold anything. -/
theorem hin2 (c : Dev nD) : (Pipeline.ΦA (U := UR sig nD τ) (Val := Elt F) spec2 c : sProp 𝕄) ⊢ (dat2 V c).Φ 0 := by
  show (Pipeline.ΦA (U := UR sig nD τ) (Val := Elt F) spec2 c : sProp 𝕄) ⊢ Φ2 V c 0
  unfold Pipeline.ΦA Φ2
  rw [scopedRest2_split]
  iintro ⟨⟨⟨⟨%f0, H0⟩, ⟨%f1, H1⟩⟩, Hrest⟩, Hg⟩
  isplitl [Hrest]; · iexact Hrest
  isplitl [Hg]; · iexact Hg
  iexists f0; iexists f1
  isplitl [H0]; · iexact H0
  isplitl [H1]; · iexact H1
  ipureintro
  intro h; exact absurd rfl h

/-- After the last point the scratch buffers are forgotten again. -/
theorem hout2 (c : Dev nD) : (dat2 V c).Φ (Fin.last cfg2.N) ⊢ (Pipeline.ΦA (U := UR sig nD τ) (Val := Elt F) spec2 c : sProp 𝕄) := by
  show Φ2 V c (Fin.last cfg2.N) ⊢ (Pipeline.ΦA (U := UR sig nD τ) (Val := Elt F) spec2 c : sProp 𝕄)
  unfold Pipeline.ΦA Φ2
  rw [scopedRest2_split]
  iintro ⟨Hrest, Hg, ⟨%f0, %f1, H0, H1, -⟩⟩
  isplitl [Hrest H0 H1]
  · isplitl [H0 H1]
    · isplitl [H0]
      · iexists f0; iexact H0
      · iexists f1; iexact H1
    · iexact Hrest
  · iexact Hg

/-! ## The body's two conditionals -/

/-- The first conditional's condition, as the body computes it from the grid coordinate: the point is the first. -/
abbrev cond2_0 (i : grid2.Coords) : Prop :=
  (Scalar.cmpi .ne (Scalar.extui (Scalar.cmpi .eq (BitVec.ofNat 32 (i 0).val) 0#32)) 0#32) = 1#1
/-- The second conditional's condition: the point is the last. -/
abbrev cond2_1 (i : grid2.Coords) : Prop := k2_cond2 i = 1#1

/-- The offsets of every access of the body are zero. -/
theorem hz2 : (![0, 0] : Fin 2 → Nat) = fun _ => 0 := funext fun a => by fin_cases a <;> rfl

/-! ## The body's accesses: every load and every store takes a whole buffer -/

abbrev r2S : Rect S256x64 := Rect.unit (s := S256x64) ![0, 0] S256x64.size inb_S256x64_S256x64_0_0
abbrev r2C : Rect S1x256 := Rect.unit (s := S1x256) ![0, 0] S1x256.size inb_S1x256_S1x256_0_0

/-- One store over a whole 256×64 buffer covers it; -/
theorem cover2_S (p0 : Vec F S256x64 .f32) (y : S256x64.Idx) :
    ∃ pc ∈ ([⟨r2S, p0⟩] : List (View.Piece (Elt F) S256x64 .f32)), y ∈ pc.1.set :=
  ⟨⟨r2S, p0⟩, List.mem_singleton_self _, View.mem_set_unit_zero hz2 inb_S256x64_S256x64_0_0 y⟩
/-- so does the later of two. -/
theorem cover2_SS (p0 p1 : Vec F S256x64 .f32) (y : S256x64.Idx) :
    ∃ pc ∈ ([⟨r2S, p0⟩, ⟨r2S, p1⟩] : List (View.Piece (Elt F) S256x64 .f32)), y ∈ pc.1.set :=
  ⟨⟨r2S, p0⟩, List.mem_cons.mpr (Or.inl rfl), View.mem_set_unit_zero hz2 inb_S256x64_S256x64_0_0 y⟩
/-- The same of the 1×256 buffer. -/
theorem cover2_C (p0 : Vec F S1x256 .f32) (y : S1x256.Idx) :
    ∃ pc ∈ ([⟨r2C, p0⟩] : List (View.Piece (Elt F) S1x256 .f32)), y ∈ pc.1.set :=
  ⟨⟨r2C, p0⟩, List.mem_singleton_self _, View.mem_set_unit_zero hz2 inb_S1x256_S1x256_0_0 y⟩
theorem cover2_CC (p0 p1 : Vec F S1x256 .f32) (y : S1x256.Idx) :
    ∃ pc ∈ ([⟨r2C, p0⟩, ⟨r2C, p1⟩] : List (View.Piece (Elt F) S1x256 .f32)), y ∈ pc.1.set :=
  ⟨⟨r2C, p0⟩, List.mem_cons.mpr (Or.inl rfl), View.mem_set_unit_zero hz2 inb_S1x256_S1x256_0_0 y⟩

/-! ## The body's triple, case by case -/

set_option maxHeartbeats 4000000 in
/-- The body at a point that is neither the first nor the last, on whole memrefs: the input windows' at their
    contents, the result window's at `d7`, the two scratch buffers at `s0`, `s1`. It leaves the inputs' and the result
    window's as they were and each scratch at its one store's payload over what it held. -/
theorem sound_kernel2_M (c : Dev nD) (E : Set ℕ) (i : grid2.Coords) (arg1 : Memref sig .tc .vmem S5000x64 .f32) (harg1 : arg1.IsWhole) (arg2 : Memref sig .tc .vmem S5000x64 .bf16) (harg2 : arg2.IsWhole) (arg3 : Memref sig .tc .vmem S5000x1 .i32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S256x64 .f32) (harg8 : arg8.IsWhole) (arg9 : Memref sig .tc .vmem S256x64 .f32) (harg9 : arg9.IsWhole) (arg10 : Memref sig .tc .vmem S1x256 .f32) (harg10 : arg10.IsWhole)
    (hc0 : ¬cond2_0 i) (hc1 : ¬cond2_1 i)
    (x0 : Vec F S5000x64 .f32) (x1 : Vec F S5000x64 .bf16) (x2 : Vec F S5000x1 .i32) (x3 : Vec F S128x64 .f32) (x4 : Vec F S1x64 .f32) (x5 : Vec F S64x64 .f32) (x6 : Vec F S1x64 .f32) (d7 : Vec F S256x64 .f32) (s0 : Vec F S256x64 .f32) (s1 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare d7 ∗ owns (c : Thread nD τ) arg9 fullShare s0 ∗ owns (c : Thread nD τ) arg10 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare d7
            ∗ owns (c : Thread nD τ) arg9 fullShare (k2_pay7 x0 x1 x3 x4 x2 s0) ∗ owns (c : Thread nD τ) arg10 fullShare (k2_pay1 (k2_pay6 x2) s1)) -∗ K ⟨⟩))
      ⊢ wp frame (wpE (defs₀ (F := F)) Variants.none c none) E (cc2__fused_layer3_pool_kernel i arg1 harg1 arg2 harg2 arg3 harg3 arg4 harg4 arg5 harg5 arg6 harg6 arg7 harg7 arg8 harg8 arg9 harg9 arg10 harg10) K := by
  simp only [cc2__fused_layer3_pool_kernel_eq_skeleton]; unfold cc2__fused_layer3_pool_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6
  obtain rfl := harg8.eq_unread hf7; obtain rfl := harg9.eq_unread hfs0; obtain rfl := harg10.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [HS0]
  · iexists _; isplitr
    swap; · iexact HS0
    ipureintro
    sl_unfold_words
    rw [View.read_writes_eq_canon _ _ _ (cover2_S _)]
    rw [View.canon_unit_zero hz2]
    simp only [View.readAt_eq_ld, harg1.read_unread, harg2.read_unread, harg3.read_unread, harg4.read_unread, harg5.read_unread, harg6.read_unread, harg7.read_unread, harg8.read_unread, harg9.read_unread, harg10.read_unread, View.ld_unit_zero (S := S5000x64) hz2, View.ld_unit_zero (S := S5000x1) hz2, View.ld_unit_zero (S := S128x64) hz2, View.ld_unit_zero (S := S1x64) hz2, View.ld_unit_zero (S := S64x64) hz2, View.ld_unit_zero (S := S256x64) hz2, View.ld_unit_zero (S := S1x256) hz2, View.readCov_unit_zero (S := S256x64) _ hz2, View.readCov_unit_zero (S := S1x256) _ hz2]
  · iexists _; isplitr
    swap; · iexact HS1
    ipureintro
    sl_unfold_words
    rw [View.read_writes_eq_canon _ _ _ (cover2_C _)]
    rw [View.canon_unit_zero hz2]
    simp only [View.readAt_eq_ld, harg1.read_unread, harg2.read_unread, harg3.read_unread, harg4.read_unread, harg5.read_unread, harg6.read_unread, harg7.read_unread, harg8.read_unread, harg9.read_unread, harg10.read_unread, View.ld_unit_zero (S := S5000x64) hz2, View.ld_unit_zero (S := S5000x1) hz2, View.ld_unit_zero (S := S128x64) hz2, View.ld_unit_zero (S := S1x64) hz2, View.ld_unit_zero (S := S64x64) hz2, View.ld_unit_zero (S := S256x64) hz2, View.ld_unit_zero (S := S1x256) hz2, View.readCov_unit_zero (S := S256x64) _ hz2, View.readCov_unit_zero (S := S1x256) _ hz2]

set_option maxHeartbeats 4000000 in
/-- The body at the first point: both scratch buffers, at anything, are first stored with zeros, then updated from
    what was just stored. -/
theorem sound_kernel2_Z (c : Dev nD) (E : Set ℕ) (i : grid2.Coords) (arg1 : Memref sig .tc .vmem S5000x64 .f32) (harg1 : arg1.IsWhole) (arg2 : Memref sig .tc .vmem S5000x64 .bf16) (harg2 : arg2.IsWhole) (arg3 : Memref sig .tc .vmem S5000x1 .i32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S256x64 .f32) (harg8 : arg8.IsWhole) (arg9 : Memref sig .tc .vmem S256x64 .f32) (harg9 : arg9.IsWhole) (arg10 : Memref sig .tc .vmem S1x256 .f32) (harg10 : arg10.IsWhole)
    (hc0 : cond2_0 i) (hc1 : ¬cond2_1 i)
    (x0 : Vec F S5000x64 .f32) (x1 : Vec F S5000x64 .bf16) (x2 : Vec F S5000x1 .i32) (x3 : Vec F S128x64 .f32) (x4 : Vec F S1x64 .f32) (x5 : Vec F S64x64 .f32) (x6 : Vec F S1x64 .f32) (d7 : Vec F S256x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare d7 ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare d7
            ∗ owns (c : Thread nD τ) arg9 fullShare (k2_pay7 x0 x1 x3 x4 x2 k2_pay3) ∗ owns (c : Thread nD τ) arg10 fullShare (k2_pay1 (k2_pay6 x2) k2_pay4)) -∗ K ⟨⟩))
      ⊢ wp frame (wpE (defs₀ (F := F)) Variants.none c none) E (cc2__fused_layer3_pool_kernel i arg1 harg1 arg2 harg2 arg3 harg3 arg4 harg4 arg5 harg5 arg6 harg6 arg7 harg7 arg8 harg8 arg9 harg9 arg10 harg10) K := by
  simp only [cc2__fused_layer3_pool_kernel_eq_skeleton]; unfold cc2__fused_layer3_pool_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6
  obtain rfl := harg8.eq_unread hf7
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [HS0]
  · iexists _; isplitr
    swap; · iexact HS0
    ipureintro
    sl_unfold_words
    rw [View.read_writes_eq_canon _ _ _ (cover2_SS _ _)]
    rw [View.canon_cons_unit_zero (S := S256x64) hz2]
    simp only [View.readAt_eq_ld, harg1.read_unread, harg2.read_unread, harg3.read_unread, harg4.read_unread, harg5.read_unread, harg6.read_unread, harg7.read_unread, harg8.read_unread, harg9.read_unread, harg10.read_unread, View.ld_unit_zero (S := S5000x64) hz2, View.ld_unit_zero (S := S5000x1) hz2, View.ld_unit_zero (S := S128x64) hz2, View.ld_unit_zero (S := S1x64) hz2, View.ld_unit_zero (S := S64x64) hz2, View.ld_unit_zero (S := S256x64) hz2, View.ld_unit_zero (S := S1x256) hz2, View.readCov_unit_zero (S := S256x64) _ hz2, View.readCov_unit_zero (S := S1x256) _ hz2]
  · iexists _; isplitr
    swap; · iexact HS1
    ipureintro
    sl_unfold_words
    rw [View.read_writes_eq_canon _ _ _ (cover2_CC _ _)]
    rw [View.canon_cons_unit_zero (S := S1x256) hz2]
    simp only [View.readAt_eq_ld, harg1.read_unread, harg2.read_unread, harg3.read_unread, harg4.read_unread, harg5.read_unread, harg6.read_unread, harg7.read_unread, harg8.read_unread, harg9.read_unread, harg10.read_unread, View.ld_unit_zero (S := S5000x64) hz2, View.ld_unit_zero (S := S5000x1) hz2, View.ld_unit_zero (S := S128x64) hz2, View.ld_unit_zero (S := S1x64) hz2, View.ld_unit_zero (S := S64x64) hz2, View.ld_unit_zero (S := S256x64) hz2, View.ld_unit_zero (S := S1x256) hz2, View.readCov_unit_zero (S := S256x64) _ hz2, View.readCov_unit_zero (S := S1x256) _ hz2]

set_option maxHeartbeats 4000000 in
/-- The body at the last point: after the two updates, the result window's buffer, at anything, is stored with the
    head of the two scratch buffers as just updated and the two head blocks. -/
theorem sound_kernel2_L (c : Dev nD) (E : Set ℕ) (i : grid2.Coords) (arg1 : Memref sig .tc .vmem S5000x64 .f32) (harg1 : arg1.IsWhole) (arg2 : Memref sig .tc .vmem S5000x64 .bf16) (harg2 : arg2.IsWhole) (arg3 : Memref sig .tc .vmem S5000x1 .i32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S256x64 .f32) (harg8 : arg8.IsWhole) (arg9 : Memref sig .tc .vmem S256x64 .f32) (harg9 : arg9.IsWhole) (arg10 : Memref sig .tc .vmem S1x256 .f32) (harg10 : arg10.IsWhole)
    (hc0 : ¬cond2_0 i) (hc1 : cond2_1 i)
    (x0 : Vec F S5000x64 .f32) (x1 : Vec F S5000x64 .bf16) (x2 : Vec F S5000x1 .i32) (x3 : Vec F S128x64 .f32) (x4 : Vec F S1x64 .f32) (x5 : Vec F S64x64 .f32) (x6 : Vec F S1x64 .f32) (s0 : Vec F S256x64 .f32) (s1 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare s0 ∗ owns (c : Thread nD τ) arg10 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (k2_pay2 (k2_pay1 (k2_pay6 x2) s1) (k2_pay7 x0 x1 x3 x4 x2 s0) x5 x6)
            ∗ owns (c : Thread nD τ) arg9 fullShare (k2_pay7 x0 x1 x3 x4 x2 s0) ∗ owns (c : Thread nD τ) arg10 fullShare (k2_pay1 (k2_pay6 x2) s1)) -∗ K ⟨⟩))
      ⊢ wp frame (wpE (defs₀ (F := F)) Variants.none c none) E (cc2__fused_layer3_pool_kernel i arg1 harg1 arg2 harg2 arg3 harg3 arg4 harg4 arg5 harg5 arg6 harg6 arg7 harg7 arg8 harg8 arg9 harg9 arg10 harg10) K := by
  simp only [cc2__fused_layer3_pool_kernel_eq_skeleton]; unfold cc2__fused_layer3_pool_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6
  obtain rfl := harg9.eq_unread hfs0; obtain rfl := harg10.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr
    swap; · iexact H7
    ipureintro
    sl_unfold_words
    rw [View.read_writes_eq_canon _ _ _ (cover2_S _)]
    rw [View.canon_unit_zero hz2]
    simp only [View.readAt_eq_ld, harg1.read_unread, harg2.read_unread, harg3.read_unread, harg4.read_unread, harg5.read_unread, harg6.read_unread, harg7.read_unread, harg8.read_unread, harg9.read_unread, harg10.read_unread, View.ld_unit_zero (S := S5000x64) hz2, View.ld_unit_zero (S := S5000x1) hz2, View.ld_unit_zero (S := S128x64) hz2, View.ld_unit_zero (S := S1x64) hz2, View.ld_unit_zero (S := S64x64) hz2, View.ld_unit_zero (S := S256x64) hz2, View.ld_unit_zero (S := S1x256) hz2, View.readCov_unit_zero (S := S256x64) _ hz2, View.readCov_unit_zero (S := S1x256) _ hz2]
  isplitl [HS0]
  · iexists _; isplitr
    swap; · iexact HS0
    ipureintro
    sl_unfold_words
    rw [View.read_writes_eq_canon _ _ _ (cover2_S _)]
    rw [View.canon_unit_zero hz2]
    simp only [View.readAt_eq_ld, harg1.read_unread, harg2.read_unread, harg3.read_unread, harg4.read_unread, harg5.read_unread, harg6.read_unread, harg7.read_unread, harg8.read_unread, harg9.read_unread, harg10.read_unread, View.ld_unit_zero (S := S5000x64) hz2, View.ld_unit_zero (S := S5000x1) hz2, View.ld_unit_zero (S := S128x64) hz2, View.ld_unit_zero (S := S1x64) hz2, View.ld_unit_zero (S := S64x64) hz2, View.ld_unit_zero (S := S256x64) hz2, View.ld_unit_zero (S := S1x256) hz2, View.readCov_unit_zero (S := S256x64) _ hz2, View.readCov_unit_zero (S := S1x256) _ hz2]
  · iexists _; isplitr
    swap; · iexact HS1
    ipureintro
    sl_unfold_words
    rw [View.read_writes_eq_canon _ _ _ (cover2_C _)]
    rw [View.canon_unit_zero hz2]
    simp only [View.readAt_eq_ld, harg1.read_unread, harg2.read_unread, harg3.read_unread, harg4.read_unread, harg5.read_unread, harg6.read_unread, harg7.read_unread, harg8.read_unread, harg9.read_unread, harg10.read_unread, View.ld_unit_zero (S := S5000x64) hz2, View.ld_unit_zero (S := S5000x1) hz2, View.ld_unit_zero (S := S128x64) hz2, View.ld_unit_zero (S := S1x64) hz2, View.ld_unit_zero (S := S64x64) hz2, View.ld_unit_zero (S := S256x64) hz2, View.ld_unit_zero (S := S1x256) hz2, View.readCov_unit_zero (S := S256x64) _ hz2, View.readCov_unit_zero (S := S1x256) _ hz2]

/-! ## The conditions in closed form, and where the result window is idle -/

/-- The first conditional is taken at the first point only, -/
theorem hcond2_0 : ∀ t : Fin cfg2.N, cond2_0 (grid2.coords t) ↔ t.val = 0 :=
  (by decide +kernel : ∀ t : Fin grid2.N, cond2_0 (grid2.coords t) ↔ t.val = 0)
/-- the second at the last only. -/
theorem hcond2_1 : ∀ t : Fin cfg2.N, cond2_1 (grid2.coords t) ↔ t.val = 19 :=
  (by decide +kernel : ∀ t : Fin grid2.N, cond2_1 (grid2.coords t) ↔ t.val = 19)

/-- No input window is ever idle. -/
theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl
theorem liveAt2_4 : ∀ t : Fin cfg2.N, cfg2.idle 4 (grid2.coords t) = false := fun _ => rfl
theorem liveAt2_5 : ∀ t : Fin cfg2.N, cfg2.idle 5 (grid2.coords t) = false := fun _ => rfl
theorem liveAt2_6 : ∀ t : Fin cfg2.N, cfg2.idle 6 (grid2.coords t) = false := fun _ => rfl
/-- The result window is idle wherever the second conditional is not taken, and is not written back there; -/
theorem idleAt2_7 : ∀ t : Fin cfg2.N, ¬cond2_1 (grid2.coords t) → cfg2.idle 7 (grid2.coords t) = true := by decide +kernel
theorem noFlush2_7 : ∀ t : Fin cfg2.N, ¬cond2_1 (grid2.coords t) → (cfg2.win 7).flush t = false := by decide +kernel
/-- where it is taken the window is live. -/
theorem liveAt2_7 : ∀ t : Fin cfg2.N, cond2_1 (grid2.coords t) → cfg2.idle 7 (grid2.coords t) = false := by decide +kernel

/-! ## The scratch buffers one point on -/

theorem S2_zero (c : Dev nD) : S2 V c 0 = k2_pay3 := by rw [S2]
theorem C2_zero (c : Dev nD) : C2 V c 0 = k2_pay4 := by rw [C2]

/-- The pooled sums after point `t`: the body's update of what they were before it, over the point's blocks. -/
theorem S2_succ (c : Dev nD) (t : Fin cfg2.N) :
    S2 V c (t.val + 1) = k2_pay7 (iblk2 V c 0 t) (iblk2 V c 1 t) (iblk2 V c 3 t) (iblk2 V c 4 t) (iblk2 V c 2 t) (S2 V c t.val) := by
  rw [S2, dif_pos t.isLt]

/-- The counts after point `t` likewise. -/
theorem C2_succ (c : Dev nD) (t : Fin cfg2.N) :
    C2 V c (t.val + 1) = k2_pay1 (k2_pay6 (iblk2 V c 2 t)) (C2 V c t.val) := by
  rw [C2, dif_pos t.isLt]

/-- After the first point: the update of the zeros. -/
theorem S2_first (c : Dev nD) (t : Fin cfg2.N) (h0 : t.val = 0) :
    k2_pay7 (iblk2 V c 0 t) (iblk2 V c 1 t) (iblk2 V c 3 t) (iblk2 V c 4 t) (iblk2 V c 2 t) k2_pay3 = S2 V c (t.val + 1) := by
  rw [S2_succ, h0, S2_zero]
theorem C2_first (c : Dev nD) (t : Fin cfg2.N) (h0 : t.val = 0) :
    k2_pay1 (k2_pay6 (iblk2 V c 2 t)) k2_pay4 = C2 V c (t.val + 1) := by
  rw [C2_succ, h0, C2_zero]

/-! ## What the body finds in each input window's buffer: its block, fetched there or not -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_0 (c : Dev nD) (t : Fin cfg2.N) (d) : (dat2 V c).before 0 t d = iblk2 V c 0 t :=
  before2_0_of V (dat2 V c) (A_eq2 V c 0) (after2_0 V c) t d
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_1 (c : Dev nD) (t : Fin cfg2.N) (d) : (dat2 V c).before 1 t d = iblk2 V c 1 t :=
  before2_1_of V (dat2 V c) (A_eq2 V c 1) (after2_1 V c) t d
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_2 (c : Dev nD) (t : Fin cfg2.N) (d) : (dat2 V c).before 2 t d = iblk2 V c 2 t :=
  before2_2_of V (dat2 V c) (A_eq2 V c 2) (after2_2 V c) t d
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_3 (c : Dev nD) (t : Fin cfg2.N) (d) : (dat2 V c).before 3 t d = iblk2 V c 3 t :=
  before2_3_of V (dat2 V c) (A_eq2 V c 3) (after2_3 V c) t d
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_4 (c : Dev nD) (t : Fin cfg2.N) (d) : (dat2 V c).before 4 t d = iblk2 V c 4 t :=
  before2_4_of V (dat2 V c) (A_eq2 V c 4) (after2_4 V c) t d
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_5 (c : Dev nD) (t : Fin cfg2.N) (d) : (dat2 V c).before 5 t d = iblk2 V c 5 t :=
  before2_5_of V (dat2 V c) (A_eq2 V c 5) (after2_5 V c) t d
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_6 (c : Dev nD) (t : Fin cfg2.N) (d) : (dat2 V c).before 6 t d = iblk2 V c 6 t :=
  before2_6_of V (dat2 V c) (A_eq2 V c 6) (after2_6 V c) t d

/-- What the body leaves in each input window's buffer: the block, in place. -/
theorem leaves2_0 (c : Dev nD) (t : Fin cfg2.N) :
    (dat2 V c).leavesExact 0 t = owns (c : Thread nD τ) (st2_0 t) fullShare (iblk2 V c 0 t) := by
  unfold Dat.leavesExact; rw [liveAt2_0 t, after2_0]
theorem leaves2_1 (c : Dev nD) (t : Fin cfg2.N) :
    (dat2 V c).leavesExact 1 t = owns (c : Thread nD τ) (st2_1 t) fullShare (iblk2 V c 1 t) := by
  unfold Dat.leavesExact; rw [liveAt2_1 t, after2_1]
theorem leaves2_2 (c : Dev nD) (t : Fin cfg2.N) :
    (dat2 V c).leavesExact 2 t = owns (c : Thread nD τ) (st2_2 t) fullShare (iblk2 V c 2 t) := by
  unfold Dat.leavesExact; rw [liveAt2_2 t, after2_2]
theorem leaves2_3 (c : Dev nD) (t : Fin cfg2.N) :
    (dat2 V c).leavesExact 3 t = owns (c : Thread nD τ) (st2_3 t) fullShare (iblk2 V c 3 t) := by
  unfold Dat.leavesExact; rw [liveAt2_3 t, after2_3]
theorem leaves2_4 (c : Dev nD) (t : Fin cfg2.N) :
    (dat2 V c).leavesExact 4 t = owns (c : Thread nD τ) (st2_4 t) fullShare (iblk2 V c 4 t) := by
  unfold Dat.leavesExact; rw [liveAt2_4 t, after2_4]
theorem leaves2_5 (c : Dev nD) (t : Fin cfg2.N) :
    (dat2 V c).leavesExact 5 t = owns (c : Thread nD τ) (st2_5 t) fullShare (iblk2 V c 5 t) := by
  unfold Dat.leavesExact; rw [liveAt2_5 t, after2_5]
theorem leaves2_6 (c : Dev nD) (t : Fin cfg2.N) :
    (dat2 V c).leavesExact 6 t = owns (c : Thread nD τ) (st2_6 t) fullShare (iblk2 V c 6 t) := by
  unfold Dat.leavesExact; rw [liveAt2_6 t, after2_6]

/-! ## The body's triple on the memrefs the pipeline passes -/

/-- The body as the pipeline calls it at a point that is neither the first nor the last. -/
theorem run2_M (c : Dev nD) (t : Fin cfg2.N) (hc0 : ¬cond2_0 (grid2.coords t)) (hc1 : ¬cond2_1 (grid2.coords t))
    (x0 : Vec F S5000x64 .f32) (x1 : Vec F S5000x64 .bf16) (x2 : Vec F S5000x1 .i32) (x3 : Vec F S128x64 .f32) (x4 : Vec F S1x64 .f32) (x5 : Vec F S64x64 .f32) (x6 : Vec F S1x64 .f32) (d7 : Vec F S256x64 .f32) (s0 : Vec F S256x64 .f32) (s1 : Vec F S1x256 .f32) (K : PUnit → sProp 𝕄) :
    iprop(owns (c : Thread nD τ) (st2_0 t) fullShare x0 ∗ owns (c : Thread nD τ) (st2_1 t) fullShare x1 ∗ owns (c : Thread nD τ) (st2_2 t) fullShare x2 ∗ owns (c : Thread nD τ) (st2_3 t) fullShare x3 ∗ owns (c : Thread nD τ) (st2_4 t) fullShare x4 ∗ owns (c : Thread nD τ) (st2_5 t) fullShare x5 ∗ owns (c : Thread nD τ) (st2_6 t) fullShare x6 ∗ owns (c : Thread nD τ) (st2_7 t) fullShare d7 ∗ (((c : Thread nD τ).loc cc2_scratch0) ↦{fullShare} s0) ∗ (((c : Thread nD τ).loc cc2_scratch1) ↦{fullShare} s1)
        ∗ (iprop(owns (c : Thread nD τ) (st2_0 t) fullShare x0 ∗ owns (c : Thread nD τ) (st2_1 t) fullShare x1 ∗ owns (c : Thread nD τ) (st2_2 t) fullShare x2 ∗ owns (c : Thread nD τ) (st2_3 t) fullShare x3 ∗ owns (c : Thread nD τ) (st2_4 t) fullShare x4 ∗ owns (c : Thread nD τ) (st2_5 t) fullShare x5 ∗ owns (c : Thread nD τ) (st2_6 t) fullShare x6 ∗ owns (c : Thread nD τ) (st2_7 t) fullShare d7
            ∗ (((c : Thread nD τ).loc cc2_scratch0) ↦{fullShare} (k2_pay7 x0 x1 x3 x4 x2 s0 : Vec F S256x64 .f32)) ∗ (((c : Thread nD τ).loc cc2_scratch1) ↦{fullShare} (k2_pay1 (k2_pay6 x2) s1 : Vec F S1x256 .f32))) -∗ K ⟨⟩))
      ⊢ wp frame (wpE (defs₀ (F := F)) Variants.none c none) Set.univ (bodyAt2 (F := F) t) K := by
  have h := sound_kernel2_M (F := F) c Set.univ (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (Memref.whole cc2_scratch0) (Memref.isWhole_whole _) (Memref.whole cc2_scratch1) (Memref.isWhole_whole _) hc0 hc1 x0 x1 x2 x3 x4 x5 x6 d7 s0 s1 K
  simp only [owns_whole] at h
  exact h

/-- The body as the pipeline calls it at the first point. -/
theorem run2_Z (c : Dev nD) (t : Fin cfg2.N) (hc0 : cond2_0 (grid2.coords t)) (hc1 : ¬cond2_1 (grid2.coords t))
    (x0 : Vec F S5000x64 .f32) (x1 : Vec F S5000x64 .bf16) (x2 : Vec F S5000x1 .i32) (x3 : Vec F S128x64 .f32) (x4 : Vec F S1x64 .f32) (x5 : Vec F S64x64 .f32) (x6 : Vec F S1x64 .f32) (d7 : Vec F S256x64 .f32) (K : PUnit → sProp 𝕄) :
    iprop(owns (c : Thread nD τ) (st2_0 t) fullShare x0 ∗ owns (c : Thread nD τ) (st2_1 t) fullShare x1 ∗ owns (c : Thread nD τ) (st2_2 t) fullShare x2 ∗ owns (c : Thread nD τ) (st2_3 t) fullShare x3 ∗ owns (c : Thread nD τ) (st2_4 t) fullShare x4 ∗ owns (c : Thread nD τ) (st2_5 t) fullShare x5 ∗ owns (c : Thread nD τ) (st2_6 t) fullShare x6 ∗ owns (c : Thread nD τ) (st2_7 t) fullShare d7 ∗ (∃ d : Vec F S256x64 .f32, (((c : Thread nD τ).loc cc2_scratch0) ↦{fullShare} d)) ∗ (∃ d : Vec F S1x256 .f32, (((c : Thread nD τ).loc cc2_scratch1) ↦{fullShare} d))
        ∗ (iprop(owns (c : Thread nD τ) (st2_0 t) fullShare x0 ∗ owns (c : Thread nD τ) (st2_1 t) fullShare x1 ∗ owns (c : Thread nD τ) (st2_2 t) fullShare x2 ∗ owns (c : Thread nD τ) (st2_3 t) fullShare x3 ∗ owns (c : Thread nD τ) (st2_4 t) fullShare x4 ∗ owns (c : Thread nD τ) (st2_5 t) fullShare x5 ∗ owns (c : Thread nD τ) (st2_6 t) fullShare x6 ∗ owns (c : Thread nD τ) (st2_7 t) fullShare d7
            ∗ (((c : Thread nD τ).loc cc2_scratch0) ↦{fullShare} (k2_pay7 x0 x1 x3 x4 x2 k2_pay3 : Vec F S256x64 .f32)) ∗ (((c : Thread nD τ).loc cc2_scratch1) ↦{fullShare} (k2_pay1 (k2_pay6 x2) k2_pay4 : Vec F S1x256 .f32))) -∗ K ⟨⟩))
      ⊢ wp frame (wpE (defs₀ (F := F)) Variants.none c none) Set.univ (bodyAt2 (F := F) t) K := by
  have h := sound_kernel2_Z (F := F) c Set.univ (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (Memref.whole cc2_scratch0) (Memref.isWhole_whole _) (Memref.whole cc2_scratch1) (Memref.isWhole_whole _) hc0 hc1 x0 x1 x2 x3 x4 x5 x6 d7 K
  simp only [owns_whole] at h
  exact h

/-- The body as the pipeline calls it at the last point. -/
theorem run2_L (c : Dev nD) (t : Fin cfg2.N) (hc0 : ¬cond2_0 (grid2.coords t)) (hc1 : cond2_1 (grid2.coords t))
    (x0 : Vec F S5000x64 .f32) (x1 : Vec F S5000x64 .bf16) (x2 : Vec F S5000x1 .i32) (x3 : Vec F S128x64 .f32) (x4 : Vec F S1x64 .f32) (x5 : Vec F S64x64 .f32) (x6 : Vec F S1x64 .f32) (s0 : Vec F S256x64 .f32) (s1 : Vec F S1x256 .f32) (K : PUnit → sProp 𝕄) :
    iprop(owns (c : Thread nD τ) (st2_0 t) fullShare x0 ∗ owns (c : Thread nD τ) (st2_1 t) fullShare x1 ∗ owns (c : Thread nD τ) (st2_2 t) fullShare x2 ∗ owns (c : Thread nD τ) (st2_3 t) fullShare x3 ∗ owns (c : Thread nD τ) (st2_4 t) fullShare x4 ∗ owns (c : Thread nD τ) (st2_5 t) fullShare x5 ∗ owns (c : Thread nD τ) (st2_6 t) fullShare x6 ∗ (∃ d, owns (c : Thread nD τ) (st2_7 t) fullShare d) ∗ (((c : Thread nD τ).loc cc2_scratch0) ↦{fullShare} s0) ∗ (((c : Thread nD τ).loc cc2_scratch1) ↦{fullShare} s1)
        ∗ (iprop(owns (c : Thread nD τ) (st2_0 t) fullShare x0 ∗ owns (c : Thread nD τ) (st2_1 t) fullShare x1 ∗ owns (c : Thread nD τ) (st2_2 t) fullShare x2 ∗ owns (c : Thread nD τ) (st2_3 t) fullShare x3 ∗ owns (c : Thread nD τ) (st2_4 t) fullShare x4 ∗ owns (c : Thread nD τ) (st2_5 t) fullShare x5 ∗ owns (c : Thread nD τ) (st2_6 t) fullShare x6 ∗ owns (c : Thread nD τ) (st2_7 t) fullShare (k2_pay2 (k2_pay1 (k2_pay6 x2) s1) (k2_pay7 x0 x1 x3 x4 x2 s0) x5 x6)
            ∗ (((c : Thread nD τ).loc cc2_scratch0) ↦{fullShare} (k2_pay7 x0 x1 x3 x4 x2 s0 : Vec F S256x64 .f32)) ∗ (((c : Thread nD τ).loc cc2_scratch1) ↦{fullShare} (k2_pay1 (k2_pay6 x2) s1 : Vec F S1x256 .f32))) -∗ K ⟨⟩))
      ⊢ wp frame (wpE (defs₀ (F := F)) Variants.none c none) Set.univ (bodyAt2 (F := F) t) K := by
  have h := sound_kernel2_L (F := F) c Set.univ (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (Memref.whole cc2_scratch0) (Memref.isWhole_whole _) (Memref.whole cc2_scratch1) (Memref.isWhole_whole _) hc0 hc1 x0 x1 x2 x3 x4 x5 x6 s0 s1 K
  simp only [owns_whole] at h
  exact h

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t)

set_option maxHeartbeats 4000000 in
/-- The body at any point. The inputs' buffers hold their blocks. At the first point the scratch buffers, at anything,
    are reset and updated: they end at `S2 1`, `C2 1`; the result window is idle and is handed back as found. At a
    point between, the invariant gives the scratch buffers at `S2 t`, `C2 t` and the update leaves `S2 (t + 1)`,
    `C2 (t + 1)`; the result window is idle. At the last point the same, and the result window, live there, is stored
    with the head of the updated scratch buffers. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2
  simp only [before2_0, before2_1, before2_2, before2_3, before2_4, before2_5, before2_6]
  rw [show (dat2 V c).owesAt () t.succ = (dat2 V c).owesAt () t.castSucc from rfl,
    show (dat2 V c).Φ t.castSucc = Φ2 V c t.castSucc from rfl, show (dat2 V c).Φ t.succ = Φ2 V c t.succ from rfl,
    leaves2_0, leaves2_1, leaves2_2, leaves2_3, leaves2_4, leaves2_5, leaves2_6]
  unfold Φ2
  simp only [Fin.coe_castSucc, Fin.val_succ]
  have hN : t.val < 20 := lt_of_lt_of_eq t.isLt (show cfg2.N = 20 from N_2)
  by_cases h0 : t.val = 0
  · have hc0 : cond2_0 (grid2.coords t) := (hcond2_0 t).mpr h0
    have hc1 : ¬cond2_1 (grid2.coords t) := fun h => by have := (hcond2_1 t).mp h; omega
    rw [Dat.leavesExact_idle (dat2 V c) 7 t (idleAt2_7 t hc1) (noFlush2_7 t hc1)]
    iintro ⟨⟨Hrest, Hg, ⟨%f0, %f1, HS0, HS1, %hS⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run2_Z c t hc0 hc1 (iblk2 V c 0 t) (iblk2 V c 1 t) (iblk2 V c 2 t) (iblk2 V c 3 t) (iblk2 V c 4 t) (iblk2 V c 5 t) (iblk2 V c 6 t) ((dat2 V c).before 7 t d7) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexists f0; iexact HS0
    isplitl [HS1]; · iexists f1; iexact HS1
    iintro ⟨H0, H1, H2, H3, H4, H5, H6, H7, HS0, HS1⟩
    isplitl [Hrest Hg HS0 HS1]
    · isplitl [Hrest]; · iexact Hrest
      isplitl [Hg]; · iexact Hg
      iexists _; iexists _
      isplitl [HS0]; · iexact HS0
      isplitl [HS1]; · iexact HS1
      ipureintro; intro _; exact ⟨S2_first V c t h0, C2_first V c t h0⟩
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists d7; iexact H7
  · by_cases h1 : t.val = 19
    · have hc0 : ¬cond2_0 (grid2.coords t) := fun h => h0 ((hcond2_0 t).mp h)
      have hc1 : cond2_1 (grid2.coords t) := (hcond2_1 t).mpr h1
      rw [show (dat2 V c).leavesExact 7 t = owns (c : Thread nD τ) (st2_7 t) fullShare ((dat2 V c).after 7 t) from by
        unfold Dat.leavesExact; rw [liveAt2_7 t hc1], after2_7]
      unfold out2_7
      rw [S2_succ, C2_succ]
      iintro ⟨⟨Hrest, Hg, ⟨%f0, %f1, HS0, HS1, %hS⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
      obtain ⟨rfl, rfl⟩ := hS h0
      iapply (run2_L c t hc0 hc1 (iblk2 V c 0 t) (iblk2 V c 1 t) (iblk2 V c 2 t) (iblk2 V c 3 t) (iblk2 V c 4 t) (iblk2 V c 5 t) (iblk2 V c 6 t) (S2 V c t.val) (C2 V c t.val) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      iintro ⟨H0, H1, H2, H3, H4, H5, H6, H7, HS0, HS1⟩
      isplitl [Hrest Hg HS0 HS1]
      · isplitl [Hrest]; · iexact Hrest
        isplitl [Hg]; · iexact Hg
        iexists _; iexists _
        isplitl [HS0]; · iexact HS0
        isplitl [HS1]; · iexact HS1
        ipureintro; intro _; exact ⟨rfl, rfl⟩
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hc0 : ¬cond2_0 (grid2.coords t) := fun h => h0 ((hcond2_0 t).mp h)
      have hc1 : ¬cond2_1 (grid2.coords t) := fun h => h1 ((hcond2_1 t).mp h)
      rw [Dat.leavesExact_idle (dat2 V c) 7 t (idleAt2_7 t hc1) (noFlush2_7 t hc1)]
      rw [S2_succ, C2_succ]
      iintro ⟨⟨Hrest, Hg, ⟨%f0, %f1, HS0, HS1, %hS⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
      obtain ⟨rfl, rfl⟩ := hS h0
      iapply (run2_M c t hc0 hc1 (iblk2 V c 0 t) (iblk2 V c 1 t) (iblk2 V c 2 t) (iblk2 V c 3 t) (iblk2 V c 4 t) (iblk2 V c 5 t) (iblk2 V c 6 t) ((dat2 V c).before 7 t d7) (S2 V c t.val) (C2 V c t.val) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [Hrest Hg HS0 HS1]
      · isplitl [Hrest]; · iexact Hrest
        isplitl [Hg]; · iexact Hg
        iexists _; iexists _
        isplitl [HS0]; · iexact HS0
        isplitl [HS1]; · iexact HS1
        ipureintro; intro _; exact ⟨rfl, rfl⟩
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists d7; iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Run.lean ====
/-
  The run of @main: its six items — three stretches of host operations and the three kernel regions between
  them — as segments over one thread state, "every unscoped buffer of the core at the boundary's contents, the
  generator register at some state, nothing owed", and the launch over them.  The contents at each boundary are
  the fold of the previous file; here each region is entered from its boundary's contents (its arrays split out
  of the unscoped buffers, put back at the exit contents), each host stretch advances the contents by its own
  operations, and at the end every unscoped buffer of the final memory is read at the last boundary's contents.
  No item writes an argument array, so the fold walks each argument back to the launch memory.
-/
import proofs.«428750_j8675833938328_3_alg».proof.Proof.KI.Fold
import proofs.«428750_j8675833938328_3_alg».proof.Proof.KI.R0
import proofs.«428750_j8675833938328_3_alg».proof.Proof.KI.R1
import proofs.«428750_j8675833938328_3_alg».proof.Proof.KI.R2
import proofs.«428750_j8675833938328_3_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it leaves
    those references at the stretch's operations applied to `W c`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W6 m ρ c) ∗ ∃ r, prngReg c r)

/-! ## The regions as segments -/

-- applying a library lemma stated over the pinned configuration unifies with the printed one only when unification
-- may unfold plain definitions in a metavariable's type
set_option backward.isDefEq.respectTransparency.types false in
/-- REGION 0 over the thread state: entered from every unscoped buffer at `W1`, left at `W2`. Its arrays are
    split out of the unscoped buffers and put back at the exit contents; the generator register goes into the plain
    invariant and comes out of it; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification
-- may unfold plain definitions in a metavariable's type
set_option backward.isDefEq.respectTransparency.types false in
/-- REGION 1 over the thread state: entered from every unscoped buffer at `W3`, left at `W4`. Its arrays are
    split out of the unscoped buffers and put back at the exit contents; the generator register goes into the plain
    invariant and comes out of it; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification
-- may unfold plain definitions in a metavariable's type
set_option backward.isDefEq.respectTransparency.types false in
/-- REGION 2 over the thread state: entered from every unscoped buffer at `W5`, left at `W6`. Its arrays are
    split out of the unscoped buffers and put back at the exit contents; the generator register and the scoped
    buffers no window stages make the plain invariant, from which the tracking one starts and to which it returns;
    nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (V5 m ρ) c).Φ 0 from rfl]
    have hA : iprop((∃ r, prngReg c r) ∗ Pipeline.prefHeld (pcfgs (F := F) 2).pre c (fun _ => fullShare) (adm (F := F) 2).1
          ∗ Pipeline.scopedRest (Pipeline.pin (pcfgs (F := F)) adm 2).spec c)
        ⊢ (Pipeline.ΦA (U := UR sig nD τ) (Val := Elt F) spec2 c : sProp 𝕄) := by
      unfold Pipeline.ΦA
      iintro ⟨Hp, -, Hr⟩
      isplitl [Hr]; · iexact Hr
      iexact Hp
    exact hA.trans (hin2 (V5 m ρ) c)
  hout c := by
    rw [Pipeline.ownSems0_none, show (pdats m ρ 2 c).Φ (Fin.last _) = (dat2 (V5 m ρ) c).Φ (Fin.last cfg2.N) from rfl]
    refine (hout2 (V5 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's six segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
/-- @main IS the run of the segments: it is the chain of its six items, and so is the segments' run. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN: at the compiled mesh, from any memory with zero counters, every weakly fair execution of @main on the
    TensorCores terminates, nothing faulting, and every final memory holds each unscoped buffer of each core at the
    last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun _ h => h)

/-! ## The arguments end as launched

No host operation writes an argument and no region has one as an output window's array, so the fold at an argument's
buffer walks back, boundary by boundary, to the launch memory. -/

/-- `main_arg0` ends as launched: region 0 reads it through an input window, which ends as it was entered; nothing else touches it. -/
theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 1).trans (((dat0 (V1 m ρ) c).arrAt_in 1 rfl _).trans (A_eq0 (V1 m ρ) c 1))
    _ = W0 m ρ c (Proc.devRef .tc main_arg0) := StableHlo.after_of_writes_sub hostOps0 _ hostOps0_writes (by decide)
    _ = m ((c : Thread nD τ).loc main_arg0) := rfl

/-- `main_arg1` ends as launched: no host operation writes it and it is no array of any region. -/
theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

/-- `main_arg2` ends as launched: no host operation writes it and it is no array of any region. -/
theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

/-- `main_arg3` ends as launched: no host operation writes it and it is no array of any region. -/
theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

/-- `main_arg4` ends as launched: no host operation writes it and it is no array of any region. -/
theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

/-- `main_arg5` ends as launched: no host operation writes it and it is no array of any region. -/
theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

/-- `main_arg6` ends as launched: no host operation writes it and it is no array of any region. -/
theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

/-- `main_arg7` ends as launched: no host operation writes it and it is no array of any region. -/
theorem W6_main_arg7 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

/-- `main_arg8` ends as launched: no host operation writes it and it is no array of any region. -/
theorem W6_main_arg8 (c : Dev nD) : W6 m ρ c (Proc.devRef .tc main_arg8) = m ((c : Thread nD τ).loc main_arg8) :=
  calc W6 m ρ c (Proc.devRef .tc main_arg8)
    _ = W5 m ρ c (Proc.devRef .tc main_arg8) := W6_of_ne m ρ c main_arg8 (by decide)
    _ = W4 m ρ c (Proc.devRef .tc main_arg8) := StableHlo.after_of_writes_sub hostOps2 _ hostOps2_writes (by decide)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

/-- `main_arg9` ends as launched: no host operation writes it and it is no array of any region. -/
theorem W6_main_arg9 (c : Dev nD) : W6 m ρ c (Proc.devRef .tc main_arg9) = m ((c : Thread nD τ).loc main_arg9) :=
  calc W6 m ρ c (Proc.devRef .tc main_arg9)
    _ = W5 m ρ c (Proc.devRef .tc main_arg9) := W6_of_ne m ρ c main_arg9 (by decide)
    _ = W4 m ρ c (Proc.devRef .tc main_arg9) := StableHlo.after_of_writes_sub hostOps2 _ hostOps2_writes (by decide)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl

/-- `main_arg10` ends as launched: no host operation writes it and it is no array of any region. -/
theorem W6_main_arg10 (c : Dev nD) : W6 m ρ c (Proc.devRef .tc main_arg10) = m ((c : Thread nD τ).loc main_arg10) :=
  calc W6 m ρ c (Proc.devRef .tc main_arg10)
    _ = W5 m ρ c (Proc.devRef .tc main_arg10) := W6_of_ne m ρ c main_arg10 (by decide)
    _ = W4 m ρ c (Proc.devRef .tc main_arg10) := StableHlo.after_of_writes_sub hostOps2 _ hostOps2_writes (by decide)
    _ = W3 m ρ c (Proc.devRef .tc main_arg10) := W4_of_ne m ρ c main_arg10 (by decide)
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl

/-- `main_arg11` ends as launched: no host operation writes it and it is no array of any region. -/
theorem W6_main_arg11 (c : Dev nD) : W6 m ρ c (Proc.devRef .tc main_arg11) = m ((c : Thread nD τ).loc main_arg11) :=
  calc W6 m ρ c (Proc.devRef .tc main_arg11)
    _ = W5 m ρ c (Proc.devRef .tc main_arg11) := W6_of_ne m ρ c main_arg11 (by decide)
    _ = W4 m ρ c (Proc.devRef .tc main_arg11) := StableHlo.after_of_writes_sub hostOps2 _ hostOps2_writes (by decide)
    _ = W3 m ρ c (Proc.devRef .tc main_arg11) := W4_of_ne m ρ c main_arg11 (by decide)
    _ = W2 m ρ c (Proc.devRef .tc main_arg11) := StableHlo.after_of_writes_sub hostOps1 _ hostOps1_writes (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)
    _ = m ((c : Thread nD τ).loc main_arg11) := rfl

/-- `main_arg12` ends as launched: region 2 reads it through an input window, which ends as it was entered; nothing else touches it. -/
theorem W6_main_arg12 (c : Dev nD) : W6 m ρ c (Proc.devRef .tc main_arg12) = m ((c : Thread nD τ).loc main_arg12) :=
  calc W6 m ρ c (Proc.devRef .tc main_arg12)
    _ = W5 m ρ c (Proc.devRef .tc main_arg12) := (W6_arr m ρ c 5).trans (((dat2 (V5 m ρ) c).arrAt_in 5 rfl _).trans (A_eq2 (V5 m ρ) c 5))
    _ = W4 m ρ c (Proc.devRef .tc main_arg12) := StableHlo.after_of_writes_sub hostOps2 _ hostOps2_writes (by decide)
    _ = W3 m ρ c (Proc.devRef .tc main_arg12) := W4_of_ne m ρ c main_arg12 (by decide)
    _ = W2 m ρ c (Proc.devRef .tc main_arg12) := StableHlo.after_of_writes_sub hostOps1 _ hostOps1_writes (by decide)
    _ = W1 m ρ c (Proc.devRef .tc main_arg12) := W2_of_ne m ρ c main_arg12 (by decide)
    _ = W0 m ρ c (Proc.devRef .tc main_arg12) := StableHlo.after_of_writes_sub hostOps0 _ hostOps0_writes (by decide)
    _ = m ((c : Thread nD τ).loc main_arg12) := rfl

/-- `main_arg13` ends as launched: no host operation writes it and it is no array of any region. -/
theorem W6_main_arg13 (c : Dev nD) : W6 m ρ c (Proc.devRef .tc main_arg13) = m ((c : Thread nD τ).loc main_arg13) :=
  calc W6 m ρ c (Proc.devRef .tc main_arg13)
    _ = W5 m ρ c (Proc.devRef .tc main_arg13) := W6_of_ne m ρ c main_arg13 (by decide)
    _ = W4 m ρ c (Proc.devRef .tc main_arg13) := StableHlo.after_of_writes_sub hostOps2 _ hostOps2_writes (by decide)
    _ = W3 m ρ c (Proc.devRef .tc main_arg13) := W4_of_ne m ρ c main_arg13 (by decide)
    _ = W2 m ρ c (Proc.devRef .tc main_arg13) := StableHlo.after_of_writes_sub hostOps1 _ hostOps1_writes (by decide)
    _ = W1 m ρ c (Proc.devRef .tc main_arg13) := W2_of_ne m ρ c main_arg13 (by decide)
    _ = W0 m ρ c (Proc.devRef .tc main_arg13) := StableHlo.after_of_writes_sub hostOps0 _ hostOps0_writes (by decide)
    _ = m ((c : Thread nD τ).loc main_arg13) := rfl

/-! ## The frame -/

/-- THE FRAME: the run terminates, nothing faulting, and every final memory holds each argument array as launched:
    the run's reading of the final memory at each argument, walked back through the fold. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
   ⟨(h c _ (mem_uc main_arg0 (by decide))).trans (W6_main_arg0 m ρ c),
    (h c _ (mem_uc main_arg1 (by decide))).trans (W6_main_arg1 m ρ c),
    (h c _ (mem_uc main_arg2 (by decide))).trans (W6_main_arg2 m ρ c),
    (h c _ (mem_uc main_arg3 (by decide))).trans (W6_main_arg3 m ρ c),
    (h c _ (mem_uc main_arg4 (by decide))).trans (W6_main_arg4 m ρ c),
    (h c _ (mem_uc main_arg5 (by decide))).trans (W6_main_arg5 m ρ c),
    (h c _ (mem_uc main_arg6 (by decide))).trans (W6_main_arg6 m ρ c),
    (h c _ (mem_uc main_arg7 (by decide))).trans (W6_main_arg7 m ρ c),
    (h c _ (mem_uc main_arg8 (by decide))).trans (W6_main_arg8 m ρ c),
    (h c _ (mem_uc main_arg9 (by decide))).trans (W6_main_arg9 m ρ c),
    (h c _ (mem_uc main_arg10 (by decide))).trans (W6_main_arg10 m ρ c),
    (h c _ (mem_uc main_arg11 (by decide))).trans (W6_main_arg11 m ρ c),
    (h c _ (mem_uc main_arg12 (by decide))).trans (W6_main_arg12 m ρ c),
    (h c _ (mem_uc main_arg13 (by decide))).trans (W6_main_arg13 m ρ c)⟩) (run_main m ρ)

end Cert.KernelIdeal.Hand

end
-- ==== Proof.Spec.lean ====
/-
  The network both programs compute, over the extended reals, written index by index on plain functions.

  A node feature array is a function of a node `n` and a feature `j`.  One graph-convolution layer sends an
  aggregated array `a` and the array `x` itself to
      (∑ k, a n k · Wrel k j  +  b j)  +  ∑ k, x n k · Wroot k j .
  The kernel computes the same number as ONE product of the row `[a n | x n]` of width 128 with the two weight
  matrices stacked on top of each other; `layerCat_stack` is that law: a sum over 128 indices split at 64, then
  addition reordered (commutative and associative on the extended reals, so no finiteness is needed).

  The pooled sum of graph `g` is the sum over all nodes of the node's row where the node's graph id is `g` and of
  `0` elsewhere; the count is the same sum of ones.  The head divides each pooled sum by `max count 1`, multiplies
  by `Wlin` and adds `blin`.
-/
import Idealize.ShloMosaic.PureOps.Ideal
import Idealize.ShloMosaic.Lib.ValueIdx
import Mathlib.Algebra.BigOperators.Fin

noncomputable section

namespace Cert.Spec

open Idealize.ShloMosaic Idealize.ShloMosaic.ValueIdx

/-! ## Arrays and functions of coordinates -/

/-- A rank-2 array read as a function of its two coordinates, -/
def fn2 {a b : ℕ} (A : (⟨2, ![a, b]⟩ : Shape).Idx → EReal) (n : Fin a) (k : Fin b) : EReal := A (ix2 n k)
/-- and a function of two coordinates laid out as a rank-2 array. -/
def arr2 {a b : ℕ} (f : Fin a → Fin b → EReal) : (⟨2, ![a, b]⟩ : Shape).Idx → EReal := fun i => f (i 0) (i 1)
/-- A rank-1 array read as a function of its coordinate. -/
def fn1 {b : ℕ} (A : (⟨1, ![b]⟩ : Shape).Idx → EReal) (j : Fin b) : EReal := A (ix1 j)
/-- The one row of a 1×b array. -/
def row1 {b : ℕ} (A : (⟨2, ![1, b]⟩ : Shape).Idx → EReal) (j : Fin b) : EReal := A (ix2 0 j)
/-- Node `n`'s graph id, a 32-bit word read signed, off a rank-1 id array, -/
def gid (B : (⟨1, ![100000]⟩ : Shape).Idx → BitVec 32) (n : Fin 100000) : ℤ := (B (ix1 n)).toInt
/-- and off the same ids laid out as a column. -/
def gid2 (B : (⟨2, ![100000, 1]⟩ : Shape).Idx → BitVec 32) (n : Fin 100000) : ℤ := (B (ix2 n 0)).toInt

theorem arr2_fn2 {a b : ℕ} (A : (⟨2, ![a, b]⟩ : Shape).Idx → EReal) : arr2 (fn2 A) = A := by
  funext i; exact congrArg A (eq_ix2 i).symm
theorem fn2_arr2 {a b : ℕ} (f : Fin a → Fin b → EReal) : fn2 (arr2 f) = f := rfl
theorem arr2_apply {a b : ℕ} (f : Fin a → Fin b → EReal) (n : Fin a) (k : Fin b) : arr2 f (ix2 n k) = f n k := rfl

/-! ## One layer -/

/-- Row `n` of `[a | x]`: the first 64 entries are `a`'s, the last 64 are `x`'s. -/
def catRow (a x : Fin 100000 → Fin 64 → EReal) (n : Fin 100000) (k : Fin 128) : EReal :=
  if h : k.val < 64 then a n ⟨k.val, h⟩ else x n ⟨k.val - 64, by omega⟩

/-- Two 64×64 matrices stacked: rows 0–63 the first, rows 64–127 the second. -/
def stack (wrel wroot : Fin 64 → Fin 64 → EReal) (k : Fin 128) (j : Fin 64) : EReal :=
  if h : k.val < 64 then wrel ⟨k.val, h⟩ j else wroot ⟨k.val - 64, by omega⟩ j

/-- The layer as the kernel computes it: one product of width 128, then the bias. -/
def layerCat (a x : Fin 100000 → Fin 64 → EReal) (w : Fin 128 → Fin 64 → EReal) (b : Fin 64 → EReal)
    (n : Fin 100000) (j : Fin 64) : EReal :=
  (∑ k : Fin 128, catRow a x n k * w k j) + b j

/-- The layer as the reference computes it: two products of width 64, the bias added to the first. -/
def layer (a x : Fin 100000 → Fin 64 → EReal) (wrel wroot : Fin 64 → Fin 64 → EReal) (b : Fin 64 → EReal)
    (n : Fin 100000) (j : Fin 64) : EReal :=
  ((∑ k : Fin 64, a n k * wrel k j) + b j) + ∑ k : Fin 64, x n k * wroot k j

/-- Entrywise maximum with zero. -/
def relu (h : Fin 100000 → Fin 64 → EReal) (n : Fin 100000) (j : Fin 64) : EReal := max (h n j) 0

/-- A sum over 128 indices is the sum over the first 64 plus the sum over the last 64. -/
theorem sum_fin128_split (f : Fin 128 → EReal) :
    ∑ k : Fin 128, f k = (∑ k : Fin 64, f ⟨k.val, by omega⟩) + ∑ k : Fin 64, f ⟨k.val + 64, by omega⟩ := by
  have h := Fin.sum_univ_add (M := EReal) (a := 64) (b := 64) f
  rw [h]
  congr 1

/-- The kernel's layer over stacked weights is the reference's layer. -/
theorem layerCat_stack (a x : Fin 100000 → Fin 64 → EReal) (wrel wroot : Fin 64 → Fin 64 → EReal) (b : Fin 64 → EReal)
    (n : Fin 100000) (j : Fin 64) :
    layerCat a x (stack wrel wroot) b n j = layer a x wrel wroot b n j := by
  unfold layerCat layer
  rw [sum_fin128_split]
  have h1 : (∑ k : Fin 64, catRow a x n ⟨k.val, by omega⟩ * stack wrel wroot ⟨k.val, by omega⟩ j)
      = ∑ k : Fin 64, a n k * wrel k j := by
    refine Finset.sum_congr rfl fun k _ => ?_
    unfold catRow stack
    simp only [k.isLt, dite_true, Fin.eta]
  have h2 : (∑ k : Fin 64, catRow a x n ⟨k.val + 64, by omega⟩ * stack wrel wroot ⟨k.val + 64, by omega⟩ j)
      = ∑ k : Fin 64, x n k * wroot k j := by
    refine Finset.sum_congr rfl fun k _ => ?_
    unfold catRow stack
    have hk : ¬ (k.val + 64 < 64) := by omega
    simp only [hk, dite_false, Nat.add_sub_cancel, Fin.eta]
  rw [h1, h2, add_assoc, add_comm (∑ k : Fin 64, x n k * wroot k j) (b j), ← add_assoc]

/-- The pooled sum of graph `g`: every node's row counted where its graph id is `g`. -/
def poolSum (gid : Fin 100000 → ℤ) (h : Fin 100000 → Fin 64 → EReal) (g : Fin 256) (j : Fin 64) : EReal :=
  ∑ n : Fin 100000, if gid n = (g.val : ℤ) then h n j else 0

/-- The number of nodes of graph `g`. -/
def poolCnt (gid : Fin 100000 → ℤ) (g : Fin 256) : EReal :=
  ∑ n : Fin 100000, if gid n = (g.val : ℤ) then (1 : EReal) else 0

/-- The head: the mean row of each graph (the sum over `max count 1`) through the last linear map. -/
def head (s : Fin 256 → Fin 64 → EReal) (cnt : Fin 256 → EReal) (wlin : Fin 64 → Fin 64 → EReal) (blin : Fin 64 → EReal)
    (g : Fin 256) (j : Fin 64) : EReal :=
  (∑ k : Fin 64, Ideal.div (s g k) (max (cnt g) 1) * wlin k j) + blin j

/-- The whole network, given how a feature array is aggregated over the edges (`agg`: the same gather and
    scatter-add on both sides, never opened). -/
def net (agg : (Fin 100000 → Fin 64 → EReal) → Fin 100000 → Fin 64 → EReal)
    (x : Fin 100000 → Fin 64 → EReal) (gid : Fin 100000 → ℤ)
    (wrel1 wroot1 : Fin 64 → Fin 64 → EReal) (b1 : Fin 64 → EReal)
    (wrel2 wroot2 : Fin 64 → Fin 64 → EReal) (b2 : Fin 64 → EReal)
    (wrel3 wroot3 : Fin 64 → Fin 64 → EReal) (b3 : Fin 64 → EReal)
    (wlin : Fin 64 → Fin 64 → EReal) (blin : Fin 64 → EReal) : Fin 256 → Fin 64 → EReal :=
  let h1 := relu (layer (agg x) x wrel1 wroot1 b1)
  let h2 := relu (layer (agg h1) h1 wrel2 wroot2 b2)
  let h3 := layer (agg h2) h2 wrel3 wroot3 b3
  head (poolSum gid h3) (poolCnt gid) wlin blin

end Cert.Spec

end
-- ==== Proof.KI.PayDense.lean ====
/-
  The dense stage's payload, read at one entry, over the extended reals.

  A block of 5000 rows of `[a | x]` (width 128, the two halves of width 64 side by side) times the stacked
  weights (128 × 64), accumulated into zero, is at row `r` and column `j` the sum over the 128 contraction
  indices of the row's entry times the weight's; the payload adds the bias row and takes the maximum with zero.
  Every change of format is the identity on extended reals.
-/
import proofs.«428750_j8675833938328_3_alg».proof.Proof.Gen.KernelIdeal.Skeleton
import proofs.«428750_j8675833938328_3_alg».proof.Proof.Spec
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Hand

open Cert.KernelIdeal Cert.KernelIdeal.Gen
open Idealize.ShloMosaic Idealize.ShloMosaic.ValueIdx
open scoped BigOperators

/-! ## The product's operand indices, axis by axis -/

/-- The left operand's row is the result's row, -/
theorem lhs_dense_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- its column the contraction index; -/
theorem lhs_dense_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
/-- the right operand's row is the contraction index, -/
theorem rhs_dense_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
/-- its column the result's column. -/
theorem rhs_dense_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- Row `r` of `[a | x]` at column `k`: `a`'s entry below 64, `x`'s from 64 on. -/
theorem cat_apply (a x : FVec Ideal S5000x64 .bf16) (r : Fin 5000) (k : Fin 128) :
    concatenate S5000x128 1 [⟨S5000x64, a⟩, ⟨S5000x64, x⟩] concatenates_S5000x64_S5000x64_S5000x128_d1 (ix2 r k)
      = if h : k.val < 64 then a (ix2 r ⟨k.val, h⟩) else x (ix2 r ⟨k.val - 64, by omega⟩) := by
  by_cases h : k.val < 64
  · rw [dif_pos h]
    exact concatenate_pair_apply_left 1 a x _ (ix2 r k) rfl (ix2 r ⟨k.val, h⟩) (fun b => match b with
      | ⟨0, _⟩ => rfl
      | ⟨1, _⟩ => rfl)
  · rw [dif_neg h]
    exact concatenate_pair_apply_right 1 a x _ (ix2 r k) rfl rfl (ix2 r ⟨k.val - 64, by omega⟩) (fun b hb => match b, hb with
      | ⟨0, _⟩, _ => rfl
      | ⟨1, _⟩, hb => absurd rfl hb) (by show k.val - 64 + 64 = k.val; omega)

/-- The product of a block of `[a | x]` with the stacked weights, accumulated into zero, at row `r` and column
    `j`: the sum over the 128 contraction indices, the first 64 reading `a`'s row and the last 64 `x`'s. -/
theorem denseBlock_apply (a x : FVec Ideal S5000x64 .bf16) (w : FVec Ideal S128x64 .bf16) (r : Fin 5000) (j : Fin 64) :
    matmul (F := Ideal) dot_S5000x128_S128x64_S5000x64_1_0_0_1_n_n none (concatenate S5000x128 1 [⟨S5000x64, a⟩, ⟨S5000x64, x⟩] concatenates_S5000x64_S5000x64_S5000x128_d1) w (constant (F := Ideal) S5000x64 .f32 0x00000000#32) (ix2 r j)
      = ∑ k : Fin 128, (if h : k.val < 64 then a (ix2 r ⟨k.val, h⟩) else x (ix2 r ⟨k.val - 64, by omega⟩)) * w (ix2 k j) := by
  simp only [matmul]
  rw [Ideal.matmul_constant_zero_apply, ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 r j) ((contrEquiv1 dot_S5000x128_S128x64_S5000x64_1_0_0_1_n_n 128 rfl rfl).symm k) = ix2 r k := funext fun b => Fin.ext (by
    match b with
    | ⟨0, _⟩ => exact lhs_dense_0 _ _
    | ⟨1, _⟩ => exact (lhs_dense_1 _ _).trans hk)
  have er : dot_S5000x128_S128x64_S5000x64_1_0_0_1_n_n.rhsIdx (ix2 r j) ((contrEquiv1 dot_S5000x128_S128x64_S5000x64_1_0_0_1_n_n 128 rfl rfl).symm k) = ix2 k j := funext fun b => Fin.ext (by
    match b with
    | ⟨0, _⟩ => exact (rhs_dense_0 _ _).trans hk
    | ⟨1, _⟩ => exact rhs_dense_1 _ _)
  rw [el, er, cat_apply]

/-- Layer 1's payload at row `r` and column `j`: the product's entry plus the bias, cut off below at zero. -/
theorem k0_pay1_apply (x0 x1 : Vec Ideal S5000x64 .f32) (w : Vec Ideal S128x64 .f32) (b : Vec Ideal S1x64 .f32) (r : Fin 5000) (j : Fin 64) :
    k0_pay1 (F := Ideal) x0 x1 w b (ix2 r j)
      = max ((∑ k : Fin 128, (if h : k.val < 64 then x0 (ix2 r ⟨k.val, h⟩) else x1 (ix2 r ⟨k.val - 64, by omega⟩)) * w (ix2 k j)) + b (ix2 0 j)) 0 := by
  unfold k0_pay1
  simp only [shapeCast_self]
  rw [truncf_apply, maximumf_apply, addf_apply, broadcast_apply, denseBlock_apply]
  have hb : broadcastTo S5000x64 b broadcasts_S1x64_S5000x64 (ix2 r j) = b (ix2 0 j) :=
    broadcastTo_apply b broadcasts_S1x64_S5000x64 (ix2 r j) (ix2 0 j) (fun a => match a with
      | ⟨0, _⟩ => by show (0 : ℕ) = if (1 : ℕ) = 1 then 0 else _; rw [if_pos rfl]
      | ⟨1, _⟩ => by show j.val = if (64 : ℕ) = 1 then 0 else j.val; rw [if_neg (by decide)])
  have hz : FloatOps.ofBits (F := Ideal) FTy.f32 0#32 = (0 : EReal) := Ideal.ofBits_zero_f32
  rw [hb, hz]
  simp only [truncf_apply, shapeCast_self]

/-- Layer 2's payload likewise (its second input already in half precision). -/
theorem k1_pay1_apply (x0 : Vec Ideal S5000x64 .f32) (x1 : Vec Ideal S5000x64 .bf16) (w : Vec Ideal S128x64 .f32) (b : Vec Ideal S1x64 .f32) (r : Fin 5000) (j : Fin 64) :
    k1_pay1 (F := Ideal) x0 x1 w b (ix2 r j)
      = max ((∑ k : Fin 128, (if h : k.val < 64 then x0 (ix2 r ⟨k.val, h⟩) else x1 (ix2 r ⟨k.val - 64, by omega⟩)) * w (ix2 k j)) + b (ix2 0 j)) 0 := by
  unfold k1_pay1
  simp only [shapeCast_self]
  rw [truncf_apply, maximumf_apply, addf_apply, broadcast_apply, denseBlock_apply]
  have hb : broadcastTo S5000x64 b broadcasts_S1x64_S5000x64 (ix2 r j) = b (ix2 0 j) :=
    broadcastTo_apply b broadcasts_S1x64_S5000x64 (ix2 r j) (ix2 0 j) (fun a => match a with
      | ⟨0, _⟩ => by show (0 : ℕ) = if (1 : ℕ) = 1 then 0 else _; rw [if_pos rfl]
      | ⟨1, _⟩ => by show j.val = if (64 : ℕ) = 1 then 0 else j.val; rw [if_neg (by decide)])
  have hz : FloatOps.ofBits (F := Ideal) FTy.f32 0#32 = (0 : EReal) := Ideal.ofBits_zero_f32
  rw [hb, hz]
  simp only [truncf_apply, shapeCast_self]

end Cert.KernelIdeal.Hand

end
-- ==== Proof.KI.Val0.lean ====
/-
  The value of region 0's result array at the ideal instance: the first layer's dense stage, row by row.
-/
import proofs.«428750_j8675833938328_3_alg».proof.Proof.KI.R0
import proofs.«428750_j8675833938328_3_alg».proof.Proof.KI.PayDense
import proofs.«428750_j8675833938328_3_alg».proof.Proof.Spec
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg)

variable (V : (c : Dev nD) → (b : Ref sig .tc) → Buf (Elt Ideal) ((c : Thread nD τ).loc b))

/-! ## One point's block, entry by entry -/

theorem zeroOff0 : (![0, 0] : Fin 2 → Nat) = fun _ => 0 := funext fun a => by fin_cases a <;> rfl

/-- What a point stores, at row `r` and column `j` of its block: the payload there, the loads and the store
    taking whole buffers. -/
theorem out0_4_apply (x0 x1 : Vec Ideal S5000x64 .f32) (w : Vec Ideal S128x64 .f32) (b : Vec Ideal S1x64 .f32)
    (r : Fin 5000) (j : Fin 64) :
    out0_4 (F := Ideal) x0 x1 w b (ix2 r j)
      = max ((∑ k : Fin 128, (if h : k.val < 64 then x0 (ix2 r ⟨k.val, h⟩) else x1 (ix2 r ⟨k.val - 64, by omega⟩)) * w (ix2 k j)) + b (ix2 0 j)) 0 := by
  unfold out0_4
  rw [View.canon_unit_zero zeroOff0]
  simp only [View.ld_unit_zero (S := S5000x64) zeroOff0, View.ld_unit_zero (S := S128x64) zeroOff0, View.ld_unit_zero (S := S1x64) zeroOff0]
  exact k0_pay1_apply x0 x1 w b r j

/-- If row `r` of the two row blocks is row `n` of the arrays `A` and `X`, the stored entry is the layer's entry at
    node `n`. -/
theorem out0_4_layer (A X : S100000x64.Idx → EReal) (W : S128x64.Idx → EReal) (B : S1x64.Idx → EReal)
    (x0 x1 : Vec Ideal S5000x64 .f32) (n : Fin 100000) (r : Fin 5000) (j : Fin 64)
    (h0 : ∀ k : Fin 64, x0 (ix2 r k) = A (ix2 n k)) (h1 : ∀ k : Fin 64, x1 (ix2 r k) = X (ix2 n k)) :
    out0_4 (F := Ideal) x0 x1 W B (ix2 r j)
      = Spec.relu (Spec.layerCat (Spec.fn2 (a := 100000) (b := 64) A) (Spec.fn2 (a := 100000) (b := 64) X)
          (Spec.fn2 (a := 128) (b := 64) W) (Spec.row1 (b := 64) B)) n j := by
  rw [out0_4_apply]
  unfold Spec.relu Spec.layerCat Spec.catRow Spec.fn2 Spec.row1
  congr 2
  refine Finset.sum_congr rfl fun k _ => ?_
  congr 1
  split
  · exact h0 _
  · exact h1 _

/-! ## The printed index maps over the grid -/

/-- Point `t` sees block `(t, 0)` of the two row arrays and of the result, block `(0, 0)` of the weights and the bias. -/
theorem blockIdx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem t_lt0 (t : Fin cfg0.N) : t.val < 20 := t.isLt

/-! ## The input blocks as parts of their arrays -/

/-- Row `r` of the aggregated array's block at point `t` is row `5000·t + r` of the array. -/
theorem iblk0_0_apply (c : Dev nD) (t : Fin cfg0.N) (r : Fin 5000) (k : Fin 64) (n : Fin 100000) (hn : n.val = t.val * 5000 + r.val) :
    (iblk0 (F := Ideal) V c 0 t : Vec Ideal S5000x64 .f32) (ix2 r k) = (V c main_v20 : S100000x64.Idx → EReal) (ix2 n k) := by
  obtain ⟨e0, e1, -⟩ := blockIdx0 t
  unfold iblk0
  rw [View.read_apply]
  show V c main_v20 _ = V c main_v20 _
  congr 1
  funext a
  apply Fin.ext
  match a with
  | ⟨0, _⟩ => show win0_0.index t (0 : Fin 2) * 5000 + 1 * r.val = n.val; rw [e0, hn]; omega
  | ⟨1, _⟩ => show win0_0.index t (1 : Fin 2) * 64 + 1 * k.val = k.val; rw [e1]; omega

/-- Row `r` of the layer input's block at point `t` is row `5000·t + r` of the array. -/
theorem iblk0_1_apply (c : Dev nD) (t : Fin cfg0.N) (r : Fin 5000) (k : Fin 64) (n : Fin 100000) (hn : n.val = t.val * 5000 + r.val) :
    (iblk0 (F := Ideal) V c 1 t : Vec Ideal S5000x64 .f32) (ix2 r k) = (V c main_arg0 : S100000x64.Idx → EReal) (ix2 n k) := by
  obtain ⟨-, -, e0, e1, -⟩ := blockIdx0 t
  unfold iblk0
  rw [View.read_apply]
  show V c main_arg0 _ = V c main_arg0 _
  congr 1
  funext a
  apply Fin.ext
  match a with
  | ⟨0, _⟩ => show win0_1.index t (0 : Fin 2) * 5000 + 1 * r.val = n.val; rw [e0, hn]; omega
  | ⟨1, _⟩ => show win0_1.index t (1 : Fin 2) * 64 + 1 * k.val = k.val; rw [e1]; omega

/-- The weights' one block is the whole stacked matrix. -/
theorem iblk0_2_eq (c : Dev nD) (t : Fin cfg0.N) :
    (iblk0 (F := Ideal) V c 2 t : Vec Ideal S128x64 .f32) = (V c main_v4 : S128x64.Idx → EReal) := by
  obtain ⟨-, -, -, -, e0, e1, -⟩ := blockIdx0 t
  funext y
  unfold iblk0
  rw [View.read_apply]
  show V c main_v4 _ = V c main_v4 _
  congr 1
  funext a
  apply Fin.ext
  match a with
  | ⟨0, _⟩ => show win0_2.index t (0 : Fin 2) * 128 + 1 * (y 0).val = (y 0).val; rw [e0]; omega
  | ⟨1, _⟩ => show win0_2.index t (1 : Fin 2) * 64 + 1 * (y 1).val = (y 1).val; rw [e1]; omega

/-- The bias' one block is the whole row. -/
theorem iblk0_3_eq (c : Dev nD) (t : Fin cfg0.N) :
    (iblk0 (F := Ideal) V c 3 t : Vec Ideal S1x64 .f32) = (V c main_v7 : S1x64.Idx → EReal) := by
  obtain ⟨-, -, -, -, -, -, e0, e1, -⟩ := blockIdx0 t
  funext y
  unfold iblk0
  rw [View.read_apply]
  show V c main_v7 _ = V c main_v7 _
  congr 1
  funext a
  apply Fin.ext
  match a with
  | ⟨0, _⟩ => show win0_3.index t (0 : Fin 2) * 1 + 1 * (y 0).val = (y 0).val; rw [e0]; omega
  | ⟨1, _⟩ => show win0_3.index t (1 : Fin 2) * 64 + 1 * (y 1).val = (y 1).val; rw [e1]; omega

/-! ## From the blocks to the array -/

/-- The layer's result as one array of the four arrays the region finds. -/
abbrev layer0 (c : Dev nD) : S100000x64.Idx → EReal :=
  Spec.arr2 (Spec.relu (Spec.layerCat (Spec.fn2 (a := 100000) (b := 64) (V c main_v20)) (Spec.fn2 (a := 100000) (b := 64) (V c main_arg0))
    (Spec.fn2 (a := 128) (b := 64) (V c main_v4)) (Spec.row1 (b := 64) (V c main_v7))))

/-- What point `t` writes back is block `t` of the layer's result. -/
theorem flushed0_eq (c : Dev nD) (t : Fin cfg0.N) :
    (dat0 (F := Ideal) V c).flushed 4 t = ((cfg0.win 4).blk t).view.read (Elt Ideal) (layer0 V c) := by
  show (cfg0.win 4).cut (grid0.coords t) ((dat0 V c).after 4 t) = _
  rw [after0_4]
  obtain ⟨-, -, -, -, -, -, -, -, e0, e1⟩ := blockIdx0 t
  have ht := t_lt0 t
  funext y
  show out0_4 (iblk0 V c 0 t) (iblk0 V c 1 t) (iblk0 V c 2 t) (iblk0 V c 3 t) (y : S5000x64.Idx) = layer0 V c (((cfg0.win 4).blk t).view.emb y)
  have hr : (y 0).val < 5000 := (y 0).isLt
  have hk : (y 1).val < 64 := (y 1).isLt
  have hemb : ((cfg0.win 4).blk t).view.emb y = (ix2 (⟨t.val * 5000 + (y 0).val, by omega⟩ : Fin 100000) (⟨(y 1).val, hk⟩ : Fin 64) : S100000x64.Idx) := by
    funext a
    apply Fin.ext
    match a with
    | ⟨0, _⟩ => show win0_4.index t (0 : Fin 2) * 5000 + 1 * (y 0).val = t.val * 5000 + (y 0).val; rw [e0]; omega
    | ⟨1, _⟩ => show win0_4.index t (1 : Fin 2) * 64 + 1 * (y 1).val = (y 1).val; rw [e1]; omega
  have hy : (y : S5000x64.Idx) = ix2 (⟨(y 0).val, hr⟩ : Fin 5000) (⟨(y 1).val, hk⟩ : Fin 64) := eq_ix2 (y : S5000x64.Idx)
  refine (congrArg (out0_4 (iblk0 V c 0 t) (iblk0 V c 1 t) (iblk0 V c 2 t) (iblk0 V c 3 t)) hy).trans ?_
  refine Eq.trans ?_ (congrArg (layer0 V c) hemb).symm
  rw [iblk0_2_eq, iblk0_3_eq]
  exact out0_4_layer (V c main_v20) (V c main_arg0) (V c main_v4) (V c main_v7) (iblk0 V c 0 t) (iblk0 V c 1 t) _ _ _
    (fun k => iblk0_0_apply V c t _ k _ rfl) (fun k => iblk0_1_apply V c t _ k _ rfl)

/-- An index of the result array is in point `t`'s block iff each coordinate is in the block's range on its axis. -/
theorem mem_blk0 (t : Fin cfg0.N) (i : S100000x64.Idx) :
    i ∈ ((cfg0.win 4).blk t).view.set ↔ ∀ a : Fin 2, win0_4.index t a * S5000x64.size a ≤ (i a).val ∧ (i a).val < win0_4.index t a * S5000x64.size a + S5000x64.size a := by
  show i ∈ ((View.whole main_v21).slice (win0_4.rect t)).set ↔ _
  rw [View.set_slice_whole, Rect.mem_set_unit]
  exact Iff.rfl

/-- Every entry of the result array is in some point's block: row `n` in point `n / 5000`'s. -/
theorem cover0 (i : S100000x64.Idx) : ∃ t : Fin cfg0.N, (cfg0.win 4).flush t = true ∧ i ∈ ((cfg0.win 4).blk t).view.set := by
  have hi0 : (i 0).val < 100000 := (i 0).isLt
  have hi1 : (i 1).val < 64 := (i 1).isLt
  let t : Fin cfg0.N := ⟨(i 0).val / 5000, by show (i 0).val / 5000 < 20; omega⟩
  obtain ⟨-, -, -, -, -, -, -, -, e0, e1⟩ := blockIdx0 t
  have hv : t.val = (i 0).val / 5000 := rfl
  refine ⟨t, flush0_4 t, ?_⟩
  rw [mem_blk0]
  intro a
  match a with
  | ⟨0, _⟩ => show win0_4.index t (0 : Fin 2) * 5000 ≤ (i 0).val ∧ (i 0).val < win0_4.index t (0 : Fin 2) * 5000 + 5000; rw [e0, hv]; omega
  | ⟨1, _⟩ => show win0_4.index t (1 : Fin 2) * 64 ≤ (i 1).val ∧ (i 1).val < win0_4.index t (1 : Fin 2) * 64 + 64; rw [e1]; omega

/-- Region 0's result array after the region: row `n`, feature `j` is `max (([a n | x n] · W) j + b j) 0`, where `a`
    is the aggregated array, `x` the layer's input, `W` the stacked weights and `b` the bias row as the region
    finds them. Each of the 20 points writes rows 5000·t … 5000·t+4999, and together they cover the array. -/
theorem final0 (c : Dev nD) :
    ((dat0 (F := Ideal) V c).arrAt 4 cfg0.N : S100000x64.Idx → EReal)
      = Spec.arr2 (Spec.relu (Spec.layerCat (Spec.fn2 (a := 100000) (b := 64) (V c main_v20)) (Spec.fn2 (a := 100000) (b := 64) (V c main_arg0))
          (Spec.fn2 (a := 128) (b := 64) (V c main_v4)) (Spec.row1 (b := 64) (V c main_v7)))) :=
  (dat0 (F := Ideal) V c).arrAt_eq_of_cover 4 (layer0 V c) (fun t _ => flushed0_eq V c t) cover0

end Cert.KernelIdeal.Hand

end
-- ==== Proof.KI.Val1.lean ====
/-
  The value of region 1's result array at the ideal instance: the second layer's dense stage, row by row.
-/
import proofs.«428750_j8675833938328_3_alg».proof.Proof.KI.R1
import proofs.«428750_j8675833938328_3_alg».proof.Proof.KI.PayDense
import proofs.«428750_j8675833938328_3_alg».proof.Proof.Spec
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg)

variable (V : (c : Dev nD) → (b : Ref sig .tc) → Buf (Elt Ideal) ((c : Thread nD τ).loc b))

/-! ## One point's block, entry by entry -/

theorem zeroOff1 : (![0, 0] : Fin 2 → Nat) = fun _ => 0 := funext fun a => by fin_cases a <;> rfl

/-- What a point stores, at row `r` and column `j` of its block: the payload there, the loads and the store
    taking whole buffers. -/
theorem out1_4_apply (x0 : Vec Ideal S5000x64 .f32) (x1 : Vec Ideal S5000x64 .bf16) (w : Vec Ideal S128x64 .f32) (b : Vec Ideal S1x64 .f32)
    (r : Fin 5000) (j : Fin 64) :
    out1_4 (F := Ideal) x0 x1 w b (ix2 r j)
      = max ((∑ k : Fin 128, (if h : k.val < 64 then x0 (ix2 r ⟨k.val, h⟩) else x1 (ix2 r ⟨k.val - 64, by omega⟩)) * w (ix2 k j)) + b (ix2 0 j)) 0 := by
  unfold out1_4
  rw [View.canon_unit_zero zeroOff1]
  simp only [View.ld_unit_zero (S := S5000x64) zeroOff1, View.ld_unit_zero (S := S128x64) zeroOff1, View.ld_unit_zero (S := S1x64) zeroOff1]
  exact k1_pay1_apply x0 x1 w b r j

/-- If row `r` of the two row blocks is row `n` of the arrays `A` and `X`, the stored entry is the layer's entry at
    node `n`. -/
theorem out1_4_layer (A X : S100000x64.Idx → EReal) (W : S128x64.Idx → EReal) (B : S1x64.Idx → EReal)
    (x0 : Vec Ideal S5000x64 .f32) (x1 : Vec Ideal S5000x64 .bf16) (n : Fin 100000) (r : Fin 5000) (j : Fin 64)
    (h0 : ∀ k : Fin 64, x0 (ix2 r k) = A (ix2 n k)) (h1 : ∀ k : Fin 64, x1 (ix2 r k) = X (ix2 n k)) :
    out1_4 (F := Ideal) x0 x1 W B (ix2 r j)
      = Spec.relu (Spec.layerCat (Spec.fn2 (a := 100000) (b := 64) A) (Spec.fn2 (a := 100000) (b := 64) X)
          (Spec.fn2 (a := 128) (b := 64) W) (Spec.row1 (b := 64) B)) n j := by
  rw [out1_4_apply]
  unfold Spec.relu Spec.layerCat Spec.catRow Spec.fn2 Spec.row1
  congr 2
  refine Finset.sum_congr rfl fun k _ => ?_
  congr 1
  split
  · exact h0 _
  · exact h1 _

/-! ## The printed index maps over the grid -/

/-- Point `t` sees block `(t, 0)` of the two row arrays and of the result, block `(0, 0)` of the weights and the bias. -/
theorem blockIdx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem t_lt1 (t : Fin cfg1.N) : t.val < 20 := t.isLt

/-! ## The input blocks as parts of their arrays -/

/-- Row `r` of the aggregated array's block at point `t` is row `5000·t + r` of the array. -/
theorem iblk1_0_apply (c : Dev nD) (t : Fin cfg1.N) (r : Fin 5000) (k : Fin 64) (n : Fin 100000) (hn : n.val = t.val * 5000 + r.val) :
    (iblk1 (F := Ideal) V c 0 t : Vec Ideal S5000x64 .f32) (ix2 r k) = (V c main_v32 : S100000x64.Idx → EReal) (ix2 n k) := by
  obtain ⟨e0, e1, -⟩ := blockIdx1 t
  unfold iblk1
  rw [View.read_apply]
  show V c main_v32 _ = V c main_v32 _
  congr 1
  funext a
  apply Fin.ext
  match a with
  | ⟨0, _⟩ => show win1_0.index t (0 : Fin 2) * 5000 + 1 * r.val = n.val; rw [e0, hn]; omega
  | ⟨1, _⟩ => show win1_0.index t (1 : Fin 2) * 64 + 1 * k.val = k.val; rw [e1]; omega

/-- Row `r` of the layer input's block at point `t` is row `5000·t + r` of the array. -/
theorem iblk1_1_apply (c : Dev nD) (t : Fin cfg1.N) (r : Fin 5000) (k : Fin 64) (n : Fin 100000) (hn : n.val = t.val * 5000 + r.val) :
    (iblk1 (F := Ideal) V c 1 t : Vec Ideal S5000x64 .bf16) (ix2 r k) = (V c main_v21 : S100000x64.Idx → EReal) (ix2 n k) := by
  obtain ⟨-, -, e0, e1, -⟩ := blockIdx1 t
  unfold iblk1
  rw [View.read_apply]
  show V c main_v21 _ = V c main_v21 _
  congr 1
  funext a
  apply Fin.ext
  match a with
  | ⟨0, _⟩ => show win1_1.index t (0 : Fin 2) * 5000 + 1 * r.val = n.val; rw [e0, hn]; omega
  | ⟨1, _⟩ => show win1_1.index t (1 : Fin 2) * 64 + 1 * k.val = k.val; rw [e1]; omega

/-- The weights' one block is the whole stacked matrix. -/
theorem iblk1_2_eq (c : Dev nD) (t : Fin cfg1.N) :
    (iblk1 (F := Ideal) V c 2 t : Vec Ideal S128x64 .f32) = (V c main_v5 : S128x64.Idx → EReal) := by
  obtain ⟨-, -, -, -, e0, e1, -⟩ := blockIdx1 t
  funext y
  unfold iblk1
  rw [View.read_apply]
  show V c main_v5 _ = V c main_v5 _
  congr 1
  funext a
  apply Fin.ext
  match a with
  | ⟨0, _⟩ => show win1_2.index t (0 : Fin 2) * 128 + 1 * (y 0).val = (y 0).val; rw [e0]; omega
  | ⟨1, _⟩ => show win1_2.index t (1 : Fin 2) * 64 + 1 * (y 1).val = (y 1).val; rw [e1]; omega

/-- The bias' one block is the whole row. -/
theorem iblk1_3_eq (c : Dev nD) (t : Fin cfg1.N) :
    (iblk1 (F := Ideal) V c 3 t : Vec Ideal S1x64 .f32) = (V c main_v8 : S1x64.Idx → EReal) := by
  obtain ⟨-, -, -, -, -, -, e0, e1, -⟩ := blockIdx1 t
  funext y
  unfold iblk1
  rw [View.read_apply]
  show V c main_v8 _ = V c main_v8 _
  congr 1
  funext a
  apply Fin.ext
  match a with
  | ⟨0, _⟩ => show win1_3.index t (0 : Fin 2) * 1 + 1 * (y 0).val = (y 0).val; rw [e0]; omega
  | ⟨1, _⟩ => show win1_3.index t (1 : Fin 2) * 64 + 1 * (y 1).val = (y 1).val; rw [e1]; omega

/-! ## From the blocks to the array -/

/-- The layer's result as one array of the four arrays the region finds. -/
abbrev layer1 (c : Dev nD) : S100000x64.Idx → EReal :=
  Spec.arr2 (Spec.relu (Spec.layerCat (Spec.fn2 (a := 100000) (b := 64) (V c main_v32)) (Spec.fn2 (a := 100000) (b := 64) (V c main_v21))
    (Spec.fn2 (a := 128) (b := 64) (V c main_v5)) (Spec.row1 (b := 64) (V c main_v8))))

/-- What point `t` writes back is block `t` of the layer's result. -/
theorem flushed1_eq (c : Dev nD) (t : Fin cfg1.N) :
    (dat1 (F := Ideal) V c).flushed 4 t = ((cfg1.win 4).blk t).view.read (Elt Ideal) (layer1 V c) := by
  show (cfg1.win 4).cut (grid1.coords t) ((dat1 V c).after 4 t) = _
  rw [after1_4]
  obtain ⟨-, -, -, -, -, -, -, -, e0, e1⟩ := blockIdx1 t
  have ht := t_lt1 t
  funext y
  show out1_4 (iblk1 V c 0 t) (iblk1 V c 1 t) (iblk1 V c 2 t) (iblk1 V c 3 t) (y : S5000x64.Idx) = layer1 V c (((cfg1.win 4).blk t).view.emb y)
  have hr : (y 0).val < 5000 := (y 0).isLt
  have hk : (y 1).val < 64 := (y 1).isLt
  have hemb : ((cfg1.win 4).blk t).view.emb y = (ix2 (⟨t.val * 5000 + (y 0).val, by omega⟩ : Fin 100000) (⟨(y 1).val, hk⟩ : Fin 64) : S100000x64.Idx) := by
    funext a
    apply Fin.ext
    match a with
    | ⟨0, _⟩ => show win1_4.index t (0 : Fin 2) * 5000 + 1 * (y 0).val = t.val * 5000 + (y 0).val; rw [e0]; omega
    | ⟨1, _⟩ => show win1_4.index t (1 : Fin 2) * 64 + 1 * (y 1).val = (y 1).val; rw [e1]; omega
  have hy : (y : S5000x64.Idx) = ix2 (⟨(y 0).val, hr⟩ : Fin 5000) (⟨(y 1).val, hk⟩ : Fin 64) := eq_ix2 (y : S5000x64.Idx)
  refine (congrArg (out1_4 (iblk1 V c 0 t) (iblk1 V c 1 t) (iblk1 V c 2 t) (iblk1 V c 3 t)) hy).trans ?_
  refine Eq.trans ?_ (congrArg (layer1 V c) hemb).symm
  rw [iblk1_2_eq, iblk1_3_eq]
  exact out1_4_layer (V c main_v32) (V c main_v21) (V c main_v5) (V c main_v8) (iblk1 V c 0 t) (iblk1 V c 1 t) _ _ _
    (fun k => iblk1_0_apply V c t _ k _ rfl) (fun k => iblk1_1_apply V c t _ k _ rfl)

/-- An index of the result array is in point `t`'s block iff each coordinate is in the block's range on its axis. -/
theorem mem_blk1 (t : Fin cfg1.N) (i : S100000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v33).slice (win1_4.rect t)).set ↔ _
  rw [View.set_slice_whole, Rect.mem_set_unit]
  exact Iff.rfl

/-- Every entry of the result array is in some point's block: row `n` in point `n / 5000`'s. -/
theorem cover1 (i : S100000x64.Idx) : ∃ t : Fin cfg1.N, (cfg1.win 4).flush t = true ∧ i ∈ ((cfg1.win 4).blk t).view.set := by
  have hi0 : (i 0).val < 100000 := (i 0).isLt
  have hi1 : (i 1).val < 64 := (i 1).isLt
  let t : Fin cfg1.N := ⟨(i 0).val / 5000, by show (i 0).val / 5000 < 20; omega⟩
  obtain ⟨-, -, -, -, -, -, -, -, e0, e1⟩ := blockIdx1 t
  have hv : t.val = (i 0).val / 5000 := rfl
  refine ⟨t, flush1_4 t, ?_⟩
  rw [mem_blk1]
  intro a
  match a with
  | ⟨0, _⟩ => show win1_4.index t (0 : Fin 2) * 5000 ≤ (i 0).val ∧ (i 0).val < win1_4.index t (0 : Fin 2) * 5000 + 5000; rw [e0, hv]; omega
  | ⟨1, _⟩ => show win1_4.index t (1 : Fin 2) * 64 ≤ (i 1).val ∧ (i 1).val < win1_4.index t (1 : Fin 2) * 64 + 64; rw [e1]; omega

/-- Region 1's result array after the region: row `n`, feature `j` is `max (([a n | x n] · W) j + b j) 0`, where `a`
    is the aggregated array, `x` the layer's input, `W` the stacked weights and `b` the bias row as the region
    finds them. Each of the 20 points writes rows 5000·t … 5000·t+4999, and together they cover the array. -/
theorem final1 (c : Dev nD) :
    ((dat1 (F := Ideal) V c).arrAt 4 cfg1.N : S100000x64.Idx → EReal)
      = Spec.arr2 (Spec.relu (Spec.layerCat (Spec.fn2 (a := 100000) (b := 64) (V c main_v32)) (Spec.fn2 (a := 100000) (b := 64) (V c main_v21))
          (Spec.fn2 (a := 128) (b := 64) (V c main_v5)) (Spec.row1 (b := 64) (V c main_v8)))) :=
  (dat1 (F := Ideal) V c).arrAt_eq_of_cover 4 (layer1 V c) (fun t _ => flushed1_eq V c t) cover1

end Cert.KernelIdeal.Hand

end
-- ==== Proof.LibScatterRows.lean ====
/-
  Host scatter-add read at an element, for the two segment sums of an `[N, D]` array and of an `[N]` array by
  an id column of shape `[N, 1]` into `G` segments.

  At the ideal instance a host scatter-add is, at each operand element, the operand's value plus the sum of the
  update elements whose result index is that element. For the row scatter (update window axis 1, inserted window
  axis 0, the one scatter index component going to operand axis 0, the index vector on axis 1 of the id column)
  update element `(n, j')` lands on operand element `(g, j)` exactly when row `n`'s id, read signed, is `g` and
  `j' = j`; so element `(g, j)` of the result is the operand's plus the sum over the rows `n` with id `g` of
  `upd (n, j)`. The vector scatter (no window axis) is the same without the column. An id outside `[0, G)` lands
  nowhere: its update is dropped.

  Last, two small facts a block-wise one-hot accumulation meets: the 32-bit word equality `w = g` against a small
  natural `g` is the signed reading `w.toInt = g`; and a double sum over `a` blocks of `b` rows is the single sum
  over the `a * b` rows, row `n` in block `n / b` at position `n % b`.
-/
import Idealize.ShloMosaic.PureOps.Ideal
import Idealize.ShloMosaic.Lib.ValueIdx
import Mathlib.Logic.Equiv.Fin.Basic

noncomputable section

open scoped BigOperators

namespace Cert.LibScatterRows

open Idealize.ShloMosaic Idealize.ShloMosaic.ValueIdx

/-! ## The result index, for any scatter -/

/-- A scatter's result index for update index `jj` is `i` exactly when, on every operand axis, the
    start (read signed) plus the window coordinate is `i`'s coordinate: the range test of
    `ScatterDims.resultIdx?` is then met by `i`'s own bounds, and an update that fails it lands nowhere. -/
theorem resultIdx?_eq_some_iff {s si u : Shape} (d : ScatterDims s si u) {w : Nat} (jj : u.Idx) (idx : IVec si w)
    (i : s.Idx) :
    d.resultIdx? jj idx = some i ↔ ∀ a, d.start jj idx a + ((d.window jj a : ℕ) : ℤ) = (((i a).val : ℕ) : ℤ) := by
  unfold ScatterDims.resultIdx?
  split_ifs with h
  · constructor
    · intro hf a
      have e := congrArg Fin.val (congrFun (Option.some.inj hf) a)
      have e' : (d.start jj idx a + ((d.window jj a : ℕ) : ℤ)).toNat = (i a).val := e
      have := (h a).1
      omega
    · intro hall
      congr 1
      funext a
      apply Fin.ext
      show (d.start jj idx a + ((d.window jj a : ℕ) : ℤ)).toNat = (i a).val
      have := hall a
      omega
  · constructor
    · intro hf; cases hf
    · intro hall
      exfalso
      apply h
      intro a
      have := hall a
      have := (i a).isLt
      constructor <;> omega

/-! ## A rank-1 index set is its one coordinate range -/

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The row scatter: `[N, D]` updates into `[G, D]` by an `[N, 1]` id column -/

section Rows
variable {G D N : Nat}

/-- The operand shape `[G, D]`. -/
abbrev sR (G D : Nat) : Shape := ⟨2, ![G, D]⟩
/-- The id column's shape `[N, 1]`. -/
abbrev siR (N : Nat) : Shape := ⟨2, ![N, 1]⟩
/-- The updates' shape `[N, D]`. -/
abbrev uR (N D : Nat) : Shape := ⟨2, ![N, D]⟩

/-- The start index of update element `(n', j')` is read at `(n', 0)` of the id column, whatever the component. -/
theorem siIdx_rows (wf : ScatterDims.WF (sR G D) (siR N) (uR N D) [1] [0] [0] 1)
    (n' : Fin N) (j' : Fin D) (c) :
    (⟨[1], [0], [0], 1, wf⟩ : ScatterDims (sR G D) (siR N) (uR N D)).siIdx (ix2 n' j') c = ix2 n' 0 := by
  funext b
  match b with
  | ⟨0, _⟩ => rfl
  | ⟨1, _⟩ =>
    apply Fin.ext
    simp [ScatterDims.siIdx]

/-- On operand axis 0 the window starts at row `n'`'s id, read signed. -/
theorem start_rows0 {w : Nat} (wf : ScatterDims.WF (sR G D) (siR N) (uR N D) [1] [0] [0] 1)
    (idx : IVec (siR N) w) (n' : Fin N) (j' : Fin D) :
    (⟨[1], [0], [0], 1, wf⟩ : ScatterDims (sR G D) (siR N) (uR N D)).start (ix2 n' j') idx 0
      = (idx (ix2 n' 0)).toInt := by
  unfold ScatterDims.start
  rw [dif_pos (by simp)]
  rw [siIdx_rows]

/-- On operand axis 1, which the index map does not name, the window starts at 0. -/
theorem start_rows1 {w : Nat} (wf : ScatterDims.WF (sR G D) (siR N) (uR N D) [1] [0] [0] 1)
    (idx : IVec (siR N) w) (n' : Fin N) (j' : Fin D) :
    (⟨[1], [0], [0], 1, wf⟩ : ScatterDims (sR G D) (siR N) (uR N D)).start (ix2 n' j') idx 1 = 0 := by
  unfold ScatterDims.start
  rw [dif_neg (by simp)]

/-- Operand axis 0 is an inserted window axis: its window coordinate is 0. -/
theorem window_rows0 (wf : ScatterDims.WF (sR G D) (siR N) (uR N D) [1] [0] [0] 1)
    (n' : Fin N) (j' : Fin D) :
    (⟨[1], [0], [0], 1, wf⟩ : ScatterDims (sR G D) (siR N) (uR N D)).window (ix2 n' j') 0 = 0 := by
  unfold ScatterDims.window
  rw [dif_neg (by show (0 : Fin 2) ∉ ([1] : List (Fin 2)); decide)]

/-- Operand axis 1 takes the update's window axis 1: its window coordinate is the update's column. -/
theorem window_rows1 (wf : ScatterDims.WF (sR G D) (siR N) (uR N D) [1] [0] [0] 1)
    (n' : Fin N) (j' : Fin D) :
    (⟨[1], [0], [0], 1, wf⟩ : ScatterDims (sR G D) (siR N) (uR N D)).window (ix2 n' j') 1 = j'.val := by
  unfold ScatterDims.window
  rw [dif_pos (by show (1 : Fin 2) ∈ ([1] : List (Fin 2)); decide)]
  rfl

/-- The row scatter's result index, at dimension numbers given by their literals: update row `n'`, column `j'`
    lands on operand row `g`, column `j` exactly when row `n'`'s id, read signed, is `g` and the columns agree. -/
theorem resultIdx?_rows_lit {w : Nat} (wf : ScatterDims.WF (sR G D) (siR N) (uR N D) [1] [0] [0] 1)
    (idx : IVec (siR N) w) (n' : Fin N) (j' : Fin D) (g : Fin G) (j : Fin D) :
    (⟨[1], [0], [0], 1, wf⟩ : ScatterDims (sR G D) (siR N) (uR N D)).resultIdx? (ix2 n' j') idx = some (ix2 g j)
      ↔ (idx (ix2 n' 0)).toInt = (g.val : ℤ) ∧ j' = j := by
  have s0 := start_rows0 wf idx n' j'
  have s1 := start_rows1 wf idx n' j'
  have w0 := window_rows0 wf n' j'
  have w1 := window_rows1 wf n' j'
  rw [resultIdx?_eq_some_iff]
  constructor
  · intro h
    have h0 := h 0
    have h1 := h 1
    rw [s0, w0] at h0
    rw [s1, w1] at h1
    have h0' : (idx (ix2 n' 0)).toInt + ((0 : ℕ) : ℤ) = ((g.val : ℕ) : ℤ) := h0
    have h1' : (0 : ℤ) + ((j'.val : ℕ) : ℤ) = ((j.val : ℕ) : ℤ) := h1
    exact ⟨by omega, Fin.ext (by omega)⟩
  · rintro ⟨hg, rfl⟩
    refine Fin.forall_fin_two.2 ⟨?_, ?_⟩
    · rw [s0, w0]
      show (idx (ix2 n' 0)).toInt + ((0 : ℕ) : ℤ) = ((g.val : ℕ) : ℤ)
      omega
    · rw [s1, w1]
      show (0 : ℤ) + ((j'.val : ℕ) : ℤ) = ((j'.val : ℕ) : ℤ)
      omega

/-- The row scatter's result index, for any record with these dimension numbers (each hypothesis is `rfl` for a
    record defined by the four literals): update row `n'`, column `j'` lands on operand row `g`, column `j` exactly
    when row `n'`'s id, read signed and not clamped, is `g` and the columns agree. -/
theorem resultIdx?_rows {w : Nat} (d : ScatterDims (⟨2, ![G, D]⟩ : Shape) (⟨2, ![N, 1]⟩ : Shape) (⟨2, ![N, D]⟩ : Shape))
    (h1 : d.updateWindowDims = [1]) (h2 : d.insertedWindowDims = [0]) (h3 : d.scatterDimsToOperandDims = [0])
    (h4 : d.indexVectorDim = 1) (idx : IVec (⟨2, ![N, 1]⟩ : Shape) w) (n' : Fin N) (j' : Fin D) (g : Fin G) (j : Fin D) :
    d.resultIdx? (ix2 n' j') idx = some (ix2 g j) ↔ (idx (ix2 n' 0)).toInt = (g.val : ℤ) ∧ j' = j := by
  obtain ⟨uw, iw, sd, iv, wf⟩ := d
  dsimp only at h1 h2 h3 h4
  subst h1 h2 h3 h4
  exact resultIdx?_rows_lit wf idx n' j' g j

/-- The row segment sum: element `(g, j)` of the scatter-add is the operand's plus the sum, over the rows whose id
    (read signed) is `g`, of the update's element in column `j`. A row whose id is outside `[0, G)` is dropped. -/
theorem hostScatterAdd_rows {w : Nat} (d : ScatterDims (⟨2, ![G, D]⟩ : Shape) (⟨2, ![N, 1]⟩ : Shape) (⟨2, ![N, D]⟩ : Shape))
    (h1 : d.updateWindowDims = [1]) (h2 : d.insertedWindowDims = [0]) (h3 : d.scatterDimsToOperandDims = [0])
    (h4 : d.indexVectorDim = 1) (x : (⟨2, ![G, D]⟩ : Shape).Idx → EReal) (idx : IVec (⟨2, ![N, 1]⟩ : Shape) w)
    (upd : (⟨2, ![N, D]⟩ : Shape).Idx → EReal) (g : Fin G) (j : Fin D) :
    Ideal.hostScatterAdd d x idx upd (ix2 g j)
      = x (ix2 g j) + ∑ n : Fin N, if (idx (ix2 n 0)).toInt = (g.val : ℤ) then upd (ix2 n j) else 0 := by
  unfold Ideal.hostScatterAdd
  congr 1
  rw [Finset.sum_filter, sum_idx2]
  refine Finset.sum_congr rfl fun n _ => ?_
  have hcond : ∀ j' : Fin D,
      (if d.resultIdx? (ix2 n j') idx = some (ix2 g j) then upd (ix2 n j') else 0)
        = if (idx (ix2 n 0)).toInt = (g.val : ℤ) ∧ j' = j then upd (ix2 n j') else 0 :=
    fun j' => if_congr (resultIdx?_rows d h1 h2 h3 h4 idx n j' g j) rfl rfl
  rw [Finset.sum_congr rfl fun j' _ => hcond j']
  by_cases hc : (idx (ix2 n 0)).toInt = (g.val : ℤ)
  · rw [if_pos hc]
    have hin : ∀ j' : Fin D,
        (if (idx (ix2 n 0)).toInt = (g.val : ℤ) ∧ j' = j then upd (ix2 n j') else 0)
          = if j' = j then upd (ix2 n j') else 0 :=
      fun j' => if_congr (and_iff_right hc) rfl rfl
    rw [Finset.sum_congr rfl fun j' _ => hin j', Finset.sum_ite_eq', if_pos (Finset.mem_univ j)]
  · rw [if_neg hc]
    have hout : ∀ j' : Fin D,
        (if (idx (ix2 n 0)).toInt = (g.val : ℤ) ∧ j' = j then upd (ix2 n j') else 0) = 0 :=
      fun j' => if_neg fun h => hc h.1
    rw [Finset.sum_congr rfl fun j' _ => hout j', Finset.sum_const_zero]

end Rows

/-! ## The vector scatter: `[N]` updates into `[G]` by an `[N, 1]` id column -/

section Vec
variable {G N : Nat}

/-- The operand shape `[G]`. -/
abbrev sV (G : Nat) : Shape := ⟨1, ![G]⟩
/-- The updates' shape `[N]`. -/
abbrev uV (N : Nat) : Shape := ⟨1, ![N]⟩

/-- The start index of update element `n'` is read at `(n', 0)` of the id column, whatever the component. -/
theorem siIdx_vec (wf : ScatterDims.WF (sV G) (siR N) (uV N) [] [0] [0] 1) (n' : Fin N) (c) :
    (⟨[], [0], [0], 1, wf⟩ : ScatterDims (sV G) (siR N) (uV N)).siIdx (ix1 n') c = ix2 n' 0 := by
  funext b
  match b with
  | ⟨0, _⟩ => rfl
  | ⟨1, _⟩ =>
    apply Fin.ext
    simp [ScatterDims.siIdx]

/-- On the operand's one axis the window starts at element `n'`'s id, read signed. -/
theorem start_vec {w : Nat} (wf : ScatterDims.WF (sV G) (siR N) (uV N) [] [0] [0] 1)
    (idx : IVec (siR N) w) (n' : Fin N) :
    (⟨[], [0], [0], 1, wf⟩ : ScatterDims (sV G) (siR N) (uV N)).start (ix1 n') idx 0 = (idx (ix2 n' 0)).toInt := by
  unfold ScatterDims.start
  rw [dif_pos (by simp)]
  rw [siIdx_vec]

/-- The operand's one axis is an inserted window axis: its window coordinate is 0. -/
theorem window_vec (wf : ScatterDims.WF (sV G) (siR N) (uV N) [] [0] [0] 1) (n' : Fin N) :
    (⟨[], [0], [0], 1, wf⟩ : ScatterDims (sV G) (siR N) (uV N)).window (ix1 n') 0 = 0 := by
  unfold ScatterDims.window
  rw [dif_neg (by show (0 : Fin 1) ∉ ([] : List (Fin 1)); decide)]

/-- The vector scatter's result index, at dimension numbers given by their literals: update element `n'` lands on
    operand element `g` exactly when its id, read signed, is `g`. -/
theorem resultIdx?_vec_lit {w : Nat} (wf : ScatterDims.WF (sV G) (siR N) (uV N) [] [0] [0] 1)
    (idx : IVec (siR N) w) (n' : Fin N) (g : Fin G) :
    (⟨[], [0], [0], 1, wf⟩ : ScatterDims (sV G) (siR N) (uV N)).resultIdx? (ix1 n') idx = some (ix1 g)
      ↔ (idx (ix2 n' 0)).toInt = (g.val : ℤ) := by
  have s0 := start_vec wf idx n'
  have w0 := window_vec wf n'
  rw [resultIdx?_eq_some_iff]
  constructor
  · intro h
    have h0 := h 0
    rw [s0, w0] at h0
    have h0' : (idx (ix2 n' 0)).toInt + ((0 : ℕ) : ℤ) = ((g.val : ℕ) : ℤ) := h0
    omega
  · intro hg a
    have ha : a = 0 := Subsingleton.elim _ _
    subst ha
    rw [s0, w0]
    show (idx (ix2 n' 0)).toInt + ((0 : ℕ) : ℤ) = ((g.val : ℕ) : ℤ)
    omega

/-- The vector scatter's result index, for any record with these dimension numbers (each hypothesis is `rfl` for a
    record defined by the four literals): update element `n'` lands on operand element `g` exactly when its id,
    read signed and not clamped, is `g`. -/
theorem resultIdx?_vec {w : Nat} (d : ScatterDims (⟨1, ![G]⟩ : Shape) (⟨2, ![N, 1]⟩ : Shape) (⟨1, ![N]⟩ : Shape))
    (h1 : d.updateWindowDims = []) (h2 : d.insertedWindowDims = [0]) (h3 : d.scatterDimsToOperandDims = [0])
    (h4 : d.indexVectorDim = 1) (idx : IVec (⟨2, ![N, 1]⟩ : Shape) w) (n' : Fin N) (g : Fin G) :
    d.resultIdx? (ix1 n') idx = some (ix1 g) ↔ (idx (ix2 n' 0)).toInt = (g.val : ℤ) := by
  obtain ⟨uw, iw, sd, iv, wf⟩ := d
  dsimp only at h1 h2 h3 h4
  subst h1 h2 h3 h4
  exact resultIdx?_vec_lit wf idx n' g

/-- The vector segment sum: element `g` of the scatter-add is the operand's plus the sum, over the elements whose
    id (read signed) is `g`, of the update's element. An element whose id is outside `[0, G)` is dropped. -/
theorem hostScatterAdd_vec {w : Nat} (d : ScatterDims (⟨1, ![G]⟩ : Shape) (⟨2, ![N, 1]⟩ : Shape) (⟨1, ![N]⟩ : Shape))
    (h1 : d.updateWindowDims = []) (h2 : d.insertedWindowDims = [0]) (h3 : d.scatterDimsToOperandDims = [0])
    (h4 : d.indexVectorDim = 1) (x : (⟨1, ![G]⟩ : Shape).Idx → EReal) (idx : IVec (⟨2, ![N, 1]⟩ : Shape) w)
    (upd : (⟨1, ![N]⟩ : Shape).Idx → EReal) (g : Fin G) :
    Ideal.hostScatterAdd d x idx upd (ix1 g)
      = x (ix1 g) + ∑ n : Fin N, if (idx (ix2 n 0)).toInt = (g.val : ℤ) then upd (ix1 n) else 0 := by
  unfold Ideal.hostScatterAdd
  congr 1
  rw [Finset.sum_filter, sum_idx1]
  exact Finset.sum_congr rfl fun n _ => if_congr (resultIdx?_vec d h1 h2 h3 h4 idx n g) rfl rfl

end Vec

/-! ## The one-hot word compare, and sums taken block by block -/

/-- A natural below `2 ^ 31`, as a 32-bit word, reads signed as itself. -/
theorem toInt_ofNat_of_lt (g : ℕ) (hg : g < 2 ^ 31) : (BitVec.ofNat 32 g).toInt = (g : ℤ) := by
  have hn : (BitVec.ofNat 32 g).toNat = g := by
    rw [BitVec.toNat_ofNat]; exact Nat.mod_eq_of_lt (by omega)
  rw [BitVec.toInt_eq_toNat_of_lt (by rw [hn]; omega), hn]

/-- A 32-bit word equals the word of a natural below `2 ^ 31` exactly when its signed reading is that natural. -/
theorem eq_ofNat_iff_toInt (w : BitVec 32) (g : ℕ) (hg : g < 2 ^ 31) :
    w = BitVec.ofNat 32 g ↔ w.toInt = (g : ℤ) := by
  constructor
  · rintro rfl; exact toInt_ofNat_of_lt g hg
  · intro h; apply BitVec.eq_of_toInt_eq; rw [h, toInt_ofNat_of_lt g hg]

/-- The one-hot compare against a segment number below 256: the word equality is the signed reading's. -/
theorem eq_ofNat_iff_toInt_fin (w : BitVec 32) (g : Fin 256) :
    w = BitVec.ofNat 32 g.val ↔ w.toInt = (g.val : ℤ) :=
  eq_ofNat_iff_toInt w g.val (by have := g.isLt; omega)

/-- The same with the segment number cast into the words. -/
theorem eq_natCast_iff_toInt_fin (w : BitVec 32) (g : Fin 256) :
    w = ((g.val : ℕ) : BitVec 32) ↔ w.toInt = (g.val : ℤ) :=
  eq_ofNat_iff_toInt_fin w g

/-- A one-hot weighted sum is the sum over the selected terms: `0 * x = 0` and `1 * x = x` hold for every extended
    real, the infinities included. -/
theorem sum_onehot_mul {N : Nat} (w : Fin N → BitVec 32) (g : Fin 256) (h : Fin N → EReal) :
    ∑ n, (if w n = BitVec.ofNat 32 g.val then (1 : EReal) else 0) * h n
      = ∑ n, if (w n).toInt = (g.val : ℤ) then h n else 0 := by
  refine Finset.sum_congr rfl fun n _ => ?_
  by_cases hc : w n = BitVec.ofNat 32 g.val
  · rw [if_pos hc, if_pos ((eq_ofNat_iff_toInt_fin (w n) g).1 hc), one_mul]
  · rw [if_neg hc, if_neg fun h' => hc ((eq_ofNat_iff_toInt_fin (w n) g).2 h'), zero_mul]

/-- A sum taken block by block, `a` blocks of `b` terms, is the one sum over the `a * b` terms: term `n` is in
    block `n / b` at position `n % b`. -/
theorem sum_blocks {M : Type*} [AddCommMonoid M] (a b : ℕ) (f : Fin a → Fin b → M) :
    ∑ t, ∑ r, f t r = ∑ n : Fin (a * b), f n.divNat n.modNat := by
  rw [← Fintype.sum_prod_type']
  exact (Equiv.sum_comp finProdFinEquiv.symm fun p : Fin a × Fin b => f p.1 p.2).symm

/-- Twenty blocks of 5000 rows are the 100000 rows: row `n` is in block `n / 5000` at position `n % 5000`. -/
theorem sum_blocks_20_5000 {M : Type*} [AddCommMonoid M] (f : Fin 20 → Fin 5000 → M) :
    ∑ t, ∑ r, f t r
      = ∑ n : Fin 100000, f ⟨n.val / 5000, by have := n.isLt; omega⟩ ⟨n.val % 5000, by have := n.isLt; omega⟩ :=
  sum_blocks 20 5000 f

end Cert.LibScatterRows
-- ==== Proof.KI.Pay2.lean ====
/-
  Region 2's stored values, read at one entry, over the extended reals.

  Each grid point of the fused third layer adds to two carried buffers: to the pooled sums (256 × 64) the product of
  the transposed one-hot matrix of the block's graph ids (5000 × 256) with the block's layer output (5000 × 64), and
  to the counts (1 × 256) the column sums of the one-hot matrix.  The one-hot entry at row `r` and column `g` is
  the number 1 where row `r`'s graph id, a 32-bit word, is the word of `g`, and 0 elsewhere; since `g < 256` this
  is the same as the id's signed reading being `g`.  On the extended reals `0 * x = 0` and `1 * x = x` for every
  `x`, so a product with a one-hot entry is an `if`, with no finiteness asked of `x`.  The first point stores zeros
  into both buffers first; the last point divides each pooled sum by `max count 1`, multiplies by the last linear
  map's matrix and adds its bias row.  Every change of format is the identity on extended reals.
-/
import proofs.«428750_j8675833938328_3_alg».proof.Proof.Gen.KernelIdeal.Skeleton
import proofs.«428750_j8675833938328_3_alg».proof.Proof.Spec
import proofs.«428750_j8675833938328_3_alg».proof.Proof.KI.PayDense
import proofs.«428750_j8675833938328_3_alg».proof.Proof.LibScatterRows
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout
import Idealize.ShloMosaic.Lib.StableHlo.Predicate

noncomputable section

namespace Cert.KernelIdeal.Hand

open Cert.KernelIdeal Cert.KernelIdeal.Gen
open Idealize.ShloMosaic Idealize.ShloMosaic.ValueIdx
open scoped BigOperators

/-! ## The two resets and the counts' update -/

/-- The first point's reset of the pooled sums: zero everywhere. -/
theorem k2_pay3_apply (i : S256x64.Idx) : k2_pay3 (F := Ideal) i = 0 := by
  show shapeCast S256x64 (broadcast S256x64 (Scalar.ofBits (F := Ideal) .f32 0x00000000#32)) shapeCasts_S256x64_S256x64 i = 0
  rw [shapeCast_self]
  exact Ideal.ofBits_zero_f32

/-- The first point's reset of the counts: zero everywhere. -/
theorem k2_pay4_apply (i : S1x256.Idx) : k2_pay4 (F := Ideal) i = 0 := by
  show shapeCast S1x256 (broadcast S1x256 (Scalar.ofBits (F := Ideal) .f32 0x00000000#32)) shapeCasts_S1x256_S1x256 i = 0
  rw [shapeCast_self]
  exact Ideal.ofBits_zero_f32

/-- The counts after a point: what they were plus the block's column sums. -/
theorem k2_pay1_apply (v31 : FVec Ideal S1x256 .f32) (v37 : Vec Ideal S1x256 .f32) (i : S1x256.Idx) :
    k2_pay1 (F := Ideal) v31 v37 i = v37 i + v31 i := by
  show shapeCast S1x256 (addf v37 v31) shapeCasts_S1x256_S1x256 i = v37 i + v31 i
  rw [shapeCast_self]
  rfl

/-! ## The one-hot matrix of a block's graph ids -/

/-- The one-hot entry at row `r` and column `g`: one where the row's id reads `g`, zero elsewhere. -/
theorem k2_pay5_apply (ids : Vec Ideal S5000x1 .i32) (r : Fin 5000) (g : Fin 256) :
    k2_pay5 (F := Ideal) ids (ix2 r g) = if (ids (ix2 r 0)).toInt = (g.val : ℤ) then (1 : EReal) else 0 := by
  show FloatOps.sitofp (F := Ideal) .f32
      ((IntOp.cmpi .eq
          (broadcastTo S5000x256 (shapeCast S5000x1 ids shapeCasts_S5000x1_S5000x1) broadcasts_S5000x1_S5000x256 (ix2 r g))
          (broadcastTo S5000x256 (iota .tc S1x256 32 [1] iota_S1x256_d1_w32) broadcasts_S1x256_S5000x256 (ix2 r g))).setWidth 32) = _
  rw [shapeCast_self, broadcastTo_1b_ab_apply, iota_single_apply,
    broadcastTo_apply ids broadcasts_S5000x1_S5000x256 (ix2 r g) (ix2 r 0) (fun a => match a with
      | ⟨0, _⟩ => rfl
      | ⟨1, _⟩ => rfl)]
  show FloatOps.sitofp (F := Ideal) .f32 ((IntOp.cmpi .eq (ids (ix2 r 0)) (BitVec.ofNat 32 g.val)).setWidth 32) = _
  by_cases h : (ids (ix2 r 0)).toInt = (g.val : ℤ)
  · rw [if_pos h, StableHlo.Predicate.cmpi_eq_iff.mpr ((Cert.LibScatterRows.eq_ofNat_iff_toInt_fin _ g).mpr h)]
    show (((1#1 : BitVec 1).setWidth 32).toInt : ℝ) = (1 : EReal)
    norm_num
  · rw [if_neg h, eq_zero_of_ne_one (fun hc => h ((Cert.LibScatterRows.eq_ofNat_iff_toInt_fin _ g).mp (StableHlo.Predicate.cmpi_eq_iff.mp hc)))]
    show (((0#1 : BitVec 1).setWidth 32).toInt : ℝ) = (0 : EReal)
    norm_num

/-- The block's column sums of the one-hot matrix: at graph `g`, the number of the block's rows whose id is `g`. -/
theorem k2_pay6_apply (ids : Vec Ideal S5000x1 .i32) (g : Fin 256) :
    k2_pay6 (F := Ideal) ids (ix2 0 g) = ∑ r : Fin 5000, if (ids (ix2 r 0)).toInt = (g.val : ℤ) then (1 : EReal) else 0 := by
  unfold k2_pay6
  refine (shapeCast_a_1a_apply _ shapeCasts_S256_S1x256 0 g).trans ?_
  refine (Ideal.multiReduction_add_single (k2_pay5 (F := Ideal) ids) _ reduces_S5000x256_S256 _ _ (ix1 g)).trans ?_
  show ∑ r : Fin 5000, k2_pay5 (F := Ideal) ids (reduces_S5000x256_S256.lift (ix1 g) r) = _
  refine Finset.sum_congr rfl fun r _ => ?_
  have e : reduces_S5000x256_S256.lift (ix1 g) r = ix2 r g := funext fun a => Fin.ext (by
    match a with
    | ⟨0, _⟩ => rfl
    | ⟨1, _⟩ => rfl)
  rw [e, k2_pay5_apply]

/-! ## The third layer's block before pooling -/

/-- The block's layer output as the payload writes it: the product of `[a | x]` with the stacked weights plus the
    bias row (no cut-off at zero in the third layer). -/
def k2_dense (x0 : Vec Ideal S5000x64 .f32) (x1 : Vec Ideal S5000x64 .bf16) (w : Vec Ideal S128x64 .f32)
    (b : Vec Ideal S1x64 .f32) : FVec Ideal S5000x64 .bf16 :=
  truncf .bf16
    (addf
      (matmul dot_S5000x128_S128x64_S5000x64_1_0_0_1_n_n none
        (concatenate S5000x128 1
          [⟨S5000x64, truncf .bf16 (shapeCast S5000x64 x0 shapeCasts_S5000x64_S5000x64) bitsLt_bf16_f32⟩,
           ⟨S5000x64, shapeCast S5000x64 x1 shapeCasts_S5000x64_S5000x64⟩]
          concatenates_S5000x64_S5000x64_S5000x128_d1)
        (truncf .bf16 (shapeCast S128x64 w shapeCasts_S128x64_S128x64) bitsLt_bf16_f32)
        (constant S5000x64 .f32 0x00000000#32))
      (broadcastTo S5000x64 (shapeCast S1x64 (shapeCast S1x64 b shapeCasts_S1x64_S1x64) shapeCasts_S1x64_S1x64)
        broadcasts_S1x64_S5000x64))
    bitsLt_bf16_f32

/-- At row `r` and column `j`: the sum over the 128 contraction indices plus the bias. -/
theorem k2_dense_apply (x0 : Vec Ideal S5000x64 .f32) (x1 : Vec Ideal S5000x64 .bf16) (w : Vec Ideal S128x64 .f32)
    (b : Vec Ideal S1x64 .f32) (r : Fin 5000) (j : Fin 64) :
    k2_dense x0 x1 w b (ix2 r j)
      = (∑ k : Fin 128, (if h : k.val < 64 then x0 (ix2 r ⟨k.val, h⟩) else x1 (ix2 r ⟨k.val - 64, by omega⟩)) * w (ix2 k j))
        + b (ix2 0 j) := by
  show matmul (F := Ideal) dot_S5000x128_S128x64_S5000x64_1_0_0_1_n_n none
        (concatenate S5000x128 1
          [⟨S5000x64, truncf .bf16 (shapeCast S5000x64 x0 shapeCasts_S5000x64_S5000x64) bitsLt_bf16_f32⟩,
           ⟨S5000x64, shapeCast S5000x64 x1 shapeCasts_S5000x64_S5000x64⟩]
          concatenates_S5000x64_S5000x64_S5000x128_d1)
        (truncf .bf16 (shapeCast S128x64 w shapeCasts_S128x64_S128x64) bitsLt_bf16_f32)
        (constant (F := Ideal) S5000x64 .f32 0x00000000#32) (ix2 r j)
      + broadcastTo S5000x64 (shapeCast S1x64 (shapeCast S1x64 b shapeCasts_S1x64_S1x64) shapeCasts_S1x64_S1x64)
          broadcasts_S1x64_S5000x64 (ix2 r j) = _
  rw [denseBlock_apply, broadcastTo_1b_ab_apply]
  simp only [shapeCast_self]
  rfl

/-! ## The pool product: a contraction over the block's rows -/

theorem k2_pool_lhs_0 (i : S256x64.Idx) (q : dot_S5000x256_S5000x64_S256x64_0_0_1_1_n_n.contr.Idx) :
    (dot_S5000x256_S5000x64_S256x64_0_0_1_1_n_n.lhsIdx i q 0).val = (q ⟨0, by decide⟩).val :=
  dot_S5000x256_S5000x64_S256x64_0_0_1_1_n_n.lhsIdx_val_of_single rfl i q
theorem k2_pool_lhs_1 (i : S256x64.Idx) (q : dot_S5000x256_S5000x64_S256x64_0_0_1_1_n_n.contr.Idx) :
    (dot_S5000x256_S5000x64_S256x64_0_0_1_1_n_n.lhsIdx i q 1).val = (i 0).val := by
  unfold DotDims.lhsIdx
  rw [dif_neg (show ¬(1 : Fin S5000x256.rank) ∈ dot_S5000x256_S5000x64_S256x64_0_0_1_1_n_n.lhsBatch by decide),
    dif_pos (show (1 : Fin S5000x256.rank) ∈ dot_S5000x256_S5000x64_S256x64_0_0_1_1_n_n.lhsNonContracting by decide)]
  rfl
theorem k2_pool_rhs_0 (i : S256x64.Idx) (q : dot_S5000x256_S5000x64_S256x64_0_0_1_1_n_n.contr.Idx) :
    (dot_S5000x256_S5000x64_S256x64_0_0_1_1_n_n.rhsIdx i q 0).val = (q ⟨0, by decide⟩).val :=
  dot_S5000x256_S5000x64_S256x64_0_0_1_1_n_n.rhsIdx_val_of_single rfl i q
theorem k2_pool_rhs_1 (i : S256x64.Idx) (q : dot_S5000x256_S5000x64_S256x64_0_0_1_1_n_n.contr.Idx) :
    (dot_S5000x256_S5000x64_S256x64_0_0_1_1_n_n.rhsIdx i q 1).val = (i 1).val := by
  unfold DotDims.rhsIdx
  rw [dif_neg (show ¬(1 : Fin S5000x64.rank) ∈ dot_S5000x256_S5000x64_S256x64_0_0_1_1_n_n.rhsBatch by decide),
    dif_pos (show (1 : Fin S5000x64.rank) ∈ dot_S5000x256_S5000x64_S256x64_0_0_1_1_n_n.rhsNonContracting by decide)]
  rfl

/-- The product contracting the rows of both operands, accumulated into zero, at graph `g` and column `j`: the sum
    over the block's rows of the left operand at `(r, g)` times the right at `(r, j)`. -/
theorem k2_pool_apply (oh : FVec Ideal S5000x256 .bf16) (h : FVec Ideal S5000x64 .bf16) (g : Fin 256) (j : Fin 64) :
    matmul (F := Ideal) dot_S5000x256_S5000x64_S256x64_0_0_1_1_n_n none oh h (constant (F := Ideal) S256x64 .f32 0x00000000#32) (ix2 g j)
      = ∑ r : Fin 5000, oh (ix2 r g) * h (ix2 r j) := by
  simp only [matmul]
  rw [Ideal.matmul_constant_zero_apply,
    ← Equiv.sum_comp (contrEquiv1 dot_S5000x256_S5000x64_S256x64_0_0_1_1_n_n 5000 rfl rfl).symm]
  refine Finset.sum_congr rfl fun r _ => ?_
  have hk := contrEquiv1_symm_val dot_S5000x256_S5000x64_S256x64_0_0_1_1_n_n 5000 rfl rfl r
  have el : dot_S5000x256_S5000x64_S256x64_0_0_1_1_n_n.lhsIdx (ix2 g j)
      ((contrEquiv1 dot_S5000x256_S5000x64_S256x64_0_0_1_1_n_n 5000 rfl rfl).symm r) = ix2 r g :=
    funext fun a => Fin.ext (by
      match a with
      | ⟨0, _⟩ => exact (k2_pool_lhs_0 _ _).trans hk
      | ⟨1, _⟩ => exact k2_pool_lhs_1 _ _)
  have er : dot_S5000x256_S5000x64_S256x64_0_0_1_1_n_n.rhsIdx (ix2 g j)
      ((contrEquiv1 dot_S5000x256_S5000x64_S256x64_0_0_1_1_n_n 5000 rfl rfl).symm r) = ix2 r j :=
    funext fun a => Fin.ext (by
      match a with
      | ⟨0, _⟩ => exact (k2_pool_rhs_0 _ _).trans hk
      | ⟨1, _⟩ => exact k2_pool_rhs_1 _ _)
  rw [el, er]

/-- The pooled sums after a point: what they were plus, at graph `g` and column `j`, the sum of the block's layer
    output over the rows whose id is `g`. -/
theorem k2_pay7_apply (x0 : Vec Ideal S5000x64 .f32) (x1 : Vec Ideal S5000x64 .bf16) (w : Vec Ideal S128x64 .f32)
    (b : Vec Ideal S1x64 .f32) (ids : Vec Ideal S5000x1 .i32) (s : Vec Ideal S256x64 .f32) (g : Fin 256) (j : Fin 64) :
    k2_pay7 (F := Ideal) x0 x1 w b ids s (ix2 g j)
      = s (ix2 g j) + ∑ r : Fin 5000, if (ids (ix2 r 0)).toInt = (g.val : ℤ) then
          ((∑ k : Fin 128, (if h : k.val < 64 then x0 (ix2 r ⟨k.val, h⟩) else x1 (ix2 r ⟨k.val - 64, by omega⟩)) * w (ix2 k j)) + b (ix2 0 j))
        else 0 := by
  show shapeCast S256x64
      (addf s (matmul (F := Ideal) dot_S5000x256_S5000x64_S256x64_0_0_1_1_n_n none
        (truncf .bf16 (k2_pay5 (F := Ideal) ids) bitsLt_bf16_f32) (k2_dense x0 x1 w b)
        (constant (F := Ideal) S256x64 .f32 0x00000000#32)))
      shapeCasts_S256x64_S256x64 (ix2 g j) = _
  rw [shapeCast_self]
  show s (ix2 g j) + matmul (F := Ideal) dot_S5000x256_S5000x64_S256x64_0_0_1_1_n_n none
        (truncf .bf16 (k2_pay5 (F := Ideal) ids) bitsLt_bf16_f32) (k2_dense x0 x1 w b)
        (constant (F := Ideal) S256x64 .f32 0x00000000#32) (ix2 g j) = _
  rw [k2_pool_apply]
  congr 1
  refine Finset.sum_congr rfl fun r _ => ?_
  show k2_pay5 (F := Ideal) ids (ix2 r g) * k2_dense x0 x1 w b (ix2 r j) = _
  rw [k2_pay5_apply, k2_dense_apply]
  by_cases h : (ids (ix2 r 0)).toInt = (g.val : ℤ)
  · rw [if_pos h, if_pos h, one_mul]
  · rw [if_neg h, if_neg h, zero_mul]

/-! ## The head -/

theorem k2_head_lhs_0 (i : S256x64.Idx) (q : dot_S256x64_S64x64_S256x64_1_0_0_1_n_n.contr.Idx) :
    (dot_S256x64_S64x64_S256x64_1_0_0_1_n_n.lhsIdx i q 0).val = (i 0).val := by
  unfold DotDims.lhsIdx
  rw [dif_neg (show ¬(0 : Fin S256x64.rank) ∈ dot_S256x64_S64x64_S256x64_1_0_0_1_n_n.lhsBatch by decide),
    dif_pos (show (0 : Fin S256x64.rank) ∈ dot_S256x64_S64x64_S256x64_1_0_0_1_n_n.lhsNonContracting by decide)]
  rfl
theorem k2_head_lhs_1 (i : S256x64.Idx) (q : dot_S256x64_S64x64_S256x64_1_0_0_1_n_n.contr.Idx) :
    (dot_S256x64_S64x64_S256x64_1_0_0_1_n_n.lhsIdx i q 1).val = (q ⟨0, by decide⟩).val :=
  dot_S256x64_S64x64_S256x64_1_0_0_1_n_n.lhsIdx_val_of_single rfl i q
theorem k2_head_rhs_0 (i : S256x64.Idx) (q : dot_S256x64_S64x64_S256x64_1_0_0_1_n_n.contr.Idx) :
    (dot_S256x64_S64x64_S256x64_1_0_0_1_n_n.rhsIdx i q 0).val = (q ⟨0, by decide⟩).val :=
  dot_S256x64_S64x64_S256x64_1_0_0_1_n_n.rhsIdx_val_of_single rfl i q
theorem k2_head_rhs_1 (i : S256x64.Idx) (q : dot_S256x64_S64x64_S256x64_1_0_0_1_n_n.contr.Idx) :
    (dot_S256x64_S64x64_S256x64_1_0_0_1_n_n.rhsIdx i q 1).val = (i 1).val := by
  unfold DotDims.rhsIdx
  rw [dif_neg (show ¬(1 : Fin S64x64.rank) ∈ dot_S256x64_S64x64_S256x64_1_0_0_1_n_n.rhsBatch by decide),
    dif_pos (show (1 : Fin S64x64.rank) ∈ dot_S256x64_S64x64_S256x64_1_0_0_1_n_n.rhsNonContracting by decide)]
  rfl

/-- The 64-wide product accumulated into zero, at graph `g` and column `j`. -/
theorem k2_head_mm_apply (a : FVec Ideal S256x64 .bf16) (w : FVec Ideal S64x64 .bf16) (g : Fin 256) (j : Fin 64) :
    matmul (F := Ideal) dot_S256x64_S64x64_S256x64_1_0_0_1_n_n none a w (constant (F := Ideal) S256x64 .f32 0x00000000#32) (ix2 g j)
      = ∑ k : Fin 64, a (ix2 g k) * w (ix2 k j) := by
  simp only [matmul]
  rw [Ideal.matmul_constant_zero_apply,
    ← Equiv.sum_comp (contrEquiv1 dot_S256x64_S64x64_S256x64_1_0_0_1_n_n 64 rfl rfl).symm]
  refine Finset.sum_congr rfl fun k _ => ?_
  have hk := contrEquiv1_symm_val dot_S256x64_S64x64_S256x64_1_0_0_1_n_n 64 rfl rfl k
  have el : dot_S256x64_S64x64_S256x64_1_0_0_1_n_n.lhsIdx (ix2 g j)
      ((contrEquiv1 dot_S256x64_S64x64_S256x64_1_0_0_1_n_n 64 rfl rfl).symm k) = ix2 g k :=
    funext fun a => Fin.ext (by
      match a with
      | ⟨0, _⟩ => exact k2_head_lhs_0 _ _
      | ⟨1, _⟩ => exact (k2_head_lhs_1 _ _).trans hk)
  have er : dot_S256x64_S64x64_S256x64_1_0_0_1_n_n.rhsIdx (ix2 g j)
      ((contrEquiv1 dot_S256x64_S64x64_S256x64_1_0_0_1_n_n 64 rfl rfl).symm k) = ix2 k j :=
    funext fun a => Fin.ext (by
      match a with
      | ⟨0, _⟩ => exact (k2_head_rhs_0 _ _).trans hk
      | ⟨1, _⟩ => exact k2_head_rhs_1 _ _)
  rw [el, er]

/-- The head at graph `g` and column `j`: the pooled sums over `max count 1`, through the last linear map. -/
theorem k2_pay2_apply (cnt : Vec Ideal S1x256 .f32) (s : Vec Ideal S256x64 .f32) (wl : Vec Ideal S64x64 .f32)
    (bl : Vec Ideal S1x64 .f32) (g : Fin 256) (j : Fin 64) :
    k2_pay2 (F := Ideal) cnt s wl bl (ix2 g j)
      = (∑ k : Fin 64, Ideal.div (s (ix2 g k)) (max (cnt (ix2 0 g)) 1) * wl (ix2 k j)) + bl (ix2 0 j) := by
  show matmul (F := Ideal) dot_S256x64_S64x64_S256x64_1_0_0_1_n_n none
        (truncf .bf16
          (divf s (broadcastTo S256x64
            (maximumf (transpose S256x1 [1, 0] cnt transposes_S1x256_p1_0_S256x1)
              (broadcast S256x1 (Scalar.ofBits (F := Ideal) .f32 0x3F800000#32)))
            broadcasts_S256x1_S256x64))
          bitsLt_bf16_f32)
        (truncf .bf16 wl bitsLt_bf16_f32) (constant (F := Ideal) S256x64 .f32 0x00000000#32) (ix2 g j)
      + broadcastTo S256x64 (shapeCast S1x64 (shapeCast S1x64 bl shapeCasts_S1x64_S1x64) shapeCasts_S1x64_S1x64)
          broadcasts_S1x64_S256x64 (ix2 g j) = _
  rw [k2_head_mm_apply, broadcastTo_1b_ab_apply, shapeCast_self, shapeCast_self]
  congr 1
  refine Finset.sum_congr rfl fun k _ => ?_
  show Ideal.div (s (ix2 g k))
      (broadcastTo S256x64
        (maximumf (transpose S256x1 [1, 0] cnt transposes_S1x256_p1_0_S256x1)
          (broadcast S256x1 (Scalar.ofBits (F := Ideal) .f32 0x3F800000#32)))
        broadcasts_S256x1_S256x64 (ix2 g k)) * wl (ix2 k j) = _
  rw [broadcastTo_apply _ broadcasts_S256x1_S256x64 (ix2 g k) (ix2 g 0) (fun a => match a with
      | ⟨0, _⟩ => rfl
      | ⟨1, _⟩ => rfl)]
  show Ideal.div (s (ix2 g k))
      (max (transpose S256x1 [1, 0] cnt transposes_S1x256_p1_0_S256x1 (ix2 g 0)) (Ideal.ofBits .f32 0x3F800000#32)) * wl (ix2 k j) = _
  rw [transpose_ix2_apply, show Ideal.ofBits .f32 0x3F800000#32 = 1 from IdealRules.sign_bit.ideal_onePat .f32]

end Cert.KernelIdeal.Hand

end
-- ==== Proof.KI.Val2.lean ====
/-
  The value of region 2's result array at the ideal instance: the third layer's dense stage pooled by graph id and
  put through the head. The two scratch buffers accumulate, block by block, each graph's sum of rows and its node
  count; the last point divides and applies the last linear map.

  Point `t`'s blocks of the three row windows read rows 5000·t … 5000·t + 4999 of their arrays, the other windows'
  one block is the whole array. By induction on the number of points done, the pooled-sum scratch holds at graph
  `g` and column `j` the sum, over the nodes of the blocks done, of the node's row of the dense stage where the
  node's id is `g`, and the count scratch the number of such nodes; twenty blocks of 5000 nodes are all 100000
  nodes, so after the last point they are the pooled sum and the count of the specification. Only commutative-monoid
  facts of addition on the extended reals are used. The last point alone writes the result window back, and its one
  block is the whole array.
-/
import proofs.«428750_j8675833938328_3_alg».proof.Proof.KI.R2Defs
import proofs.«428750_j8675833938328_3_alg».proof.Proof.Spec
import proofs.«428750_j8675833938328_3_alg».proof.Proof.KI.Pay2
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg)
open scoped BigOperators

variable (V : (c : Dev nD) → (b : Ref sig .tc) → Buf (Elt Ideal) ((c : Thread nD τ).loc b))

namespace Val2

/-! ## The windows' blocks read at an index -/

/-- The printed index maps over the grid: the three row windows sit at block (t, 0), the others at block (0, 0). -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0 :=
  (by decide +kernel : ∀ t : Fin grid2.N, _)

/-- Row `r` of point `t`'s block of the aggregated array is row `5000·t + r` of the array. -/
theorem iblk2_0_apply (c : Dev nD) (t : Fin cfg2.N) (r : Fin 5000) (k : Fin 64) (h : 5000 * t.val + r.val < 100000) :
    iblk2 (F := Ideal) V c 0 t (ix2 r k) = V c main_v44 (ix2 ⟨5000 * t.val + r.val, h⟩ k) := by
  show V c main_v44 (((cfg2.win 0).blk t).view.emb (ix2 r k)) = _
  refine congrArg _ ?_
  obtain ⟨e0, e1, -⟩ := idx_facts2 t
  funext a; apply Fin.ext
  match a with
  | ⟨0, _⟩ => show win2_0.index t (0 : Fin 2) * 5000 + 1 * r.val = 5000 * t.val + r.val; omega
  | ⟨1, _⟩ => show win2_0.index t (1 : Fin 2) * 64 + 1 * k.val = k.val; omega

/-- Likewise for the layer's input -/
theorem iblk2_1_apply (c : Dev nD) (t : Fin cfg2.N) (r : Fin 5000) (k : Fin 64) (h : 5000 * t.val + r.val < 100000) :
    iblk2 (F := Ideal) V c 1 t (ix2 r k) = V c main_v33 (ix2 ⟨5000 * t.val + r.val, h⟩ k) := by
  show V c main_v33 (((cfg2.win 1).blk t).view.emb (ix2 r k)) = _
  refine congrArg _ ?_
  obtain ⟨-, -, e0, e1, -⟩ := idx_facts2 t
  funext a; apply Fin.ext
  match a with
  | ⟨0, _⟩ => show win2_1.index t (0 : Fin 2) * 5000 + 1 * r.val = 5000 * t.val + r.val; omega
  | ⟨1, _⟩ => show win2_1.index t (1 : Fin 2) * 64 + 1 * k.val = k.val; omega

/-- and for the column of graph ids. -/
theorem iblk2_2_apply (c : Dev nD) (t : Fin cfg2.N) (r : Fin 5000) (z : Fin 1) (h : 5000 * t.val + r.val < 100000) :
    iblk2 (F := Ideal) V c 2 t (ix2 r z) = V c main_v45 (ix2 ⟨5000 * t.val + r.val, h⟩ z) := by
  show V c main_v45 (((cfg2.win 2).blk t).view.emb (ix2 r z)) = _
  refine congrArg _ ?_
  obtain ⟨-, -, -, -, e0, e1, -⟩ := idx_facts2 t
  funext a; apply Fin.ext
  match a with
  | ⟨0, _⟩ => show win2_2.index t (0 : Fin 2) * 5000 + 1 * r.val = 5000 * t.val + r.val; omega
  | ⟨1, _⟩ => show win2_2.index t (1 : Fin 2) * 1 + 1 * z.val = z.val; omega

/-- The stacked weights' one block is the whole array, -/
theorem iblk2_3_apply (c : Dev nD) (t : Fin cfg2.N) (k : Fin 128) (j : Fin 64) :
    iblk2 (F := Ideal) V c 3 t (ix2 k j) = V c main_v6 (ix2 k j) := by
  show V c main_v6 (((cfg2.win 3).blk t).view.emb (ix2 k j)) = _
  refine congrArg _ ?_
  obtain ⟨-, -, -, -, -, -, e0, e1, -⟩ := idx_facts2 t
  funext a; apply Fin.ext
  match a with
  | ⟨0, _⟩ => show win2_3.index t (0 : Fin 2) * 128 + 1 * k.val = k.val; omega
  | ⟨1, _⟩ => show win2_3.index t (1 : Fin 2) * 64 + 1 * j.val = j.val; omega

/-- the bias row's likewise, -/
theorem iblk2_4_apply (c : Dev nD) (t : Fin cfg2.N) (z : Fin 1) (j : Fin 64) :
    iblk2 (F := Ideal) V c 4 t (ix2 z j) = V c main_v9 (ix2 z j) := by
  show V c main_v9 (((cfg2.win 4).blk t).view.emb (ix2 z j)) = _
  refine congrArg _ ?_
  obtain ⟨-, -, -, -, -, -, -, -, e0, e1, -⟩ := idx_facts2 t
  funext a; apply Fin.ext
  match a with
  | ⟨0, _⟩ => show win2_4.index t (0 : Fin 2) * 1 + 1 * z.val = z.val; omega
  | ⟨1, _⟩ => show win2_4.index t (1 : Fin 2) * 64 + 1 * j.val = j.val; omega

/-- the last linear map's matrix -/
theorem iblk2_5_apply (c : Dev nD) (t : Fin cfg2.N) (k : Fin 64) (j : Fin 64) :
    iblk2 (F := Ideal) V c 5 t (ix2 k j) = V c main_arg12 (ix2 k j) := by
  show V c main_arg12 (((cfg2.win 5).blk t).view.emb (ix2 k j)) = _
  refine congrArg _ ?_
  obtain ⟨-, -, -, -, -, -, -, -, -, -, e0, e1, -⟩ := idx_facts2 t
  funext a; apply Fin.ext
  match a with
  | ⟨0, _⟩ => show win2_5.index t (0 : Fin 2) * 64 + 1 * k.val = k.val; omega
  | ⟨1, _⟩ => show win2_5.index t (1 : Fin 2) * 64 + 1 * j.val = j.val; omega

/-- and its bias row. -/
theorem iblk2_6_apply (c : Dev nD) (t : Fin cfg2.N) (z : Fin 1) (j : Fin 64) :
    iblk2 (F := Ideal) V c 6 t (ix2 z j) = V c main_v10 (ix2 z j) := by
  show V c main_v10 (((cfg2.win 6).blk t).view.emb (ix2 z j)) = _
  refine congrArg _ ?_
  obtain ⟨-, -, -, -, -, -, -, -, -, -, -, -, e0, e1, -⟩ := idx_facts2 t
  funext a; apply Fin.ext
  match a with
  | ⟨0, _⟩ => show win2_6.index t (0 : Fin 2) * 1 + 1 * z.val = z.val; omega
  | ⟨1, _⟩ => show win2_6.index t (1 : Fin 2) * 64 + 1 * j.val = j.val; omega

/-! ## What the two scratch buffers accumulate -/

/-- Node `n`'s graph id, off the id column as the region finds it. -/
abbrev gidK (c : Dev nD) : Fin 100000 → ℤ := Spec.gid2 (V c main_v45)

/-- The third layer's dense stage on the arrays the region finds. -/
abbrev h3K (c : Dev nD) : Fin 100000 → Fin 64 → EReal :=
  Spec.layerCat (Spec.fn2 (a := 100000) (b := 64) (V c main_v44)) (Spec.fn2 (a := 100000) (b := 64) (V c main_v33))
    (Spec.fn2 (a := 128) (b := 64) (V c main_v6)) (Spec.row1 (b := 64) (V c main_v9))

/-- Node `n`'s contribution to graph `g`'s pooled sum at column `j`: its row of the dense stage where its id is
    `g`, zero elsewhere (and zero past the last node). -/
def sumTerm (c : Dev nD) (g : Fin 256) (j : Fin 64) (n : ℕ) : EReal :=
  if h : n < 100000 then (if gidK V c ⟨n, h⟩ = (g.val : ℤ) then h3K V c ⟨n, h⟩ j else 0) else 0

/-- Node `n`'s contribution to graph `g`'s count: one where its id is `g`. -/
def cntTerm (c : Dev nD) (g : Fin 256) (n : ℕ) : EReal :=
  if h : n < 100000 then (if gidK V c ⟨n, h⟩ = (g.val : ℤ) then (1 : EReal) else 0) else 0

/-- One point's update of the pooled sums, over blocks that read the arrays at rows `5000·t + r`: the previous
    contents plus the block's 5000 contributions. -/
theorem pay7_step (c : Dev nD) (t : Fin cfg2.N) (g : Fin 256) (j : Fin 64)
    (x0 : Vec Ideal S5000x64 .f32) (x1 : Vec Ideal S5000x64 .bf16) (w : Vec Ideal S128x64 .f32)
    (b : Vec Ideal S1x64 .f32) (ids : Vec Ideal S5000x1 .i32) (s : Vec Ideal S256x64 .f32)
    (e0 : ∀ (r : Fin 5000) (k : Fin 64) (h : 5000 * t.val + r.val < 100000), x0 (ix2 r k) = V c main_v44 (ix2 ⟨5000 * t.val + r.val, h⟩ k))
    (e1 : ∀ (r : Fin 5000) (k : Fin 64) (h : 5000 * t.val + r.val < 100000), x1 (ix2 r k) = V c main_v33 (ix2 ⟨5000 * t.val + r.val, h⟩ k))
    (e2 : ∀ (r : Fin 5000) (z : Fin 1) (h : 5000 * t.val + r.val < 100000), ids (ix2 r z) = V c main_v45 (ix2 ⟨5000 * t.val + r.val, h⟩ z))
    (e3 : ∀ (k : Fin 128) (j : Fin 64), w (ix2 k j) = V c main_v6 (ix2 k j))
    (e4 : ∀ (z : Fin 1) (j : Fin 64), b (ix2 z j) = V c main_v9 (ix2 z j)) :
    k2_pay7 (F := Ideal) x0 x1 w b ids s (ix2 g j)
      = s (ix2 g j) + ∑ r : Fin 5000, sumTerm V c g j (5000 * t.val + r.val) := by
  rw [k2_pay7_apply]
  refine congrArg (s (ix2 g j) + ·) (Finset.sum_congr rfl fun r _ => ?_)
  have hlt : 5000 * t.val + r.val < 100000 := by
    have := t.isLt; have hN : cfg2.N = 20 := N_2; have := r.isLt; omega
  unfold sumTerm
  rw [dif_pos hlt, e2 r 0 hlt]
  refine if_congr Iff.rfl ?_ rfl
  unfold h3K Spec.layerCat
  rw [e4 0 j]
  refine congrArg₂ (· + ·) (Finset.sum_congr rfl fun k _ => ?_) rfl
  rw [e3 k j]
  refine congrArg₂ (· * ·) ?_ rfl
  unfold Spec.catRow
  by_cases hk : k.val < 64
  · rw [dif_pos hk, dif_pos hk, e0 r _ hlt]; rfl
  · rw [dif_neg hk, dif_neg hk, e1 r _ hlt]; rfl

/-- One point's column sums of its one-hot block: the block's 5000 contributions to the counts. -/
theorem pay6_step (c : Dev nD) (t : Fin cfg2.N) (g : Fin 256) (ids : Vec Ideal S5000x1 .i32)
    (e2 : ∀ (r : Fin 5000) (z : Fin 1) (h : 5000 * t.val + r.val < 100000), ids (ix2 r z) = V c main_v45 (ix2 ⟨5000 * t.val + r.val, h⟩ z)) :
    k2_pay6 (F := Ideal) ids (ix2 0 g) = ∑ r : Fin 5000, cntTerm V c g (5000 * t.val + r.val) := by
  rw [k2_pay6_apply]
  refine Finset.sum_congr rfl fun r _ => ?_
  have hlt : 5000 * t.val + r.val < 100000 := by
    have := t.isLt; have hN : cfg2.N = 20 := N_2; have := r.isLt; omega
  unfold cntTerm
  rw [dif_pos hlt, e2 r 0 hlt]
  exact if_congr Iff.rfl rfl rfl

/-- The pooled-sum scratch one point on. -/
theorem S2_succ (c : Dev nD) (n : ℕ) (h : n < cfg2.N) :
    S2 (F := Ideal) V c (n + 1)
      = k2_pay7 (iblk2 V c 0 ⟨n, h⟩) (iblk2 V c 1 ⟨n, h⟩) (iblk2 V c 3 ⟨n, h⟩) (iblk2 V c 4 ⟨n, h⟩) (iblk2 V c 2 ⟨n, h⟩) (S2 V c n) := by
  rw [S2, dif_pos h]

/-- The count scratch one point on. -/
theorem C2_succ (c : Dev nD) (n : ℕ) (h : n < cfg2.N) :
    C2 (F := Ideal) V c (n + 1) = k2_pay1 (k2_pay6 (iblk2 V c 2 ⟨n, h⟩)) (C2 V c n) := by
  rw [C2, dif_pos h]

/-- After the first `n` points the pooled-sum scratch holds, at graph `g` and column `j`, the contributions of
    the first `n` blocks of 5000 nodes. -/
theorem S2_apply (c : Dev nD) (g : Fin 256) (j : Fin 64) : ∀ n : ℕ, n ≤ 20 →
    S2 (F := Ideal) V c n (ix2 g j) = ∑ t ∈ Finset.range n, ∑ r : Fin 5000, sumTerm V c g j (5000 * t + r.val)
  | 0, _ => by
    rw [Finset.range_zero, Finset.sum_empty]
    exact k2_pay3_apply _
  | n + 1, hn => by
    have h : n < cfg2.N := by have hN : cfg2.N = 20 := N_2; omega
    rw [S2_succ V c n h, Finset.sum_range_succ, ← S2_apply c g j n (by omega)]
    exact pay7_step V c ⟨n, h⟩ g j _ _ _ _ _ _ (iblk2_0_apply V c ⟨n, h⟩) (iblk2_1_apply V c ⟨n, h⟩)
      (iblk2_2_apply V c ⟨n, h⟩) (iblk2_3_apply V c ⟨n, h⟩) (iblk2_4_apply V c ⟨n, h⟩)

/-- After the first `n` points the count scratch holds, at graph `g`, the number of nodes of the first `n` blocks
    whose id is `g`. -/
theorem C2_apply (c : Dev nD) (g : Fin 256) : ∀ n : ℕ, n ≤ 20 →
    C2 (F := Ideal) V c n (ix2 0 g) = ∑ t ∈ Finset.range n, ∑ r : Fin 5000, cntTerm V c g (5000 * t + r.val)
  | 0, _ => by
    rw [Finset.range_zero, Finset.sum_empty]
    exact k2_pay4_apply _
  | n + 1, hn => by
    have h : n < cfg2.N := by have hN : cfg2.N = 20 := N_2; omega
    rw [C2_succ V c n h, Finset.sum_range_succ, ← C2_apply c g n (by omega), k2_pay1_apply]
    exact congrArg (C2 (F := Ideal) V c n (ix2 0 g) + ·) (pay6_step V c ⟨n, h⟩ g _ (iblk2_2_apply V c ⟨n, h⟩))

/-! ## Twenty blocks of 5000 nodes are the 100000 nodes -/

/-- A sum taken block by block over 20 blocks of 5000 terms is the sum over the 100000 terms. -/
theorem sum_rows (f : ℕ → EReal) :
    ∑ t ∈ Finset.range 20, ∑ r : Fin 5000, f (5000 * t + r.val) = ∑ n : Fin 100000, f n.val := by
  have key : ∀ m : ℕ, ∑ t ∈ Finset.range m, ∑ r : Fin 5000, f (5000 * t + r.val) = ∑ n ∈ Finset.range (5000 * m), f n := by
    intro m
    induction m with
    | zero => simp
    | succ m ih =>
      rw [Finset.sum_range_succ, ih, Nat.mul_succ, Finset.sum_range_add, Finset.sum_range (fun r => f (5000 * m + r))]
  rw [key 20]
  exact Finset.sum_range f

/-- After the last point the pooled-sum scratch is the pooled sum of the dense stage over all nodes, -/
theorem S2_total (c : Dev nD) (g : Fin 256) (j : Fin 64) :
    S2 (F := Ideal) V c 20 (ix2 g j) = Spec.poolSum (gidK V c) (h3K V c) g j := by
  rw [S2_apply V c g j 20 (le_refl _), sum_rows]
  unfold Spec.poolSum
  refine Finset.sum_congr rfl fun n _ => ?_
  unfold sumTerm
  rw [dif_pos n.isLt]

/-- and the count scratch the node count of each graph. -/
theorem C2_total (c : Dev nD) (g : Fin 256) :
    C2 (F := Ideal) V c 20 (ix2 0 g) = Spec.poolCnt (gidK V c) g := by
  rw [C2_apply V c g 20 (le_refl _), sum_rows]
  unfold Spec.poolCnt
  refine Finset.sum_congr rfl fun n _ => ?_
  unfold cntTerm
  rw [dif_pos n.isLt]

/-! ## The last point's store and the result array -/

/-- The head over scratch buffers holding the pooled sums and the counts, and blocks that are the whole arrays. -/
theorem pay2_head (c : Dev nD) (g : Fin 256) (j : Fin 64)
    (cnt : Vec Ideal S1x256 .f32) (s : Vec Ideal S256x64 .f32) (wl : Vec Ideal S64x64 .f32) (bl : Vec Ideal S1x64 .f32)
    (es : ∀ k : Fin 64, s (ix2 g k) = Spec.poolSum (gidK V c) (h3K V c) g k)
    (ec : cnt (ix2 0 g) = Spec.poolCnt (gidK V c) g)
    (e5 : ∀ (k : Fin 64) (j : Fin 64), wl (ix2 k j) = V c main_arg12 (ix2 k j))
    (e6 : ∀ (z : Fin 1) (j : Fin 64), bl (ix2 z j) = V c main_v10 (ix2 z j)) :
    k2_pay2 (F := Ideal) cnt s wl bl (ix2 g j)
      = Spec.head (Spec.poolSum (gidK V c) (h3K V c)) (Spec.poolCnt (gidK V c))
          (Spec.fn2 (a := 64) (b := 64) (V c main_arg12)) (Spec.row1 (b := 64) (V c main_v10)) g j := by
  rw [k2_pay2_apply, ec, e6 0 j]
  unfold Spec.head
  refine congrArg₂ (· + ·) (Finset.sum_congr rfl fun k _ => ?_) rfl
  rw [es k, e5 k j]
  rfl

/-- What the last point stores into the result window, at graph `g` and column `j`. -/
theorem out2_7_last (c : Dev nD) (t : Fin cfg2.N) (ht : t.val = 19) (g : Fin 256) (j : Fin 64) :
    out2_7 (F := Ideal) V c t (ix2 g j)
      = Spec.head (Spec.poolSum (gidK V c) (h3K V c)) (Spec.poolCnt (gidK V c))
          (Spec.fn2 (a := 64) (b := 64) (V c main_arg12)) (Spec.row1 (b := 64) (V c main_v10)) g j := by
  unfold out2_7
  rw [ht]
  exact pay2_head V c g j _ _ _ _ (fun k => S2_total V c g k) (C2_total V c g) (iblk2_5_apply V c t) (iblk2_6_apply V c t)

/-- The result array as one function of the arrays the region finds. -/
abbrev G2 (c : Dev nD) : S256x64.Idx → EReal :=
  Spec.arr2 (Spec.head (Spec.poolSum (gidK V c) (h3K V c)) (Spec.poolCnt (gidK V c))
    (Spec.fn2 (a := 64) (b := 64) (V c main_arg12)) (Spec.row1 (b := 64) (V c main_v10)))

/-- The one write-back, at the last point, writes the whole of it: the result window's block is the array. -/
theorem flushed2_7_eq (c : Dev nD) (t : Fin cfg2.N) (hf : (cfg2.win 7).flush t = true) :
    (dat2 (F := Ideal) V c).flushed 7 t = ((cfg2.win 7).blk t).view.read (Elt Ideal) (G2 V c) := by
  have h19 : t.val = 19 := by
    have h1 := (flush2_7 t).mp hf; have h2 := t.isLt; have hN : cfg2.N = 20 := N_2; omega
  show (cfg2.win 7).cut (grid2.coords t) ((dat2 (F := Ideal) V c).after 7 t) = _
  rw [after2_7]
  refine funext fun (y : S256x64.Idx) => ?_
  obtain ⟨g, j, rfl⟩ : ∃ (g : Fin 256) (j : Fin 64), y = ix2 g j := ⟨y 0, y 1, eq_ix2 y⟩
  show out2_7 (F := Ideal) V c t (ix2 g j) = G2 V c (((cfg2.win 7).blk t).view.emb (ix2 g j))
  have hemb : ((cfg2.win 7).blk t).view.emb (ix2 g j) = ix2 g j := by
    obtain ⟨-, -, -, -, -, -, -, -, -, -, -, -, -, -, e0, e1⟩ := idx_facts2 t
    funext a; apply Fin.ext
    match a with
    | ⟨0, _⟩ => show win2_7.index t (0 : Fin 2) * 256 + 1 * g.val = g.val; omega
    | ⟨1, _⟩ => show win2_7.index t (1 : Fin 2) * 64 + 1 * j.val = j.val; omega
  rw [hemb, out2_7_last V c t h19 g j]
  rfl

/-- An index of the result array is in point `t`'s block iff each coordinate is in the block's range on its axis. -/
theorem mem_blk2_7 (t : Fin cfg2.N) (i : S256x64.Idx) :
    i ∈ ((cfg2.win 7).blk t).view.set ↔ ∀ a : Fin 2, win2_7.index t a * S256x64.size a ≤ (i a).val ∧ (i a).val < win2_7.index t a * S256x64.size a + S256x64.size a := by
  show i ∈ ((View.whole main_v46).slice (win2_7.rect t)).set ↔ _
  rw [View.set_slice_whole, Rect.mem_set_unit]
  exact Iff.rfl

end Val2

open Val2 in
/-- Region 2's result array after the region: the head of the pooled third layer. -/
theorem final2 (c : Dev nD) :
    ((dat2 (F := Ideal) V c).arrAt 7 cfg2.N : S256x64.Idx → EReal)
      = Spec.arr2 (Spec.head
          (Spec.poolSum (Spec.gid2 (V c main_v45))
            (Spec.layerCat (Spec.fn2 (a := 100000) (b := 64) (V c main_v44)) (Spec.fn2 (a := 100000) (b := 64) (V c main_v33))
              (Spec.fn2 (a := 128) (b := 64) (V c main_v6)) (Spec.row1 (b := 64) (V c main_v9))))
          (Spec.poolCnt (Spec.gid2 (V c main_v45)))
          (Spec.fn2 (a := 64) (b := 64) (V c main_arg12)) (Spec.row1 (b := 64) (V c main_v10))) := by
  refine (dat2 (F := Ideal) V c).arrAt_eq_of_cover 7 (G2 V c) (flushed2_7_eq V c) fun i => ?_
  have hN : cfg2.N = 20 := N_2
  refine ⟨⟨19, by omega⟩, (flush2_7 _).mpr rfl, ?_⟩
  rw [mem_blk2_7]
  obtain ⟨-, -, -, -, -, -, -, -, -, -, -, -, -, -, e0, e1⟩ := idx_facts2 ⟨19, by omega⟩
  intro a
  match a with
  | ⟨0, _⟩ =>
    show win2_7.index ⟨19, _⟩ (0 : Fin 2) * 256 ≤ (i 0).val ∧ (i 0).val < win2_7.index ⟨19, _⟩ (0 : Fin 2) * 256 + 256
    have := idx2_lt0 i; omega
  | ⟨1, _⟩ =>
    show win2_7.index ⟨19, _⟩ (1 : Fin 2) * 64 ≤ (i 1).val ∧ (i 1).val < win2_7.index ⟨19, _⟩ (1 : Fin 2) * 64 + 64
    have := idx2_lt1 i; omega

end Cert.KernelIdeal.Hand
end
-- ==== Proof.KI.HostReads2.lean ====
/-
  What regions 1 and 2 find in the buffers that hold no aggregated array: the previous region's result, the
  stacked weights and bias rows the first host stretch laid out, the head's weights, and the graph ids as a column.

  A buffer is followed back through the boundaries between @main's items: a host stretch leaves a buffer it does
  not write as it was, a region leaves every buffer that is not one of its arrays as it was, and at the stretch that
  writes the buffer its contents are the operation's function of the arguments, which nothing writes.
-/
import proofs.«428750_j8675833938328_3_alg».proof.Proof.KI.Fold
import proofs.«428750_j8675833938328_3_alg».proof.Proof.Gen.KernelIdeal.Regions
import Idealize.ShloMosaic.Lib.StableHlo.Run
import Idealize.ShloMosaic.PureOps.Ideal

set_option maxRecDepth 16384

noncomputable section

namespace Cert.KernelIdeal.Hand

open Cert.KernelIdeal Cert.KernelIdeal.Gen
open Idealize.ShloMosaic Idealize.ShloMosaic.TcCoe
open Idealize.SL Idealize.SL.Sem

variable (m : (ℓ : Loc nD τ sig) → Buf (Elt Ideal) ℓ) (ρ : Dev nD → PrngReg) (c : Dev nD)

/-! ## A buffer through one item -/

/-- A buffer the first host stretch does not write holds at region 0's entry what the launch put there. -/
theorem W1_keep (r : Ref sig .tc) (h : r ∉ hostOps0_W) :
    W1 (F := Ideal) m ρ c (Proc.devRef .tc r) = m ((c : Thread nD τ).loc r) :=
  (StableHlo.after_of_writes_sub hostOps0 _ hostOps0_writes h).trans rfl

/-- A buffer that is no array of region 0 and that the second host stretch does not write holds at region 1's
    entry what it held at region 0's. -/
theorem W3_keep (r : Ref sig .tc) (hs : ∀ w, Pipeline.arrRef spec0 w ≠ r) (h : r ∉ hostOps1_W) :
    W3 (F := Ideal) m ρ c (Proc.devRef .tc r) = W1 m ρ c (Proc.devRef .tc r) :=
  (StableHlo.after_of_writes_sub hostOps1 _ hostOps1_writes h).trans (W2_of_ne m ρ c r hs)

/-- A buffer that is no array of region 1 and that the third host stretch does not write holds at region 2's
    entry what it held at region 1's. -/
theorem W5_keep (r : Ref sig .tc) (hs : ∀ w, Pipeline.arrRef spec1 w ≠ r) (h : r ∉ hostOps2_W) :
    W5 (F := Ideal) m ρ c (Proc.devRef .tc r) = W3 m ρ c (Proc.devRef .tc r) :=
  (StableHlo.after_of_writes_sub hostOps2 _ hostOps2_writes h).trans (W4_of_ne m ρ c r hs)

/-! ## What the first host stretch lays out for the later layers -/

/-- Layer 2's two weight matrices, the second under the first. -/
theorem W1_v5 : (W1 (F := Ideal) m ρ c (Proc.devRef .tc main_v5) : S128x64.Idx → EReal)
    = concatenate S128x64 0 [⟨S64x64, m ((c : Thread nD τ).loc main_arg6)⟩, ⟨S64x64, m ((c : Thread nD τ).loc main_arg8)⟩] concatenates_S64x64_S64x64_S128x64_d0 := by
  show StableHlo.after hostOps0 (W0 m ρ c) (Proc.devRef .tc main_v5) = _
  after_results
/-- Layer 3's two weight matrices, the second under the first. -/
theorem W1_v6 : (W1 (F := Ideal) m ρ c (Proc.devRef .tc main_v6) : S128x64.Idx → EReal)
    = concatenate S128x64 0 [⟨S64x64, m ((c : Thread nD τ).loc main_arg9)⟩, ⟨S64x64, m ((c : Thread nD τ).loc main_arg11)⟩] concatenates_S64x64_S64x64_S128x64_d0 := by
  show StableHlo.after hostOps0 (W0 m ρ c) (Proc.devRef .tc main_v6) = _
  after_results
/-- Layer 2's bias as a row. -/
theorem W1_v8 : (W1 (F := Ideal) m ρ c (Proc.devRef .tc main_v8) : S1x64.Idx → EReal)
    = shapeCast S1x64 (m ((c : Thread nD τ).loc main_arg7)) shapeCasts_S64_S1x64 := by
  show StableHlo.after hostOps0 (W0 m ρ c) (Proc.devRef .tc main_v8) = _
  after_results_simp
  rfl
/-- Layer 3's bias as a row. -/
theorem W1_v9 : (W1 (F := Ideal) m ρ c (Proc.devRef .tc main_v9) : S1x64.Idx → EReal)
    = shapeCast S1x64 (m ((c : Thread nD τ).loc main_arg10)) shapeCasts_S64_S1x64 := by
  show StableHlo.after hostOps0 (W0 m ρ c) (Proc.devRef .tc main_v9) = _
  after_results_simp
  rfl
/-- The head's bias as a row. -/
theorem W1_v10 : (W1 (F := Ideal) m ρ c (Proc.devRef .tc main_v10) : S1x64.Idx → EReal)
    = shapeCast S1x64 (m ((c : Thread nD τ).loc main_arg13)) shapeCasts_S64_S1x64 := by
  show StableHlo.after hostOps0 (W0 m ρ c) (Proc.devRef .tc main_v10) = _
  after_results_simp
  rfl

/-! ## What region 1 finds -/

/-- Region 0's result reaches region 1 as region 0 left it: the second host stretch reads it and does not write it. -/
theorem V3_v21 : (V3 (F := Ideal) m ρ c main_v21 : S100000x64.Idx → EReal) = W2 m ρ c (Proc.devRef .tc main_v21) :=
  StableHlo.after_of_writes_sub hostOps1 _ hostOps1_writes (by decide)

theorem V3_v5 : (V3 (F := Ideal) m ρ c main_v5 : S128x64.Idx → EReal) = concatenate S128x64 0 [⟨S64x64, m ((c : Thread nD τ).loc main_arg6)⟩, ⟨S64x64, m ((c : Thread nD τ).loc main_arg8)⟩] concatenates_S64x64_S64x64_S128x64_d0 :=
  (W3_keep m ρ c main_v5 (by decide) (by decide)).trans (W1_v5 m ρ c)

theorem V3_v8 : (V3 (F := Ideal) m ρ c main_v8 : S1x64.Idx → EReal) = shapeCast S1x64 (m ((c : Thread nD τ).loc main_arg7)) shapeCasts_S64_S1x64 :=
  (W3_keep m ρ c main_v8 (by decide) (by decide)).trans (W1_v8 m ρ c)

/-! ## What region 2 finds -/

/-- Region 1's result reaches region 2 as region 1 left it. -/
theorem V5_v33 : (V5 (F := Ideal) m ρ c main_v33 : S100000x64.Idx → EReal) = W4 m ρ c (Proc.devRef .tc main_v33) :=
  StableHlo.after_of_writes_sub hostOps2 _ hostOps2_writes (by decide)

theorem V5_v6 : (V5 (F := Ideal) m ρ c main_v6 : S128x64.Idx → EReal) = concatenate S128x64 0 [⟨S64x64, m ((c : Thread nD τ).loc main_arg9)⟩, ⟨S64x64, m ((c : Thread nD τ).loc main_arg11)⟩] concatenates_S64x64_S64x64_S128x64_d0 :=
  (W5_keep m ρ c main_v6 (by decide) (by decide)).trans <| (W3_keep m ρ c main_v6 (by decide) (by decide)).trans (W1_v6 m ρ c)

theorem V5_v9 : (V5 (F := Ideal) m ρ c main_v9 : S1x64.Idx → EReal) = shapeCast S1x64 (m ((c : Thread nD τ).loc main_arg10)) shapeCasts_S64_S1x64 :=
  (W5_keep m ρ c main_v9 (by decide) (by decide)).trans <| (W3_keep m ρ c main_v9 (by decide) (by decide)).trans (W1_v9 m ρ c)

theorem V5_v10 : (V5 (F := Ideal) m ρ c main_v10 : S1x64.Idx → EReal) = shapeCast S1x64 (m ((c : Thread nD τ).loc main_arg13)) shapeCasts_S64_S1x64 :=
  (W5_keep m ρ c main_v10 (by decide) (by decide)).trans <| (W3_keep m ρ c main_v10 (by decide) (by decide)).trans (W1_v10 m ρ c)

/-- The head's weights are an argument, which nothing writes. -/
theorem V5_arg12 : (V5 (F := Ideal) m ρ c main_arg12 : S64x64.Idx → EReal) = m ((c : Thread nD τ).loc main_arg12) :=
  (W5_keep m ρ c main_arg12 (by decide) (by decide)).trans <| (W3_keep m ρ c main_arg12 (by decide) (by decide)).trans (W1_keep m ρ c main_arg12 (by decide))

/-- The graph ids as a column: the third host stretch's last operation, of an argument nothing writes. -/
theorem V5_v45 : (V5 (F := Ideal) m ρ c main_v45 : S100000x1.Idx → BitVec 32) = shapeCast S100000x1 (m ((c : Thread nD τ).loc main_arg2)) shapeCasts_S100000_S100000x1 := by
  have harg : W4 (F := Ideal) m ρ c (Proc.devRef .tc main_arg2) = m ((c : Thread nD τ).loc main_arg2) :=
    (W4_of_ne m ρ c main_arg2 (by decide)).trans <| (W3_keep m ρ c main_arg2 (by decide) (by decide)).trans (W1_keep m ρ c main_arg2 (by decide))
  show StableHlo.after hostOps2 (W4 m ρ c) (Proc.devRef .tc main_v45) = _
  after_results
  rw [harg]
  rfl

end Cert.KernelIdeal.Hand

end
-- ==== Proof.KI.Host.lean ====
/-
  The kernel program's result as one function of its arguments, at the ideal instance.

  Between the regions @main runs host operations: it slices the edge list into sources and targets, stacks each
  layer's two weight matrices, lays each bias out as a row, and aggregates a feature array over the edges (gather
  the source rows, scatter-add them at the targets). Read through those operations, what each region finds is a
  function of the arguments and of the region before it; composed, the result is the network `Spec.net` with the
  aggregation left as it is spelt.
-/
import proofs.«428750_j8675833938328_3_alg».proof.Proof.KI.Fold
import proofs.«428750_j8675833938328_3_alg».proof.Proof.KI.Val0
import proofs.«428750_j8675833938328_3_alg».proof.Proof.KI.Val1
import proofs.«428750_j8675833938328_3_alg».proof.Proof.KI.Val2
import proofs.«428750_j8675833938328_3_alg».proof.Proof.Spec
import proofs.«428750_j8675833938328_3_alg».proof.Proof.Gen.KernelIdeal.Regions
import proofs.«428750_j8675833938328_3_alg».proof.Proof.KI.HostReads2
import Idealize.ShloMosaic.Lib.StableHlo.Run
import Idealize.ShloMosaic.Lib.Pipeline.Value
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg)

variable (m : (ℓ : Loc nD τ sig) → Buf (Elt Ideal) ℓ) (ρ : Dev nD → PrngReg)

/-- The aggregation of a feature array `h` over the edge list `ei`, as the host operations spell it: row `e` of the
    gathered array is row `src e` of `h` (a negative source counted from the end), and the rows are added up at
    their targets. -/
def aggArr (ei : S2x1600000.Idx → BitVec 32) (h : S100000x64.Idx → EReal) : S100000x64.Idx → EReal :=
  Host.scatterAdd (F := Ideal) (φ := .f32) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 (shapeCast S1600000 (extractStridedSlice S1x1600000 ![1, 0] ei slices_S2x1600000_S1x1600000_1_0) shapeCasts_S1x1600000_S1600000))
    (Host.gather (α := EReal) gather_S100000x64_S1600000x1_S1600000x64_1_0_n_n_0_1_164 h
      (broadcastInDim S1600000x1 ![0] bcast_S1600000_S1600000x1_0
        (select (cmpi .slt (shapeCast S1600000 (extractStridedSlice S1x1600000 ![0, 0] ei slices_S2x1600000_S1x1600000_0_0) shapeCasts_S1x1600000_S1600000) (broadcastInDim S1600000 ![] bcast_S_S1600000 (constantI S_ 32 0#32)))
          (addi (shapeCast S1600000 (extractStridedSlice S1x1600000 ![0, 0] ei slices_S2x1600000_S1x1600000_0_0) shapeCasts_S1x1600000_S1600000) (broadcastInDim S1600000 ![] bcast_S_S1600000 (constantI S_ 32 100000#32)))
          (shapeCast S1600000 (extractStridedSlice S1x1600000 ![0, 0] ei slices_S2x1600000_S1x1600000_0_0) shapeCasts_S1x1600000_S1600000))))

/-- The same on functions of a node and a feature. -/
def aggK (c : Dev nD) (h : Fin 100000 → Fin 64 → EReal) : Fin 100000 → Fin 64 → EReal :=
  Spec.fn2 (aggArr (m ((c : Thread nD τ).loc main_arg1)) (Spec.arr2 h))

/-! ## The layout operations of the host stretches, read at an index -/

/-- Two 64×64 matrices concatenated along the rows, read as a function, are the two stacked. -/
theorem fn2_concat (A B : S64x64.Idx → EReal) :
    Spec.fn2 (a := 128) (b := 64) (concatenate S128x64 0 [⟨S64x64, A⟩, ⟨S64x64, B⟩] concatenates_S64x64_S64x64_S128x64_d0)
      = Spec.stack (Spec.fn2 (a := 64) (b := 64) A) (Spec.fn2 (a := 64) (b := 64) B) := by
  funext k j
  unfold Spec.fn2 Spec.stack
  split
  · next h =>
    exact concatenate_pair_apply_left 0 A B _ (ix2 k j) rfl (ix2 ⟨k.val, h⟩ j) (by intro b; fin_cases b <;> rfl)
  · next h =>
    exact concatenate_pair_apply_right 0 A B _ (ix2 k j) rfl rfl (ix2 ⟨k.val - 64, by omega⟩ j)
      (by intro b hb; fin_cases b
          · exact absurd rfl hb
          · rfl)
      (by show k.val - 64 + 64 = k.val; omega)

/-- A bias laid out as a 1×64 row, read along the row, is the bias. -/
theorem row1_shapeCast (b : S64.Idx → EReal) :
    Spec.row1 (b := 64) (shapeCast S1x64 b shapeCasts_S64_S1x64) = Spec.fn1 (b := 64) b := by
  funext j
  exact shapeCast_a_1a_apply b _ 0 j

/-- The graph ids laid out as a column, read down the column, are the graph ids. -/
theorem gid2_shapeCast (ids : S100000.Idx → BitVec 32) :
    Spec.gid2 (shapeCast S100000x1 ids shapeCasts_S100000_S100000x1) = Spec.gid ids := by
  funext n
  unfold Spec.gid2 Spec.gid
  congr 1
  refine shapeCast_apply ids _ _ _ ?_
  rw [Shape.rowMajor_val_two, Shape.rowMajor_val_one]
  show n.val = n.val * 1 + 0
  omega

/-- The kernel's layer over stacked weights is the reference's layer, as functions. -/
theorem layerCat_stack_fn (a x : Fin 100000 → Fin 64 → EReal) (wrel wroot : Fin 64 → Fin 64 → EReal) (b : Fin 64 → EReal) :
    Spec.layerCat a x (Spec.stack wrel wroot) b = Spec.layer a x wrel wroot b := by
  funext n j; exact Spec.layerCat_stack a x wrel wroot b n j

/-! ## What each region finds in the buffers it reads -/

section Reads

variable (c : Dev nD)

/-! ### Region 0: the first host stretch computes everything it reads but the features themselves -/

theorem V1_arg0 : (V1 (F := Ideal) m ρ c main_arg0 : S100000x64.Idx → EReal) = m ((c : Thread nD τ).loc main_arg0) :=
  StableHlo.after_of_writes_sub hostOps0 _ hostOps0_writes (by decide)

set_option maxHeartbeats 2000000 in
theorem V1_v20 : (V1 (F := Ideal) m ρ c main_v20 : S100000x64.Idx → EReal)
    = aggArr (m ((c : Thread nD τ).loc main_arg1)) (m ((c : Thread nD τ).loc main_arg0)) := by
  show StableHlo.after hostOps0 (W0 m ρ c) (Proc.devRef .tc main_v20) = _
  after_results_simp
  rfl

theorem V1_v4 : (V1 (F := Ideal) m ρ c main_v4 : S128x64.Idx → EReal)
    = concatenate S128x64 0 [⟨S64x64, m ((c : Thread nD τ).loc main_arg3)⟩, ⟨S64x64, m ((c : Thread nD τ).loc main_arg5)⟩] concatenates_S64x64_S64x64_S128x64_d0 := by
  show StableHlo.after hostOps0 (W0 m ρ c) (Proc.devRef .tc main_v4) = _
  after_results

theorem V1_v7 : (V1 (F := Ideal) m ρ c main_v7 : S1x64.Idx → EReal)
    = shapeCast S1x64 (m ((c : Thread nD τ).loc main_arg4)) shapeCasts_S64_S1x64 := by
  show StableHlo.after hostOps0 (W0 m ρ c) (Proc.devRef .tc main_v7) = _
  after_results
  rfl

/-! ### The later aggregations: the same edges, the features the region before left -/

/-- The sources and the targets of the edges, as the first host stretch slices them off the edge list. -/
theorem W1_v1 : (W1 (F := Ideal) m ρ c (Proc.devRef .tc main_v1) : S1600000.Idx → BitVec 32)
    = shapeCast S1600000 (extractStridedSlice S1x1600000 ![0, 0] (m ((c : Thread nD τ).loc main_arg1)) slices_S2x1600000_S1x1600000_0_0) shapeCasts_S1x1600000_S1600000 := by
  show StableHlo.after hostOps0 (W0 m ρ c) (Proc.devRef .tc main_v1) = _
  after_results_simp
  rfl

theorem W1_v3 : (W1 (F := Ideal) m ρ c (Proc.devRef .tc main_v3) : S1600000.Idx → BitVec 32)
    = shapeCast S1600000 (extractStridedSlice S1x1600000 ![1, 0] (m ((c : Thread nD τ).loc main_arg1)) slices_S2x1600000_S1x1600000_1_0) shapeCasts_S1x1600000_S1600000 := by
  show StableHlo.after hostOps0 (W0 m ρ c) (Proc.devRef .tc main_v3) = _
  after_results_simp
  rfl

/-- Neither region 0 nor the second host stretch writes them, -/
theorem W2_v1 : W2 (F := Ideal) m ρ c (Proc.devRef .tc main_v1) = W1 m ρ c (Proc.devRef .tc main_v1) := W2_of_ne m ρ c main_v1 (by decide)
theorem W2_v3 : W2 (F := Ideal) m ρ c (Proc.devRef .tc main_v3) = W1 m ρ c (Proc.devRef .tc main_v3) := W2_of_ne m ρ c main_v3 (by decide)
theorem W4_v1 : W4 (F := Ideal) m ρ c (Proc.devRef .tc main_v1) = W1 m ρ c (Proc.devRef .tc main_v1) :=
  (W4_of_ne m ρ c main_v1 (by decide)).trans <|
    (StableHlo.after_of_writes_sub hostOps1 _ hostOps1_writes (by decide)).trans (W2_v1 m ρ c)
theorem W4_v3 : W4 (F := Ideal) m ρ c (Proc.devRef .tc main_v3) = W1 m ρ c (Proc.devRef .tc main_v3) :=
  (W4_of_ne m ρ c main_v3 (by decide)).trans <|
    (StableHlo.after_of_writes_sub hostOps1 _ hostOps1_writes (by decide)).trans (W2_v3 m ρ c)

set_option maxHeartbeats 2000000 in
theorem V3_v32 : (V3 (F := Ideal) m ρ c main_v32 : S100000x64.Idx → EReal)
    = aggArr (m ((c : Thread nD τ).loc main_arg1)) (W2 m ρ c (Proc.devRef .tc main_v21)) := by
  show StableHlo.after hostOps1 (W2 m ρ c) (Proc.devRef .tc main_v32) = _
  after_results_simp
  rw [W2_v1, W2_v3, W1_v1, W1_v3]
  rfl

set_option maxHeartbeats 2000000 in
theorem V5_v44 : (V5 (F := Ideal) m ρ c main_v44 : S100000x64.Idx → EReal)
    = aggArr (m ((c : Thread nD τ).loc main_arg1)) (W4 m ρ c (Proc.devRef .tc main_v33)) := by
  show StableHlo.after hostOps2 (W4 m ρ c) (Proc.devRef .tc main_v44) = _
  after_results_simp
  rw [W4_v1, W4_v3, W1_v1, W1_v3]
  rfl

end Reads

/-! ## The composition -/

/-- Region 0 leaves the first layer's activations. -/
theorem h1_value (c : Dev nD) :
    (W2 (F := Ideal) m ρ c (Proc.devRef .tc main_v21) : S100000x64.Idx → EReal)
      = Spec.arr2 (Spec.relu (Spec.layer
          (aggK m c (Spec.fn2 (a := 100000) (b := 64) (m ((c : Thread nD τ).loc main_arg0))))
          (Spec.fn2 (a := 100000) (b := 64) (m ((c : Thread nD τ).loc main_arg0)))
          (Spec.fn2 (a := 64) (b := 64) (m ((c : Thread nD τ).loc main_arg3))) (Spec.fn2 (a := 64) (b := 64) (m ((c : Thread nD τ).loc main_arg5)))
          (Spec.fn1 (b := 64) (m ((c : Thread nD τ).loc main_arg4))))) := by
  have hW : (W2 (F := Ideal) m ρ c (Proc.devRef .tc main_v21) : S100000x64.Idx → EReal)
      = (dat0 (F := Ideal) (V1 m ρ) c).arrAt 4 cfg0.N := W2_arr m ρ c 4
  rw [hW, final0, V1_v20, V1_arg0, V1_v4, V1_v7, fn2_concat, row1_shapeCast, layerCat_stack_fn]
  unfold aggK
  rw [Spec.arr2_fn2]

/-- Region 1 leaves the second layer's activations. -/
theorem h2_value (c : Dev nD) :
    (W4 (F := Ideal) m ρ c (Proc.devRef .tc main_v33) : S100000x64.Idx → EReal)
      = Spec.arr2 (Spec.relu (Spec.layer
          (aggK m c (Spec.relu (Spec.layer
            (aggK m c (Spec.fn2 (a := 100000) (b := 64) (m ((c : Thread nD τ).loc main_arg0))))
            (Spec.fn2 (a := 100000) (b := 64) (m ((c : Thread nD τ).loc main_arg0)))
            (Spec.fn2 (a := 64) (b := 64) (m ((c : Thread nD τ).loc main_arg3))) (Spec.fn2 (a := 64) (b := 64) (m ((c : Thread nD τ).loc main_arg5)))
            (Spec.fn1 (b := 64) (m ((c : Thread nD τ).loc main_arg4))))))
          (Spec.relu (Spec.layer
            (aggK m c (Spec.fn2 (a := 100000) (b := 64) (m ((c : Thread nD τ).loc main_arg0))))
            (Spec.fn2 (a := 100000) (b := 64) (m ((c : Thread nD τ).loc main_arg0)))
            (Spec.fn2 (a := 64) (b := 64) (m ((c : Thread nD τ).loc main_arg3))) (Spec.fn2 (a := 64) (b := 64) (m ((c : Thread nD τ).loc main_arg5)))
            (Spec.fn1 (b := 64) (m ((c : Thread nD τ).loc main_arg4)))))
          (Spec.fn2 (a := 64) (b := 64) (m ((c : Thread nD τ).loc main_arg6))) (Spec.fn2 (a := 64) (b := 64) (m ((c : Thread nD τ).loc main_arg8)))
          (Spec.fn1 (b := 64) (m ((c : Thread nD τ).loc main_arg7))))) := by
  have hW : (W4 (F := Ideal) m ρ c (Proc.devRef .tc main_v33) : S100000x64.Idx → EReal)
      = (dat1 (F := Ideal) (V3 m ρ) c).arrAt 4 cfg1.N := W4_arr m ρ c 4
  rw [hW, final1, V3_v32, V3_v21, h1_value, V3_v5, V3_v8, fn2_concat, row1_shapeCast, layerCat_stack_fn, Spec.fn2_arr2]
  rfl

/-- What the run leaves in the result buffer is the network of the arguments. -/
theorem kernel_value (c : Dev nD) :
    (W6 (F := Ideal) m ρ c (Proc.devRef .tc main_v46) : S256x64.Idx → EReal)
      = Spec.arr2 (Spec.net (aggK m c)
          (Spec.fn2 (a := 100000) (b := 64) (m ((c : Thread nD τ).loc main_arg0))) (Spec.gid (m ((c : Thread nD τ).loc main_arg2)))
          (Spec.fn2 (a := 64) (b := 64) (m ((c : Thread nD τ).loc main_arg3))) (Spec.fn2 (a := 64) (b := 64) (m ((c : Thread nD τ).loc main_arg5))) (Spec.fn1 (b := 64) (m ((c : Thread nD τ).loc main_arg4)))
          (Spec.fn2 (a := 64) (b := 64) (m ((c : Thread nD τ).loc main_arg6))) (Spec.fn2 (a := 64) (b := 64) (m ((c : Thread nD τ).loc main_arg8))) (Spec.fn1 (b := 64) (m ((c : Thread nD τ).loc main_arg7)))
          (Spec.fn2 (a := 64) (b := 64) (m ((c : Thread nD τ).loc main_arg9))) (Spec.fn2 (a := 64) (b := 64) (m ((c : Thread nD τ).loc main_arg11))) (Spec.fn1 (b := 64) (m ((c : Thread nD τ).loc main_arg10)))
          (Spec.fn2 (a := 64) (b := 64) (m ((c : Thread nD τ).loc main_arg12))) (Spec.fn1 (b := 64) (m ((c : Thread nD τ).loc main_arg13)))) := by
  have hW : (W6 (F := Ideal) m ρ c (Proc.devRef .tc main_v46) : S256x64.Idx → EReal)
      = (dat2 (F := Ideal) (V5 m ρ) c).arrAt 7 cfg2.N := W6_arr m ρ c 7
  rw [hW, final2, V5_v44, V5_v33, h2_value, V5_v45, V5_v6, V5_v9, V5_v10, V5_arg12, fn2_concat, row1_shapeCast, row1_shapeCast,
    gid2_shapeCast, layerCat_stack_fn, Spec.fn2_arr2]
  rfl

end Cert.KernelIdeal.Hand

end
-- ==== Proof.RefRun.lean ====
/-
  The reference program's run, read back: its host operations as one list, the run that ends with each result at
  the operations' composed term of the arguments, and each operation read at an index.
-/
import proofs.«428750_j8675833938328_3_alg».proof.Proof.Gen.ReferenceIdeal.Run
import proofs.«428750_j8675833938328_3_alg».proof.Proof.Gen.ReferenceIdeal.Read
-- ==== Proof.Ref.lean ====
/-
  The reference program's result as one function of its arguments, at the ideal instance: the network `Spec.net`,
  the aggregation left as it is spelt. The reference computes each layer as two products and pools by a
  scatter-add at the graph ids, which at the ideal instance is, at each graph, the sum of the rows whose id is
  that graph; the counts are the same scatter-add of ones.
-/
import proofs.«428750_j8675833938328_3_alg».proof.Proof.RefRun
import proofs.«428750_j8675833938328_3_alg».proof.Proof.Spec
import proofs.«428750_j8675833938328_3_alg».proof.Proof.LibScatterRows
import Idealize.ShloMosaic.Lib.ValueLayout
import Idealize.ShloMosaic.Lib.IdealHost
import Idealize.ShloMosaic.PureOps.Ideal.Laws

set_option maxRecDepth 16384

noncomputable section

namespace Cert.ReferenceIdeal.Hand

open Cert.ReferenceIdeal Cert.ReferenceIdeal.Gen
open Idealize.ShloMosaic Idealize.ShloMosaic.TcCoe Idealize.ShloMosaic.ValueIdx
open Idealize.SL Idealize.SL.Sem

variable (m : (ℓ : Loc nD τ sig) → Buf (Elt Ideal) ℓ)

/-- The aggregation of a feature array `h` over the edge list `ei`, as the reference's host operations spell it. -/
def aggArr (ei : S2x1600000.Idx → BitVec 32) (h : S100000x64.Idx → EReal) : S100000x64.Idx → EReal :=
  Host.scatterAdd (F := Ideal) (φ := .f32) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 (shapeCast S1600000 (extractStridedSlice S1x1600000 ![1, 0] ei slices_S2x1600000_S1x1600000_1_0) shapeCasts_S1x1600000_S1600000))
    (Host.gather (α := EReal) gather_S100000x64_S1600000x1_S1600000x64_1_0_n_n_0_1_164 h
      (broadcastInDim S1600000x1 ![0] bcast_S1600000_S1600000x1_0
        (select (cmpi .slt (shapeCast S1600000 (extractStridedSlice S1x1600000 ![0, 0] ei slices_S2x1600000_S1x1600000_0_0) shapeCasts_S1x1600000_S1600000) (broadcastInDim S1600000 ![] bcast_S_S1600000 (constantI S_ 32 0#32)))
          (addi (shapeCast S1600000 (extractStridedSlice S1x1600000 ![0, 0] ei slices_S2x1600000_S1x1600000_0_0) shapeCasts_S1x1600000_S1600000) (broadcastInDim S1600000 ![] bcast_S_S1600000 (constantI S_ 32 100000#32)))
          (shapeCast S1600000 (extractStridedSlice S1x1600000 ![0, 0] ei slices_S2x1600000_S1x1600000_0_0) shapeCasts_S1x1600000_S1600000))))

/-- The same on functions of a node and a feature. -/
def aggR (c : Dev nD) (h : Fin 100000 → Fin 64 → EReal) : Fin 100000 → Fin 64 → EReal :=
  Spec.fn2 (aggArr (m ((c : Thread nD τ).loc main_arg1)) (Spec.arr2 h))

namespace Stages

open Cert.ReferenceIdeal.Read

/-- The aggregation on functions of a node and a feature. -/
def aggF (ei : S2x1600000.Idx → BitVec 32) (h : Fin 100000 → Fin 64 → EReal) : Fin 100000 → Fin 64 → EReal :=
  Spec.fn2 (aggArr ei (Spec.arr2 h))

/-! ## One layer at a node and a feature -/

/-- A product with a 64×64 matrix, a bias row broadcast over the nodes, and a second product: the reference's
    layer at node `n`, feature `j`. -/
theorem layer_at (a x : S100000x64.Idx → EReal) (w1 w2 : S64x64.Idx → EReal) (b : S64.Idx → EReal)
    (n : Fin 100000) (j : Fin 64) :
    val_main_v18 (F := Ideal) a w1 (ix2 n j) + val_main_v16 (F := Ideal) b (ix2 n j)
        + val_main_v18 (F := Ideal) x w2 (ix2 n j)
      = Spec.layer (Spec.fn2 a) (Spec.fn2 x) (Spec.fn2 w1) (Spec.fn2 w2) (Spec.fn1 b) n j := by
  have hl : ∀ k : Fin 64, lidx_main_v18 (ix2 n j) k = ix2 n k := fun k =>
    funext fun d => Fin.ext (by match d with | ⟨0, _⟩ => rfl | ⟨1, _⟩ => rfl)
  have hr : ∀ k : Fin 64, ridx_main_v18 (ix2 n j) k = ix2 k j := fun k =>
    funext fun d => Fin.ext (by match d with | ⟨0, _⟩ => rfl | ⟨1, _⟩ => rfl)
  have hb : idx_main_v15 (idx_main_v16 (ix2 n j)) = ix1 j :=
    funext fun d => Fin.ext (by match d with | ⟨0, _⟩ => rfl)
  rw [val_main_v18_apply, val_main_v18_apply, val_main_v16_apply, val_main_v15_apply]
  simp only [hl, hr, hb]
  rfl

/-- The same as an array, -/
theorem layer_arr (a x : S100000x64.Idx → EReal) (w1 w2 : S64x64.Idx → EReal) (b : S64.Idx → EReal) :
    addf (F := Ideal) (φ := .f32) (addf (F := Ideal) (φ := .f32) (val_main_v18 (F := Ideal) a w1) (val_main_v16 (F := Ideal) b))
        (val_main_v18 (F := Ideal) x w2)
      = Spec.arr2 (Spec.layer (Spec.fn2 a) (Spec.fn2 x) (Spec.fn2 w1) (Spec.fn2 w2) (Spec.fn1 b)) := by
  funext i
  obtain ⟨n, j, rfl⟩ : ∃ (n : Fin 100000) (j : Fin 64), i = ix2 n j := ⟨i 0, i 1, eq_ix2 i⟩
  exact layer_at a x w1 w2 b n j

/-- The broadcast zero the reference's `relu` compares with is zero at every index. -/
theorem zeros_at (i : S100000x64.Idx) : val_main_call0_v0 (F := Ideal) i = 0 := by
  rw [val_main_call0_v0_apply]
  exact Ideal.ofBits_zero_f32

/-- and the maximum with the broadcast zero is `Spec.relu`. -/
theorem relu_arr (h : Fin 100000 → Fin 64 → EReal) :
    maximumf (F := Ideal) (φ := .f32) (Spec.arr2 h) (val_main_call0_v0 (F := Ideal)) = Spec.arr2 (Spec.relu h) := by
  funext i
  show max (h (i 0) (i 1)) (val_main_call0_v0 (F := Ideal) i) = max (h (i 0) (i 1)) 0
  rw [zeros_at]

/-! ## The stages of the reference, layer by layer

  Each aggregation stage is `aggArr` of the edge list and the previous layer: the stage's own definition, with the
  edge-list preparation spelt the same way. -/

theorem v13_eq (x0 : S100000x64.Idx → EReal) (x1 : S2x1600000.Idx → BitVec 32) :
    val_main_v13 (F := Ideal) x0 x1 = aggArr x1 x0 := rfl

theorem v20_eq (x0 : S100000x64.Idx → EReal) (x1 : S2x1600000.Idx → BitVec 32) (x3 : S64x64.Idx → EReal) (x4 : S64.Idx → EReal)
    (x5 : S64x64.Idx → EReal) :
    val_main_v20 (F := Ideal) x0 x1 x3 x4 x5
      = maximumf (F := Ideal) (φ := .f32) (addf (F := Ideal) (φ := .f32) (addf (F := Ideal) (φ := .f32)
          (val_main_v18 (F := Ideal) (aggArr x1 x0) x3) (val_main_v16 (F := Ideal) x4)) (val_main_v18 (F := Ideal) x0 x5))
          (val_main_call0_v0 (F := Ideal)) := rfl

theorem v37_eq (x0 : S100000x64.Idx → EReal) (x1 : S2x1600000.Idx → BitVec 32) (x3 : S64x64.Idx → EReal) (x4 : S64.Idx → EReal) (x5 : S64x64.Idx → EReal) (x6 : S64x64.Idx → EReal) (x7 : S64.Idx → EReal) (x8 : S64x64.Idx → EReal) :
    val_main_v37 (F := Ideal) x0 x1 x3 x4 x5 x6 x7 x8
      = maximumf (F := Ideal) (φ := .f32) (addf (F := Ideal) (φ := .f32) (addf (F := Ideal) (φ := .f32)
          (val_main_v18 (F := Ideal) (aggArr x1 (val_main_v20 (F := Ideal) x0 x1 x3 x4 x5)) x6) (val_main_v16 (F := Ideal) x7))
          (val_main_v18 (F := Ideal) (val_main_v20 (F := Ideal) x0 x1 x3 x4 x5) x8))
          (val_main_call0_v0 (F := Ideal)) := rfl

theorem v53_eq (x0 : S100000x64.Idx → EReal) (x1 : S2x1600000.Idx → BitVec 32) (x3 : S64x64.Idx → EReal) (x4 : S64.Idx → EReal) (x5 : S64x64.Idx → EReal) (x6 : S64x64.Idx → EReal) (x7 : S64.Idx → EReal) (x8 : S64x64.Idx → EReal) (x9 : S64x64.Idx → EReal) (x10 : S64.Idx → EReal) (x11 : S64x64.Idx → EReal) :
    val_main_v53 (F := Ideal) x0 x1 x3 x4 x5 x6 x7 x8 x9 x10 x11
      = addf (F := Ideal) (φ := .f32) (addf (F := Ideal) (φ := .f32)
          (val_main_v18 (F := Ideal) (aggArr x1 (val_main_v37 (F := Ideal) x0 x1 x3 x4 x5 x6 x7 x8)) x9) (val_main_v16 (F := Ideal) x10))
          (val_main_v18 (F := Ideal) (val_main_v37 (F := Ideal) x0 x1 x3 x4 x5 x6 x7 x8) x11) := rfl

/-- The aggregation of an array, read as a function of node and feature, is `aggF` of the array so read. -/
theorem fn2_aggArr (ei : S2x1600000.Idx → BitVec 32) (h : S100000x64.Idx → EReal) :
    Spec.fn2 (aggArr ei h) = aggF ei (Spec.fn2 h) := by
  unfold aggF
  rw [Spec.arr2_fn2]

/-- The first layer's output, -/
def H1 (x0 : S100000x64.Idx → EReal) (x1 : S2x1600000.Idx → BitVec 32) (x3 : S64x64.Idx → EReal) (x4 : S64.Idx → EReal) (x5 : S64x64.Idx → EReal) : Fin 100000 → Fin 64 → EReal :=
  Spec.relu (Spec.layer (aggF x1 (Spec.fn2 x0)) (Spec.fn2 x0) (Spec.fn2 x3) (Spec.fn2 x5) (Spec.fn1 x4))
/-- the second's, -/
def H2 (x0 : S100000x64.Idx → EReal) (x1 : S2x1600000.Idx → BitVec 32) (x3 : S64x64.Idx → EReal) (x4 : S64.Idx → EReal) (x5 : S64x64.Idx → EReal) (x6 : S64x64.Idx → EReal) (x7 : S64.Idx → EReal) (x8 : S64x64.Idx → EReal) : Fin 100000 → Fin 64 → EReal :=
  Spec.relu (Spec.layer (aggF x1 (H1 x0 x1 x3 x4 x5)) (H1 x0 x1 x3 x4 x5) (Spec.fn2 x6) (Spec.fn2 x8) (Spec.fn1 x7))
/-- and the third's (no `relu`). -/
def H3 (x0 : S100000x64.Idx → EReal) (x1 : S2x1600000.Idx → BitVec 32) (x3 : S64x64.Idx → EReal) (x4 : S64.Idx → EReal) (x5 : S64x64.Idx → EReal) (x6 : S64x64.Idx → EReal) (x7 : S64.Idx → EReal) (x8 : S64x64.Idx → EReal) (x9 : S64x64.Idx → EReal) (x10 : S64.Idx → EReal) (x11 : S64x64.Idx → EReal) : Fin 100000 → Fin 64 → EReal :=
  Spec.layer (aggF x1 (H2 x0 x1 x3 x4 x5 x6 x7 x8)) (H2 x0 x1 x3 x4 x5 x6 x7 x8) (Spec.fn2 x9) (Spec.fn2 x11) (Spec.fn1 x10)

theorem stage1 (x0 : S100000x64.Idx → EReal) (x1 : S2x1600000.Idx → BitVec 32) (x3 : S64x64.Idx → EReal) (x4 : S64.Idx → EReal) (x5 : S64x64.Idx → EReal) :
    val_main_v20 (F := Ideal) x0 x1 x3 x4 x5 = Spec.arr2 (H1 x0 x1 x3 x4 x5) := by
  rw [v20_eq, layer_arr, relu_arr, fn2_aggArr]
  rfl

theorem stage2 (x0 : S100000x64.Idx → EReal) (x1 : S2x1600000.Idx → BitVec 32) (x3 : S64x64.Idx → EReal) (x4 : S64.Idx → EReal) (x5 : S64x64.Idx → EReal) (x6 : S64x64.Idx → EReal) (x7 : S64.Idx → EReal) (x8 : S64x64.Idx → EReal) :
    val_main_v37 (F := Ideal) x0 x1 x3 x4 x5 x6 x7 x8 = Spec.arr2 (H2 x0 x1 x3 x4 x5 x6 x7 x8) := by
  rw [v37_eq, stage1, layer_arr, relu_arr]
  rfl

theorem stage3 (x0 : S100000x64.Idx → EReal) (x1 : S2x1600000.Idx → BitVec 32) (x3 : S64x64.Idx → EReal) (x4 : S64.Idx → EReal) (x5 : S64x64.Idx → EReal) (x6 : S64x64.Idx → EReal) (x7 : S64.Idx → EReal) (x8 : S64x64.Idx → EReal) (x9 : S64x64.Idx → EReal) (x10 : S64.Idx → EReal) (x11 : S64x64.Idx → EReal) :
    val_main_v53 (F := Ideal) x0 x1 x3 x4 x5 x6 x7 x8 x9 x10 x11 = Spec.arr2 (H3 x0 x1 x3 x4 x5 x6 x7 x8 x9 x10 x11) := by
  rw [v53_eq, stage2, layer_arr]
  rfl

/-! ## The pool -/

/-- The graph ids laid out as a column, at row `n`, are the ids at `n`. -/
theorem ids_col (ids : S100000.Idx → BitVec 32) (n : Fin 100000) :
    val_main_v55 (F := Ideal) ids (ix2 n 0) = ids (ix1 n) := by
  rw [val_main_v55_apply]
  exact congrArg ids (funext fun d => Fin.ext (by match d with | ⟨0, _⟩ => rfl))

/-- The row scatter-add of an array at the graph ids into zeros is the pooled sum. -/
theorem pool_sum_at (ids : S100000.Idx → BitVec 32) (upd : S100000x64.Idx → EReal) (g : Fin 256) (j : Fin 64) :
    Host.scatterAdd (F := Ideal) (φ := .f32) scatter_S256x64_S100000x1_S100000x64_1_0_0_1 (val_main_v54 (F := Ideal))
        (val_main_v55 (F := Ideal) ids) upd (ix2 g j)
      = Spec.poolSum (Spec.gid ids) (Spec.fn2 upd) g j := by
  show Ideal.hostScatterAdd scatter_S256x64_S100000x1_S100000x64_1_0_0_1 (val_main_v54 (F := Ideal))
        (val_main_v55 (F := Ideal) ids) upd (ix2 g j) = _
  rw [Cert.LibScatterRows.hostScatterAdd_rows scatter_S256x64_S100000x1_S100000x64_1_0_0_1 rfl rfl rfl rfl, val_main_v54_apply]
  have hz : val_main_cst_7 (F := Ideal) (idx_main_v54 (ix2 g j)) = 0 := Ideal.ofBits_zero_f32
  rw [hz, zero_add]
  unfold Spec.poolSum
  refine Finset.sum_congr rfl fun n _ => ?_
  rw [ids_col]
  rfl

/-- The scatter-add of ones at the graph ids into zeros is the count. -/
theorem pool_cnt_at (ids : S100000.Idx → BitVec 32) (g : Fin 256) :
    val_main_v60 (F := Ideal) ids (ix1 g) = Spec.poolCnt (Spec.gid ids) g := by
  show Ideal.hostScatterAdd scatter_S256_S100000x1_S100000_n_0_0_1 (val_main_v58 (F := Ideal))
        (val_main_v55 (F := Ideal) ids) (val_main_v57 (F := Ideal)) (ix1 g) = _
  rw [Cert.LibScatterRows.hostScatterAdd_vec scatter_S256_S100000x1_S100000_n_0_0_1 rfl rfl rfl rfl, val_main_v58_apply]
  have hz : val_main_cst_9 (F := Ideal) (idx_main_v58 (ix1 g)) = 0 := Ideal.ofBits_zero_f32
  rw [hz, zero_add]
  unfold Spec.poolCnt
  refine Finset.sum_congr rfl fun n _ => ?_
  have h1 : val_main_v57 (F := Ideal) (ix1 n) = 1 := by
    rw [val_main_v57_apply]
    exact Ideal.ofBits_one_f32
  rw [h1, ids_col]
  rfl

/-! ## The head -/

theorem head_at (x0 : S100000x64.Idx → EReal) (x1 : S2x1600000.Idx → BitVec 32) (x2 : S100000.Idx → BitVec 32) (x3 : S64x64.Idx → EReal) (x4 : S64.Idx → EReal) (x5 : S64x64.Idx → EReal) (x6 : S64x64.Idx → EReal) (x7 : S64.Idx → EReal) (x8 : S64x64.Idx → EReal) (x9 : S64x64.Idx → EReal) (x10 : S64.Idx → EReal) (x11 : S64x64.Idx → EReal) (x12 : S64x64.Idx → EReal) (x13 : S64.Idx → EReal) (g : Fin 256) (j : Fin 64) :
    val_main_v69 (F := Ideal) x0 x1 x2 x3 x4 x5 x6 x7 x8 x9 x10 x11 x12 x13 (ix2 g j)
      = Spec.head (Spec.fn2 (val_main_v56 (F := Ideal) x0 x1 x2 x3 x4 x5 x6 x7 x8 x9 x10 x11)) (Spec.fn1 (val_main_v60 (F := Ideal) x2))
          (Spec.fn2 x12) (Spec.fn1 x13) g j := by
  have hl : ∀ k : Fin 64, lidx_main_v66 (ix2 g j) k = ix2 g k := fun k =>
    funext fun d => Fin.ext (by match d with | ⟨0, _⟩ => rfl | ⟨1, _⟩ => rfl)
  have hr : ∀ k : Fin 64, ridx_main_v66 (ix2 g j) k = ix2 k j := fun k =>
    funext fun d => Fin.ext (by match d with | ⟨0, _⟩ => rfl | ⟨1, _⟩ => rfl)
  have hb : idx_main_v67 (idx_main_v68 (ix2 g j)) = ix1 j :=
    funext fun d => Fin.ext (by match d with | ⟨0, _⟩ => rfl)
  have hc : ∀ k : Fin 64, idx_main_v63 (idx_main_v64 (ix2 g k)) = ix1 g := fun k =>
    funext fun d => Fin.ext (by match d with | ⟨0, _⟩ => rfl)
  have h1 : val_main_v61 (F := Ideal) (ix1 g) = 1 := by
    rw [val_main_v61_apply]
    exact Ideal.ofBits_one_f32
  rw [val_main_v69_apply, val_main_v66_apply, val_main_v68_apply, val_main_v67_apply]
  simp only [hl, hr, hb, val_main_v65_apply, val_main_v64_apply, val_main_v63_apply, val_main_v62_apply, hc, h1]
  rfl

/-! ## The whole reference -/

/-- The reference's last stage, as an array, is the network of the arguments. -/
theorem stages_net (x0 : S100000x64.Idx → EReal) (x1 : S2x1600000.Idx → BitVec 32) (x2 : S100000.Idx → BitVec 32) (x3 : S64x64.Idx → EReal) (x4 : S64.Idx → EReal) (x5 : S64x64.Idx → EReal) (x6 : S64x64.Idx → EReal) (x7 : S64.Idx → EReal) (x8 : S64x64.Idx → EReal) (x9 : S64x64.Idx → EReal) (x10 : S64.Idx → EReal) (x11 : S64x64.Idx → EReal) (x12 : S64x64.Idx → EReal) (x13 : S64.Idx → EReal) :
    val_main_v69 (F := Ideal) x0 x1 x2 x3 x4 x5 x6 x7 x8 x9 x10 x11 x12 x13
      = Spec.arr2 (Spec.net (aggF x1) (Spec.fn2 x0) (Spec.gid x2)
          (Spec.fn2 x3) (Spec.fn2 x5) (Spec.fn1 x4) (Spec.fn2 x6) (Spec.fn2 x8) (Spec.fn1 x7)
          (Spec.fn2 x9) (Spec.fn2 x11) (Spec.fn1 x10) (Spec.fn2 x12) (Spec.fn1 x13)) := by
  have hs : Spec.fn2 (val_main_v56 (F := Ideal) x0 x1 x2 x3 x4 x5 x6 x7 x8 x9 x10 x11) = Spec.poolSum (Spec.gid x2) (H3 x0 x1 x3 x4 x5 x6 x7 x8 x9 x10 x11) := by
    funext g j
    unfold val_main_v56
    rw [stage3]
    exact pool_sum_at x2 (Spec.arr2 (H3 x0 x1 x3 x4 x5 x6 x7 x8 x9 x10 x11)) g j
  have hc : Spec.fn1 (val_main_v60 (F := Ideal) x2) = Spec.poolCnt (Spec.gid x2) := by
    funext g
    exact pool_cnt_at x2 g
  funext i
  obtain ⟨g, j, rfl⟩ : ∃ (g : Fin 256) (j : Fin 64), i = ix2 g j := ⟨i 0, i 1, eq_ix2 i⟩
  rw [head_at, hs, hc]
  rfl

end Stages

/-- The reference's result term is the network of the arguments. -/
theorem ref_value (c : Dev nD) :
    (Cert.ReferenceIdeal.Value.res_main_v69 (F := Ideal) m c : S256x64.Idx → EReal)
      = Spec.arr2 (Spec.net (aggR m c)
          (Spec.fn2 (a := 100000) (b := 64) (m ((c : Thread nD τ).loc main_arg0))) (Spec.gid (m ((c : Thread nD τ).loc main_arg2)))
          (Spec.fn2 (a := 64) (b := 64) (m ((c : Thread nD τ).loc main_arg3))) (Spec.fn2 (a := 64) (b := 64) (m ((c : Thread nD τ).loc main_arg5))) (Spec.fn1 (b := 64) (m ((c : Thread nD τ).loc main_arg4)))
          (Spec.fn2 (a := 64) (b := 64) (m ((c : Thread nD τ).loc main_arg6))) (Spec.fn2 (a := 64) (b := 64) (m ((c : Thread nD τ).loc main_arg8))) (Spec.fn1 (b := 64) (m ((c : Thread nD τ).loc main_arg7)))
          (Spec.fn2 (a := 64) (b := 64) (m ((c : Thread nD τ).loc main_arg9))) (Spec.fn2 (a := 64) (b := 64) (m ((c : Thread nD τ).loc main_arg11))) (Spec.fn1 (b := 64) (m ((c : Thread nD τ).loc main_arg10)))
          (Spec.fn2 (a := 64) (b := 64) (m ((c : Thread nD τ).loc main_arg12))) (Spec.fn1 (b := 64) (m ((c : Thread nD τ).loc main_arg13)))) := by
  rw [Read.val_main_v69_eq]
  exact Stages.stages_net _ _ _ _ _ _ _ _ _ _ _ _ _ _

end Cert.ReferenceIdeal.Hand

end
-- ==== Proof.lean ====
/-
  The certificate's five claims, assembled.

  Both kernel programs (the word-level one and its idealization) run their three regions among stretches of host
  operations; each region's body is run at a symbolic grid point and the launch threads the buffer contents through
  the six items, which gives the frames and, at the ideal instance, names what the run leaves in the result buffer.
  The reference is a host program whose run ends with its result at the composed term of the arguments.

  At the ideal instance both results are the same network of the arguments (`Cert.Spec.net`): three
  graph-convolution layers over one and the same edge aggregation, the mean pool by graph id, the linear head.
  The kernel's single product of width 128 over stacked weights is the reference's two products of width 64 added
  (a finite sum split at 64, addition reordered); the kernel's one-hot product pool is the reference's scatter-add
  at the graph ids (`0 · x = 0` and `1 · x = x` for every extended real `x`, and an id outside `[0, 256)` is
  dropped on both sides). No law used needs finiteness, so the precondition is not opened.
-/
import proofs.«428750_j8675833938328_3_alg».proof.Defs
import proofs.«428750_j8675833938328_3_alg».proof.Proof.Gen.Kernel
import proofs.«428750_j8675833938328_3_alg».proof.Proof.Gen.KernelIdeal
import proofs.«428750_j8675833938328_3_alg».proof.Proof.Gen.ReferenceIdeal
import proofs.«428750_j8675833938328_3_alg».proof.Proof.Gen.Pre_finite_inputs
import proofs.«428750_j8675833938328_3_alg».proof.Proof.K.Run
import proofs.«428750_j8675833938328_3_alg».proof.Proof.KI.Run
import proofs.«428750_j8675833938328_3_alg».proof.Proof.KI.Host
import proofs.«428750_j8675833938328_3_alg».proof.Proof.Ref
import Idealize.ShloMosaic.Adequacy
import Idealize.ShloMosaic.Init

noncomputable section

namespace Cert.Proof

open Idealize.ShloMosaic Idealize.ShloMosaic.TcCoe Idealize.SL.Sem

/-- The two programs aggregate over the edges by the same host operations: one function. -/
theorem aggArr_eq (ei : Cert.KernelIdeal.S2x1600000.Idx → BitVec 32) (h : Cert.KernelIdeal.S100000x64.Idx → EReal) :
    Cert.KernelIdeal.Hand.aggArr ei h = Cert.ReferenceIdeal.Hand.aggArr ei h := by
  unfold Cert.KernelIdeal.Hand.aggArr Cert.ReferenceIdeal.Hand.aggArr
  unfold Cert.KernelIdeal.scatter_S100000x64_S1600000x1_S1600000x64_1_0_0_1 Cert.ReferenceIdeal.scatter_S100000x64_S1600000x1_S1600000x64_1_0_0_1
    Cert.KernelIdeal.gather_S100000x64_S1600000x1_S1600000x64_1_0_n_n_0_1_164 Cert.ReferenceIdeal.gather_S100000x64_S1600000x1_S1600000x64_1_0_n_n_0_1_164
  rfl

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization's one rewrite: widening back what was just narrowed is the identity at the ideal instance. -/
theorem preserves : Cert.preserves_Kernel_KernelIdeal :=
  IdealRules.truncf_extf.statement Cert.KernelIdeal.S5000x256 .f32 .bf16

open Cert.KernelIdeal Cert.KernelIdeal.Gen Cert.KernelIdeal.Hand in
/-- From memories agreeing on the arguments both idealized programs end with the network of the arguments. -/
theorem algebraic : Cert.algebraic_KernelIdeal_ReferenceIdeal := by
  intro m ρ m' ρ' _ hagree
  refine ⟨fun c => W6 (F := Ideal) m ρ c (Proc.devRef .tc main_v46), ?_, ?_⟩
  · exact (θ_run Cert.KernelIdeal.defs _ _).mono (fun r h c =>
      ⟨h c _ (mem_uc main_v46 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c)⟩)
      (run_main (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12, h13⟩ := hagree c
    have hagg : Cert.ReferenceIdeal.Hand.aggR m' c = aggK m c := by
      funext f
      unfold Cert.ReferenceIdeal.Hand.aggR aggK
      rw [h1, ← aggArr_eq]
    refine (Cert.ReferenceIdeal.Hand.ref_value m' c).trans ?_
    rw [hagg, h0, h2, h3, h4, h5, h6, h7, h8, h9, h10, h11, h12, h13]
    exact (kernel_value m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
